-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x1024 : Shape := ⟨3, ![1024, 4, 1024]⟩
abbrev S4x1024 : Shape := ⟨2, ![4, 1024]⟩
abbrev S4 : Shape := ⟨1, ![4]⟩
abbrev S32000x1024 : Shape := ⟨2, ![32000, 1024]⟩
abbrev S1024 : Shape := ⟨1, ![1024]⟩
abbrev S_ : Shape := ⟨0, ![]⟩

class Facts : Prop where
  bcast_S_S1024x4x1024 : S_.BroadcastsInDim S1024x4x1024 (![] : Fin 0 → Fin S1024x4x1024.rank)
  reducesTo_S1024x4x1024_S_d0_1_2 : S1024x4x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg1 : IVec S4x1024 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S4x1024 32 := broadcastInDim S4x1024 ![] bcast_S_S4x1024 main_c_6
  let main_v20 : IVec S4x1024 1 := cmpi .sge main_arg1 main_v19
  let main_c_7 : IVec S_ 32 := constantI S_ 32 32000#32
  let main_v21 : IVec S4x1024 32 := broadcastInDim S4x1024 ![] bcast_S_S4x1024 main_c_7
  let main_v22 : IVec S4x1024 1 := cmpi .slt main_arg1 main_v21
  let main_v23 : IVec S4x1024 1 := andi main_v20 main_v22
  let main_c_8 : IVec S_ 1 := constantI S_ 1 1#1
  let main_v24 : IVec S_ 1 := (fun x v => Host.reduce IntOp.andi x v reducesTo_S4x1024_S_d0_1 h_S_) main_v23 main_c_8
  let main_v25 : IVec S_ 1 := andi main_v18 main_v24
  main_v25

def fn {F : FTy → Type} [FloatOps F] (main_arg0 : FVec F S1024x4x1024 .f32) (main_arg1 : IVec S4x1024 32) (main_arg2 : IVec S4 32) (main_arg3 : FVec F S32000x1024 .f32) (main_arg4 : FVec F S1024 .f32) (main_arg5 : FVec F S1024 .f32) : IVec S_ 1 :=
  let main_v0 : FVec F S1024x4x1024 .f32 := Host.absf main_arg0
  let main_cst : FVec F S_ .f32 := constant S_ .f32 0x7F800000#32
  let main_v1 : FVec F S1024x4x1024 .f32 := broadcastInDim S1024x4x1024 ![] bcast_S_S1024x4x1024 main_cst
  let main_v2 : IVec S1024x4x1024 1 := cmpf .olt main_v0 main_v1
  let main_c : IVec S_ 1 := constantI S_ 1 1#1
  let main_v3 : IVec S_ 1 := (fun x v => Host.reduce IntOp.andi x v reducesTo_S1024x4x1024_S_d0_1_2 h_S_) main_v2 main_c
  let main_v4 : FVec F S32000x1024 .f32 := Host.absf main_arg3
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_v13 main_v16
-- ==== Kernel.lean ====
abbrev S1024x4x1024 : Shape := ⟨3, ![1024, 4, 1024]⟩
abbrev S4x1024 : Shape := ⟨2, ![4, 1024]⟩
abbrev S4 : Shape := ⟨1, ![4]⟩
abbrev S32000x1024 : Shape := ⟨2, ![32000, 1024]⟩
abbrev S1024 : Shape := ⟨1, ![1024]⟩
abbrev S4x1024x1024 : Shape := ⟨3, ![4, 1024, 1024]⟩
abbrev S4x1023x1024 : Shape := ⟨3, ![4, 1023, 1024]⟩
abbrev S_ : Shape := ⟨0, ![]⟩
abbrev S4x1024x1 : Shape := ⟨3, ![4, 1024, 1]⟩
abbrev S1x1x1024 : Shape := ⟨3, ![1, 1, 1024]⟩
abbrev S4x1023 : Shape := ⟨2, ![4, 1023]⟩
abbrev S4x1024x4 : Shape := ⟨3, ![4, 1024, 4]⟩
abbrev S1x512x1024 : Shape := ⟨3, ![1, 512, 1024]⟩
abbrev S3200x1024 : Shape := ⟨2, ![3200, 1024]⟩
abbrev S4x512 : Shape := ⟨2, ![4, 512]⟩
abbrev S1x512x4 : Shape := ⟨3, ![1, 512, 4]⟩
abbrev S512x1 : Shape := ⟨2, ![512, 1]⟩
abbrev S512x1024 : Shape := ⟨2, ![512, 1024]⟩
abbrev S512x3200 : Shape := ⟨2, ![512, 3200]⟩
abbrev S1x512 : Shape := ⟨2, ![1, 512]⟩
abbrev S512 : Shape := ⟨1, ![512]⟩
abbrev S1x3200 : Shape := ⟨2, ![1, 3200]⟩
abbrev S512x4 : Shape := ⟨2, ![512, 4]⟩
abbrev S4x1023x4 : Shape := ⟨3, ![4, 1023, 4]⟩
abbrev S4x1023x1 : Shape := ⟨3, ![4, 1023, 1]⟩
abbrev S1023 : Shape := ⟨1, ![1023]⟩
abbrev S1x1023 : Shape := ⟨2, ![1, 1023]⟩
abbrev S4x1 : Shape := ⟨2, ![4, 1]⟩

abbrev nBuf : Space → Nat
  | .hbm => 86
  | .vmem => 12
  | .smem => 0
  | _ => 0

abbrev bufTy : (tb : Table) → Fin (tcTables nBuf tb) → BufTy
  | .hbm, ⟨0, _⟩ => ⟨S1024x4x1024, .f32⟩
  | .hbm, ⟨1, _⟩ => ⟨S4x1024, .i32⟩
  | .hbm, ⟨2, _⟩ => ⟨S4, .i32⟩
  | .hbm, ⟨3, _⟩ => ⟨S32000x1024, .f32⟩
  | .hbm, ⟨4, _⟩ => ⟨S1024, .f32⟩
  | .hbm, ⟨5, _⟩ => ⟨S1024, .f32⟩
  | .hbm, ⟨6, _⟩ => ⟨S4x1024x1024, .f32⟩
  | .hbm, ⟨7, _⟩ => ⟨S4x1023x1024, .f32⟩
  | .hbm, ⟨8, _⟩ => ⟨S_, .i32⟩
  | .hbm, ⟨9, _⟩ => ⟨S_, .f32⟩
  | .hbm, ⟨10, _⟩ => ⟨S4x1024x1024, .f32⟩
  | .hbm, ⟨11, _⟩ => ⟨S_, .f32⟩
  | .hbm, ⟨12, _⟩ => ⟨S4x1024, .f32⟩
  | .hbm, ⟨13, _⟩ => ⟨S4x1024x1, .f32⟩
  | .hbm, ⟨14, _⟩ => ⟨S_, .f32⟩
  | .hbm, ⟨15, _⟩ => ⟨S4x1024x1, .f32⟩
  | .hbm, ⟨16, _⟩ => ⟨S4x1024x1, .f32⟩
  | .hbm, ⟨17, _⟩ => ⟨S4x1024x1024, .f32⟩
  | .hbm, ⟨18, _⟩ => ⟨S4x1024x1024, .f32⟩
  | .hbm, ⟨19, _⟩ => ⟨S4x1024x1024, .f32⟩
  | .hbm, ⟨20, _⟩ => ⟨S_, .f32⟩
  | .hbm, ⟨21, _⟩ => ⟨S4x1024, .f32⟩
  | .hbm, ⟨22, _⟩ => ⟨S4x1024x1, .f32⟩
  | .hbm, ⟨23, _⟩ => ⟨S_, .f32⟩
  | .hbm, ⟨24, _⟩ => ⟨S4x1024x1, .f32⟩
  | .hbm, ⟨25, _⟩ => ⟨S4x1024x1, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1, .f32⟩
  | .hbm, ⟨30, _⟩ => ⟨S4x1024x1, .f32⟩
  | .hbm, ⟨31, _⟩ => ⟨S4x1024x1, .f32⟩
  | .hbm, ⟨32, _⟩ => ⟨S4x1024x1024, .f32⟩
  | .hbm, ⟨33, _⟩ => ⟨S4x1024x1024, .f32⟩
  | .hbm, ⟨34, _⟩ => ⟨S1x1x1024, .f32⟩
  | .hbm, ⟨35, _⟩ => ⟨S4x1024x1024, .f32⟩
  | .hbm, ⟨36, _⟩ => ⟨S4x1024x1024, .f32⟩
  | .hbm, ⟨37, _⟩ => ⟨S1x1x1024, .f32⟩
  | .hbm, ⟨38, _⟩ => ⟨S4x1024x1024, .f32⟩
  | .hbm, ⟨39, _⟩ => ⟨S4x1024x1024, .f32⟩
  | .hbm, ⟨40, _⟩ => ⟨S4x1024x1024, .bf16⟩
  | .hbm, ⟨41, _⟩ => ⟨S4x1023, .i32⟩
  | .hbm, ⟨42, _⟩ => ⟨S_, .i32⟩
  | .hbm, ⟨43, _⟩ => ⟨S_, .i32⟩
  | .hbm, ⟨44, _⟩ => ⟨S4x1024, .i32⟩
  | .hbm, ⟨45, _⟩ => ⟨S32000x1024, .bf16⟩
  | .hbm, ⟨46, _⟩ => ⟨S4x1024x4, .f32⟩
  | .hbm, ⟨47, _⟩ => ⟨S4x1023x4, .f32⟩
  | .hbm, ⟨48, _⟩ => ⟨S4x1023x1, .f32⟩
  | .hbm, ⟨49, _⟩ => ⟨S4x1023, .f32⟩
  | .hbm, ⟨50, _⟩ => ⟨S4x1023x1, .f32⟩
  | .hbm, ⟨51, _⟩ => ⟨S4x1023, .f32⟩
  | .hbm, ⟨52, _⟩ => ⟨S4x1023x1, .f32⟩
  | .hbm, ⟨53, _⟩ => ⟨S4x1023, .f32⟩
  | .hbm, ⟨54, _⟩ => ⟨S4x1023x1, .f32⟩
  | .hbm, ⟨55, _⟩ => ⟨S4x1023, .f32⟩
  | .hbm, ⟨56, _⟩ => ⟨S4x1023, .f32⟩
  | .hbm, ⟨57, _⟩ => ⟨S4x1023, .f32⟩
  | .hbm, ⟨58, _⟩ => ⟨S4x1023, .f32⟩
  | .hbm, ⟨59, _⟩ => ⟨S_, .f32⟩
  | .hbm, ⟨60, _⟩ => ⟨S4x1023, .f32⟩
  | .hbm, ⟨61, _⟩ => ⟨S4x1023, .f32⟩
  | .hbm, ⟨62, _⟩ => ⟨S4x1023, .f32⟩
  | .hbm, ⟨63, _⟩ => ⟨S_, .f32⟩
  | .hbm, ⟨64, _⟩ => ⟨S4x1023, .f32⟩
  | .hbm, ⟨65, _⟩ => ⟨S4x1023, .f32⟩
  | .hbm, ⟨66, _⟩ => ⟨S_, .f32⟩
  | .hbm, ⟨67, _⟩ => ⟨S4x1023, .f32⟩
  | .hbm, ⟨68, _⟩ => ⟨S4x1023, .f32⟩
  | .hbm, ⟨69, _⟩ => ⟨S4x1023, .f32⟩
  | .hbm, ⟨70, _⟩ => ⟨S1023, .i32⟩
  | .hbm, ⟨71, _⟩ => ⟨S1x1023, .i32⟩
  | .hbm, ⟨72, _⟩ => ⟨S4x1, .i32⟩
  | .hbm, ⟨73, _⟩ => ⟨S_, .i32⟩
  | .hbm, ⟨74, _⟩ => ⟨S4x1, .i32⟩
  | .hbm, ⟨75, _⟩ => ⟨S4x1, .i32⟩
  | .hbm, ⟨76, _⟩ => ⟨S4x1023, .i32⟩
  | .hbm, ⟨77, _⟩ => ⟨S4x1023, .i32⟩
  | .hbm, ⟨78, _⟩ => ⟨S4x1023, .i1⟩
  | .hbm, ⟨79, _⟩ => ⟨S4x1023, .f32⟩
  | .hbm, ⟨80, _⟩ => ⟨S_, .f32⟩
  | .hbm, ⟨81, _⟩ => ⟨S_, .f32⟩
  | .hbm, ⟨82, _⟩ => ⟨S4x1023, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1x512x1024, .bf16⟩
  | .local _ .vmem, ⟨1, _⟩ => ⟨S1x512x1024, .bf16⟩
  | .local _ .vmem, ⟨2, _⟩ => ⟨S3200x1024, .bf16⟩
  | .local _ .vmem, ⟨3, _⟩ => ⟨S3200x1024, .bf16⟩
  | .local _ .vmem, ⟨4, _⟩ => ⟨S4x512, .i32⟩
  | .local _ .vmem, ⟨5, _⟩ => ⟨S4x512, .i32⟩
  | .local _ .vmem, ⟨6, _⟩ => ⟨S1x512x4, .f32⟩
  | .local _ .vmem, ⟨7, _⟩ => ⟨S1x512x4, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S1024x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 10], ![false, false, false]⟩

def k0_off1 (i : grid0.Coords) : Fin 2 → Nat :=
  let arg0 : BitVec 32 := BitVec.ofNat 32 (i 0).val
  let v8 : Index := Scalar.indexCast arg0
  let c0_5 : Index := 0#32
  ![v8.toNat, 0]
def k0_cond2 (i : grid0.Coords) : BitVec 1 :=
  let arg2 : BitVec 32 := BitVec.ofNat 32 (i 2).val
  let c9_i32 : BitVec 32 := 9#32
  let v56 : BitVec 1 := Scalar.cmpi .eq arg2 c9_i32
  let v57 : BitVec 32 := Scalar.extui v56
  let c0_i32_29 : BitVec 32 := 0#32
  let v58 : BitVec 1 := Scalar.cmpi .ne v57 c0_i32_29
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S3200x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S1024x4x1024_S4x1024x1024_1_0_2 : S1024x4x1024.Transposes [1, 0, 2] S4x1024x1024
  slices_S4x1024x1024_S4x1023x1024_0_0_0 : S4x1024x1024.Slices ![0, 0, 0] S4x1023x1024
  pads_S4x1023x1024_S4x1024x1024_000_010_000 : S4x1023x1024.Pads (![0, 0, 0] : Fin 3 → Nat) ![0, 1, 0] ![0, 0, 0] S4x1024x1024
  h_S_ : 0 < S_.numel
  reducesTo_S4x1024x1024_S4x1024_d2 : S4x1024x1024.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  bitsLt_bf16_f32 : FTy.bits .bf16 < FTy.bits .f32
  slices_S4x1024_S4x1023_0_1 : S4x1024.Slices ![0, 1] S4x1023
  pads_S4x1023_S4x1024_000_010 : S4x1023.Pads (![0, 0] : Fin 2 → Nat) ![0, 1] ![0, 0] S4x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3200x1024_S3200x1024_0_0 : ∀ a, (![0, 0] : Fin 2 → Nat) a + S3200x1024.size a ≤ S3200x1024.size a
  h_S3200x1024 : 0 < S3200x1024.numel
  shapeCasts_S3200x1024_S3200x1024 : S3200x1024.ShapeCasts S3200x1024
  h_S1x512 : 0 < S1x512.numel
  shapeCasts_S1x512_S512 : S1x512.ShapeCasts S512
  shapeCasts_S512_S512x1 : S512.ShapeCasts S512x1
  iota_S1x3200_d1_w32 : S1x3200.Iotas .tc 32 [1]
  broadcasts_S1x3200_S512x3200 : S1x3200.Broadcasts S512x3200
  broadcasts_S512x1_S512x3200 : S512x1.Broadcasts S512x3200
  reduces_S512x3200_S512 : S512x3200.Reduces [1] S512
  concatenates_S512x1_S512x1_S512x1_S512x1_S512x4_d1 : Shape.Concatenates [S512x1, S512x1, S512x1, S512x1] S512x4 1
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  shapeCasts_S512x4_S1x512x4 : S512x4.ShapeCasts S1x512x4
  slices_S4x1024x4_S4x1023x4_0_0_0 : S4x1024x4.Slices ![0, 0, 0] S4x1023x4
  slices_S4x1023x4_S4x1023x1_0_0_0 : S4x1023x4.Slices ![0, 0, 0] S4x1023x1
  shapeCasts_S4x1023x1_S4x1023 : S4x1023x1.ShapeCasts S4x1023
  slices_S4x1023x4_S4x1023x1_0_0_1 : S4x1023x4.Slices ![0, 0, 1] S4x1023x1
  slices_S4x1023x4_S4x1023x1_0_0_2 : S4x1023x4.Slices ![0, 0, 2] S4x1023x1
  slices_S4x1023x4_S4x1023x1_0_0_3 : S4x1023x4.Slices ![0, 0, 3] S4x1023x1
  bcast_S_S4x1023 : S_.BroadcastsInDim S4x1023 (![] : Fin 0 → Fin S4x1023.rank)
  bcast_S1023_S1x1023_1 : S1023.BroadcastsInDim S1x1023 (![1] : Fin 1 → Fin S1x1023.rank)
  bcast_S4_S4x1_0 : S4.BroadcastsInDim S4x1 (![0] : Fin 1 → Fin S4x1.rank)
  bcast_S_S4x1 : S_.BroadcastsInDim S4x1 (![] : Fin 0 → Fin S4x1.rank)
  bcast_S1x1023_S4x1023_0_1 : S1x1023.BroadcastsInDim S4x1023 (![0, 1] : Fin 2 → Fin S4x1023.rank)
  bcast_S4x1_S4x1023_0_1 : S4x1.BroadcastsInDim S4x1023 (![0, 1] : Fin 2 → Fin S4x1023.rank)
  reducesTo_S4x1023_S_d0_1 : S4x1023.ReducesTo [0, 1] S_
  dot_S512x1024_S3200x1024_S512x3200_1_1_0_0_n_n_wf : DotDims.WF S512x1024 S3200x1024 S512x3200 [1] [1] [0] [0] [] []
  hrank0 : 0 < grid0.rank
  k0_off1_inb : ∀ i : grid0.Coords, ∀ a, (k0_off1 i) a + S1x512.size a ≤ S4x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x1024x1024.size a
  hwx0_0 : ∀ i : grid0.Coords, EltTy.bits .bf16 = 32 ∨ (Rect.block (s := S4x1024x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1024.size a ≤ S32000x1024.size a
  hwx0_1 : ∀ i : grid0.Coords, EltTy.bits .bf16 = 32 ∨ (Rect.block (s := S32000x1024) S3200x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x1024.size a
  hwx0_2 : ∀ i : grid0.Coords, EltTy.bits .i32 = 32 ∨ (Rect.block (s := S4x1024) S4x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4.size a ≤ S4x1024x4.size a
  hwx0_3 : ∀ i : grid0.Coords, EltTy.bits .f32 = 32 ∨ (Rect.block (s := S4x1024x4) S1x512x4.size (cc0_transform_3 i) (hinb0_3 i)).WholeWords (EltTy.packing .f32)

variable [Facts₀]

def dot_S512x1024_S3200x1024_S512x3200_1_1_0_0_n_n : DotDims S512x1024 S3200x1024 S512x3200 where
  lhsContracting := [1]
  rhsContracting := [1]
  lhsNonContracting := [0]
  rhsNonContracting := [0]
  lhsBatch := []
  rhsBatch := []
  wf := dot_S512x1024_S3200x1024_S512x3200_1_1_0_0_n_n_wf

abbrev win0_0 : Pipeline.Window sig grid0 :=
  Pipeline.Window.ofSpec (Memref.whole main_v27) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S3200x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x512x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4x1024 : Shape := ⟨3, ![1024, 4, 1024]⟩
abbrev S4x1024 : Shape := ⟨2, ![4, 1024]⟩
abbrev S4 : Shape := ⟨1, ![4]⟩
abbrev S32000x1024 : Shape := ⟨2, ![32000, 1024]⟩
abbrev S1024 : Shape := ⟨1, ![1024]⟩
abbrev S4x1024x1024 : Shape := ⟨3, ![4, 1024, 1024]⟩
abbrev S4x1023x1024 : Shape := ⟨3, ![4, 1023, 1024]⟩
abbrev S4x1023 : Shape := ⟨2, ![4, 1023]⟩
abbrev S_ : Shape := ⟨0, ![]⟩
abbrev S4x1023x1 : Shape := ⟨3, ![4, 1023, 1]⟩
abbrev S1x1x1024 : Shape := ⟨3, ![1, 1, 1024]⟩
abbrev S4x1023x32000 : Shape := ⟨3, ![4, 1023, 32000]⟩
abbrev S4x1023x1x1 : Shape := ⟨4, ![4, 1023, 1, 1]⟩
abbrev S1 : Shape := ⟨1, ![1]⟩
abbrev S1x1x1x1 : Shape := ⟨4, ![1, 1, 1, 1]⟩
abbrev S1023 : Shape := ⟨1, ![1023]⟩
abbrev S1x1023 : Shape := ⟨2, ![1, 1023]⟩
abbrev S4x1 : Shape := ⟨2, ![4, 1]⟩

abbrev nBuf : Space → Nat
  | .hbm => 105
  | .vmem => 0
  | .smem => 0
  | _ => 0

abbrev bufTy : (tb : Table) → Fin (tcTables nBuf tb) → BufTy
  | .hbm, ⟨0, _⟩ => ⟨S1024x4x1024, .f32⟩
  | .hbm, ⟨1, _⟩ => ⟨S4x1024, .i32⟩
  | .hbm, ⟨2, _⟩ => ⟨S4, .i32⟩
  | .hbm, ⟨3, _⟩ => ⟨S32000x1024, .f32⟩
  | .hbm, ⟨4, _⟩ => ⟨S1024, .f32⟩
  | .hbm, ⟨5, _⟩ => ⟨S1024, .f32⟩
  | .hbm, ⟨6, _⟩ => ⟨S4x1024x1024, .f32⟩
  | .hbm, ⟨7, _⟩ => ⟨S4x1023x1024, .f32⟩
  | .hbm, ⟨8, _⟩ => ⟨S4x1023, .i32⟩
  | .hbm, ⟨9, _⟩ => ⟨S_, .f32⟩
  | .hbm, ⟨10, _⟩ => ⟨S4x1023, .f32⟩
  | .hbm, ⟨11, _⟩ => ⟨S4x1023x1, .f32⟩
  | .hbm, ⟨12, _⟩ => ⟨S_, .f32⟩
  | .hbm, ⟨13, _⟩ => ⟨S4x1023x1, .f32⟩
  | .hbm, ⟨14, _⟩ => ⟨S4x1023x1, .f32⟩
  | .hbm, ⟨15, _⟩ => ⟨S4x1023x1024, .f32⟩
  | .hbm, ⟨16, _⟩ => ⟨S4x1023x1024, .f32⟩
  | .hbm, ⟨17, _⟩ => ⟨S4x1023x1024, .f32⟩
  | .hbm, ⟨18, _⟩ => ⟨S_, .f32⟩
  | .hbm, ⟨19, _⟩ => ⟨S4x1023, .f32⟩
  | .hbm, ⟨20, _⟩ => ⟨S4x1023x1, .f32⟩
  | .hbm, ⟨21, _⟩ => ⟨S_, .f32⟩
  | .hbm, ⟨22, _⟩ => ⟨S4x1023x1, .f32⟩
  | .hbm, ⟨23, _⟩ => ⟨S4x1023x1, .f32⟩
  | .hbm, ⟨24, _⟩ => ⟨S4x1023x1024, .f32⟩
  | .hbm, ⟨25, _⟩ => ⟨S4x1023x1024, .f32⟩
  | .hbm, ⟨26, _⟩ => ⟨S_, .f32⟩
  | .hbm, ⟨27, _⟩ => ⟨S4x1023x1, .f32⟩
  | .hbm, ⟨28, _⟩ => ⟨S4x1023x1, .f32⟩
  | .hbm, ⟨29, _⟩ => ⟨S4x1023x1, .f32⟩
  | .hbm, ⟨30, _⟩ => ⟨S4x1023x1024, .f32⟩
  | .hbm, ⟨31, _⟩ => ⟨S4x1023x1024, .f32⟩
  | .hbm, ⟨32, _⟩ => ⟨S1x1x1024, .f32⟩
  | .hbm, ⟨33, _⟩ => ⟨S4x1023x1024, .f32⟩
  | .hbm, ⟨34, _⟩ => ⟨S4x1023x1024, .f32⟩
  | .hbm, ⟨35, _⟩ => ⟨S1x1x1024, .f32⟩
  | .hbm, ⟨36, _⟩ => ⟨S4x1023x1024, .f32⟩
  | .hbm, ⟨37, _⟩ => ⟨S4x1023x1024, .f32⟩
  | .hbm, ⟨38, _⟩ => ⟨S4x1023x32000, .f32⟩
  | .hbm, ⟨39, _⟩ => ⟨S_, .f32⟩
  | .hbm, ⟨40, _⟩ => ⟨S4x1023, .f32⟩
  | .hbm, ⟨41, _⟩ => ⟨S_, .f32⟩
  | .hbm, ⟨42, _⟩ => ⟨S4x1023, .f32⟩
  | .hbm, ⟨43, _⟩ => ⟨S4x1023, .f32⟩
  | .hbm, ⟨44, _⟩ => ⟨S4x1023x1, .f32⟩
  | .hbm, ⟨45, _⟩ => ⟨S4x1023x32000, .f32⟩
  | .hbm, ⟨46, _⟩ => ⟨S4x1023x32000, .f32⟩
  | .hbm, ⟨47, _⟩ => ⟨S4x1023x32000, .f32⟩
  | .hbm, ⟨48, _⟩ => ⟨S_, .f32⟩
  | .hbm, ⟨49, _⟩ => ⟨S4x1023, .f32⟩
  | .hbm, ⟨50, _⟩ => ⟨S4x1023x1, .f32⟩
  | .hbm, ⟨51, _⟩ => ⟨S4x1023x1, .f32⟩
  | .hbm, ⟨52, _⟩ => ⟨S4x1023x32000, .f32⟩
  | .hbm, ⟨53, _⟩ => ⟨S4x1023x32000, .f32⟩
  | .hbm, ⟨54, _⟩ => ⟨S4x1023x1, .i32⟩
  | .hbm, ⟨55, _⟩ => ⟨S_, .i32⟩
  | .hbm, ⟨56, _⟩ => ⟨S4x1023x1, .i32⟩
  | .hbm, ⟨57, _⟩ => ⟨S4x1023x1, .i1⟩
  | .hbm, ⟨58, _⟩ => ⟨S_, .i32⟩
  | .hbm, ⟨59, _⟩ => ⟨S4x1023x1, .i32⟩
  | .hbm, ⟨60, _⟩ => ⟨S4x1023x1, .i32⟩
  | .hbm, ⟨61, _⟩ => ⟨S4x1023x1, .i32⟩
  | .hbm, ⟨62, _⟩ => ⟨S4x1023x1x1, .i32⟩
  | .hbm, ⟨63, _⟩ => ⟨S1, .i32⟩
  | .hbm, ⟨64, _⟩ => ⟨S_, .i32⟩
  | .hbm, ⟨65, _⟩ => ⟨S4x1023x1x1, .i32⟩
  | .hbm, ⟨66, _⟩ => ⟨S4x1023x1x1, .i1⟩
  | .hbm, ⟨67, _⟩ => ⟨S1x1x1x1, .i32⟩
  | .hbm, ⟨68, _⟩ => ⟨S4x1023x1x1, .i32⟩
  | .hbm, ⟨69, _⟩ => ⟨S4x1023x1x1, .i1⟩
  | .hbm, ⟨70, _⟩ => ⟨S4x1023x1x1, .i1⟩
  | .hbm, ⟨71, _⟩ => ⟨S_, .i1⟩
  | .hbm, ⟨72, _⟩ => ⟨S4x1023x1, .i1⟩
  | .hbm, ⟨73, _⟩ => ⟨S4x1023x1, .f32⟩
  | .hbm, ⟨74, _⟩ => ⟨S_, .f32⟩
  | .hbm, ⟨75, _⟩ => ⟨S4x1023x1, .f32⟩
  | .hbm, ⟨76, _⟩ => ⟨S4x1023x1, .f32⟩
  | .hbm, ⟨77, _⟩ => ⟨S4x1023, .f32⟩
  | .hbm, ⟨78, _⟩ => ⟨S4x1023, .f32⟩
  | .hbm, ⟨79, _⟩ => ⟨S_, .f32⟩
  | .hbm, ⟨80, _⟩ => ⟨S4x1023, .f32⟩
  | .hbm, ⟨81, _⟩ => ⟨S4x1023, .f32⟩
  | .hbm, ⟨82, _⟩ => ⟨S_, .f32⟩
  | .hbm, ⟨83, _⟩ => ⟨S4x1023, .f32⟩
  | .hbm, ⟨84, _⟩ => ⟨S4x1023, .f32⟩
  | .hbm, ⟨85, _⟩ => ⟨S_, .f32⟩
  | .hbm, ⟨86, _⟩ => ⟨S4x1023, .f32⟩
  | .hbm, ⟨87, _⟩ => ⟨S4x1023, .f32⟩
  | .hbm, ⟨88, _⟩ => ⟨S4x1023, .f32⟩
  | .hbm, ⟨89, _⟩ => ⟨S1023, .i32⟩
  | .hbm, ⟨90, _⟩ => ⟨S1x1023, .i32⟩
  | .hbm, ⟨91, _⟩ => ⟨S4x1, .i32⟩
  | .hbm, ⟨92, _⟩ => ⟨S_, .i32⟩
  | .hbm, ⟨93, _⟩ => ⟨S4x1, .i32⟩
  | .hbm, ⟨94, _⟩ => ⟨S4x1, .i32⟩
  | .hbm, ⟨95, _⟩ => ⟨S4x1023, .i32⟩
  | .hbm, ⟨96, _⟩ => ⟨S4x1023, .i32⟩
  | .hbm, ⟨97, _⟩ => ⟨S4x1023, .i1⟩
  | .hbm, ⟨98, _⟩ => ⟨S4x1023, .f32⟩
  | .hbm, ⟨99, _⟩ => ⟨S_, .f32⟩
  | .hbm, ⟨100, _⟩ => ⟨S_, .f32⟩
  | .hbm, ⟨101, _⟩ => ⟨S4x1023, .f32⟩
  | .hbm, ⟨102, _⟩ => ⟨S_, .f32⟩
  | .hbm, ⟨103, _⟩ => ⟨S_, .f32⟩
  | .hbm, ⟨104, _⟩ => ⟨S_, .f32⟩
  | _, _ => ⟨S1024x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_call0_cst_0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_cst_1 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_v28 : Ref sig .tc := ⟨.hbm, 53, rfl⟩
abbrev main_v29 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_cst_5 : Ref sig .tc := ⟨.hbm, 82, rfl⟩
abbrev main_v35 : Ref sig .tc := ⟨.hbm, 83, rfl⟩
abbrev main_v36 : Ref sig .tc := ⟨.hbm, 84, rfl⟩
abbrev main_cst_6 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_7 : Ref sig .tc := ⟨.hbm, 99, rfl⟩
abbrev main_v49 : Ref sig .tc := ⟨.hbm, 100, rfl⟩
abbrev main_v50 : Ref sig .tc := ⟨.hbm, 101, rfl⟩
abbrev main_cst_8 : Ref sig .tc := ⟨.hbm, 102, rfl⟩
abbrev main_v51 : Ref sig .tc := ⟨.hbm, 103, rfl⟩
abbrev main_v52 : Ref sig .tc := ⟨.hbm, 104, rfl⟩

abbrev nD : Nat := 1
abbrev τ : Topo := Topo.v7x

variable {F : FTy → Type} [FloatOps F]

class Facts₀ : Prop where
  transposes_S1024x4x1024_S4x1024x1024_1_0_2 : S1024x4x1024.Transposes [1, 0, 2] S4x1024x1024
  slices_S4x1024x1024_S4x1023x1024_0_0_0 : S4x1024x1024.Slices ![0, 0, 0] S4x1023x1024
  slices_S4x1024_S4x1023_0_1 : S4x1024.Slices ![0, 1] S4x1023
  reducesTo_S4x1023x1024_S4x1023_d2 : S4x1023x1024.ReducesTo [2] S4x1023
  h_S_ : 0 < S_.numel
  bcast_S4x1023_S4x1023x1_0_1 : S4x1023.BroadcastsInDim S4x1023x1 (![0, 1] : Fin 2 → Fin S4x1023x1.rank)
  bcast_S_S4x1023x1 : S_.BroadcastsInDim S4x1023x1 (![] : Fin 0 → Fin S4x1023x1.rank)
  bcast_S4x1023x1_S4x1023x1024_0_1_2 : S4x1023x1.BroadcastsInDim S4x1023x1024 (![0, 1, 2] : Fin 3 → Fin S4x1023x1024.rank)
  bcast_S1024_S1x1x1024_2 : S1024.BroadcastsInDim S1x1x1024 (![2] : Fin 1 → Fin S1x1x1024.rank)
  bcast_S1x1x1024_S4x1023x1024_0_1_2 : S1x1x1024.BroadcastsInDim S4x1023x1024 (![0, 1, 2] : Fin 3 → Fin S4x1023x1024.rank)
  reducesTo_S4x1023x32000_S4x1023_d2 : S4x1023x32000.ReducesTo [2] S4x1023
  bcast_S_S4x1023 : S_.BroadcastsInDim S4x1023 (![] : Fin 0 → Fin S4x1023.rank)
  bcast_S4x1023x1_S4x1023x32000_0_1_2 : S4x1023x1.BroadcastsInDim S4x1023x32000 (![0, 1, 2] : Fin 3 → Fin S4x1023x32000.rank)
  shapeCasts_S4x1023x1_S4x1023x1x1 : S4x1023x1.ShapeCasts S4x1023x1x1
  bcast_S_S4x1023x1x1 : S_.BroadcastsInDim S4x1023x1x1 (![] : Fin 0 → Fin S4x1023x1x1.rank)
  bcast_S1_S1x1x1x1_3 : S1.BroadcastsInDim S1x1x1x1 (![3] : Fin 1 → Fin S1x1x1x1.rank)
  bcast_S1x1x1x1_S4x1023x1x1_0_1_2_3 : S1x1x1x1.BroadcastsInDim S4x1023x1x1 (![0, 1, 2, 3] : Fin 4 → Fin S4x1023x1x1.rank)
  reducesTo_S4x1023x1x1_S4x1023x1_d3 : S4x1023x1x1.ReducesTo [3] S4x1023x1
  shapeCasts_S4x1023x1_S4x1023 : S4x1023x1.ShapeCasts S4x1023
  bcast_S1023_S1x1023_1 : S1023.BroadcastsInDim S1x1023 (![1] : Fin 1 → Fin S1x1023.rank)
  bcast_S4_S4x1_0 : S4.BroadcastsInDim S4x1 (![0] : Fin 1 → Fin S4x1.rank)
  bcast_S_S4x1 : S_.BroadcastsInDim S4x1 (![] : Fin 0 → Fin S4x1.rank)
  bcast_S1x1023_S4x1023_0_1 : S1x1023.BroadcastsInDim S4x1023 (![0, 1] : Fin 2 → Fin S4x1023.rank)
  bcast_S4x1_S4x1023_0_1 : S4x1.BroadcastsInDim S4x1023 (![0, 1] : Fin 2 → Fin S4x1023.rank)
  reducesTo_S4x1023_S_d0_1 : S4x1023.ReducesTo [0, 1] S_
  dot_S4x1023x1024_S32000x1024_S4x1023x32000_2_1_01_0_n_n_wf : DotDims.WF S4x1023x1024 S32000x1024 S4x1023x32000 [2] [1] [0, 1] [0] [] []
  gather_S4x1023x32000_S4x1023x1x1_S4x1023x1_n_2_01_01_2_3_111_wf : GatherDims.WF S4x1023x32000 S4x1023x1x1 S4x1023x1 [] [2] [0, 1] [2] [0, 1] 3 ![1, 1, 1]

variable [Facts₀]

def dot_S4x1023x1024_S32000x1024_S4x1023x32000_2_1_01_0_n_n : DotDims S4x1023x1024 S32000x1024 S4x1023x32000 where
  lhsContracting := [2]
  rhsContracting := [1]
  lhsNonContracting := [0, 1]
  rhsNonContracting := [0]
  lhsBatch := []
  rhsBatch := []
  wf := dot_S4x1023x1024_S32000x1024_S4x1023x32000_2_1_01_0_n_n_wf
def gather_S4x1023x32000_S4x1023x1x1_S4x1023x1_n_2_01_01_2_3_111 : GatherDims S4x1023x32000 S4x1023x1x1 S4x1023x1 where
  offsetDims := []
  collapsedSliceDims := [2]
  operandBatchingDims := [0, 1]
  startIndicesBatchingDims := [0, 1]
  startIndexMap := [2]
  indexVectorDim := 3
  sliceSizes := ![1, 1, 1]
  wf := gather_S4x1023x32000_S4x1023x1x1_S4x1023x1_n_2_01_01_2_3_111_wf

class Facts : Prop extends Facts₀ where

variable [Facts]
-- ==== Proof.PreFacts.lean ====
/-
  What the precondition says, entry by entry.

  The precondition is a conjunction of five tests, each folded with "and" over a whole array: the absolute value of
  every entry of the four float arguments is below +∞, and every token word is at least 0 and below 32000 as a signed
  word. On the extended reals an entry whose absolute value is below +∞ is a real number; a signed 32-bit word
  between 0 and 31999 is the word of a natural number below 32000.
-/
import proofs.«428613_j5016521802043_1_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

/-- The scalar shape has one index. -/
instance subsingleton_scalar_idx : Subsingleton S_.Idx := ⟨fun a b => funext fun d => d.elim0⟩

/-- An extended real whose absolute value max x (−x) is below +∞ is a real number: at −∞ and at +∞ the maximum is +∞. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The pattern 0x7F800000 (sign 0, exponent all ones, fraction 0) denotes +∞. -/
theorem lit_top : Ideal.ofBits .f32 0x7F800000#32 = (⊤ : EReal) := by simp [Ideal.ofBits, Ideal.ieee]

/-- One entry's test: |x| < +∞ as an ordered comparison says x is real. -/
theorem real_of_test (x : Ideal .f32)
    (h : FloatOps.cmpf .olt (FloatOps.hostAbsf x) (FloatOps.ofBits (F := Ideal) .f32 0x7F800000#32) = 1#1) :
    ∃ r : ℝ, x = ((r : ℝ) : EReal) := by
  apply real_of_abs_lt_top
  rw [Ideal.hostAbsf_def, Ideal.absf_def, Ideal.cmpf_def, Ideal.ofBits_def, lit_top] at h
  simp only [Ideal.cmp, StableHlo.Predicate.ofBool_eq_one_iff, decide_eq_true_eq] at h
  exact h

/-- A float array all of whose entries pass the test has only real entries. -/
theorem reals_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
      (constantI S_ 1 1#1) hr h0 ix0 = 1#1) (i : s.Idx) : ∃ r : ℝ, x i = ((r : ℝ) : EReal) :=
  real_of_test (x i) (Host.reduce_andi_all _ _ hr h0 ix0 h i)

/-- A signed 32-bit word that is at least 0 and below 32000 is the word of a natural number below 32000. -/
theorem word_of_range (t : BitVec 32) (h0 : IntOp.cmpi .sge t 0#32 = 1#1) (h1 : IntOp.cmpi .slt t 32000#32 = 1#1) :
    ∃ k : Fin 32000, t = BitVec.ofNat 32 k.val := by
  rw [IntOp.cmpi_sge, show (0#32 : BitVec 32).toInt = 0 from by decide] at h0
  rw [IntOp.cmpi_slt, show (32000#32 : BitVec 32).toInt = 32000 from by decide] at h1
  have hlt := t.isLt
  have hk : t.toNat < 32000 := by
    unfold BitVec.toInt at h0 h1
    split at h0 <;> omega
  exact ⟨⟨t.toNat, hk⟩, BitVec.eq_of_toNat_eq (by simp only [BitVec.toNat_ofNat]; omega)⟩

/-- A conjunction of two one-bit scalars, read at the scalar shape's one index. -/
theorem andi_ix0 (a b : IVec S_ 1) : andi a b ix0 = 1#1 ↔ a ix0 = 1#1 ∧ b ix0 = 1#1 := IntOp.andi_eq_one

variable [Facts]

/-- If the precondition holds of the six argument arrays (read at `Ideal`), every entry of the four float arrays is a
    real number and every token word is the word of a column of the vocabulary. -/
theorem decode (x0 : FVec Ideal S1024x4x1024 .f32) (x1 : IVec S4x1024 32) (x2 : IVec S4 32)
    (x3 : FVec Ideal S32000x1024 .f32) (x4 x5 : FVec Ideal S1024 .f32)
    (h : fn (F := Ideal) x0 x1 x2 x3 x4 x5 = fun _ => 1#1) :
    (∀ i, ∃ r : ℝ, x0 i = ((r : ℝ) : EReal)) ∧ (∀ i, ∃ r : ℝ, x3 i = ((r : ℝ) : EReal))
      ∧ (∀ i, ∃ r : ℝ, x4 i = ((r : ℝ) : EReal)) ∧ (∀ i, ∃ r : ℝ, x5 i = ((r : ℝ) : EReal))
      ∧ (∀ (b : Fin 4) (p : Fin 1024), ∃ k : Fin 32000, x1 (ix2 b p) = BitVec.ofNat 32 k.val) := by
  have h0 := congrFun h ix0
  dsimp only [fn, fn_part1] at h0
  rw [andi_ix0, andi_ix0, andi_ix0, andi_ix0] at h0
  obtain ⟨⟨⟨⟨h3, h7⟩, h12⟩, h17⟩, h24⟩ := h0
  refine ⟨reals_of_all x0 _ _ _ h3, reals_of_all x3 _ _ _ h7, reals_of_all x4 _ _ _ h12, reals_of_all x5 _ _ _ h17, ?_⟩
  intro b p
  have e := Host.reduce_andi_all _ _ _ _ ix0 h24 (ix2 b p)
  simp only [andi, cmpi, broadcastInDim, constantI, IntOp.andi_eq_one] at e
  exact word_of_range _ e.1 e.2

end Cert.Pre_finite_inputs.Decode

end
-- ==== Proof.KPieces.lean ====
/-
  What one grid point leaves in the four carried buffers and in the output block, as functions of what it found.

  At a point the body computes the tile of logits of its 512 positions against its 3200 vocabulary rows, and from it
  and the four carried columns (running maximum, running sum of exponentials, running sum of logits, running sum of
  the logits on the target's column) the four updated columns. At the first tile of a sweep the carried columns are
  first reset (−∞, 0, 0, 0); at the last tile the four updated columns are also laid side by side into the output
  block. Each buffer's final contents is the payload of the last store that covers it, read over the blocks the point
  found.
-/
import proofs.«428613_j5016521802043_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row of target words the body reads: row `i 0` (the batch coordinate) of the staged block of targets. -/
abbrev tokRow (i : grid0.Coords) (x2 : Vec F S4x512 .i32) : Vec F S1x512 .i32 :=
  View.ld x2 (Rect.unit (s := S4x512) (k0_off1 i) S1x512.size (k0_off1_inb i))

/-- The updated running maximum, from the two input blocks and the old maximum. -/
def newM (x0 : Vec F S1x512x1024 .bf16) (x1 : Vec F S3200x1024 .bf16) (m0 : Vec F S512x1 .f32) : Vec F S512x1 .f32 :=
  k0_pay4 (k0_pay12 x0 x1 m0)
/-- The updated running sum of exponentials: the old one rescaled to the new maximum, plus the tile's. -/
def newL (x0 : Vec F S1x512x1024 .bf16) (x1 : Vec F S3200x1024 .bf16) (m0 l0 : Vec F S512x1 .f32) : Vec F S512x1 .f32 :=
  k0_pay1 (k0_pay13 x0 x1 m0 m0 l0) (k0_pay14 x0 x1 m0)
/-- The updated running sum of the logits. -/
def newS (x0 : Vec F S1x512x1024 .bf16) (x1 : Vec F S3200x1024 .bf16) (s0 : Vec F S512x1 .f32) : Vec F S512x1 .f32 :=
  k0_pay2 (k0_pay10 x0 x1) s0
/-- The updated running sum of the logits on the target's column. -/
def newT (i : grid0.Coords) (x0 : Vec F S1x512x1024 .bf16) (x1 : Vec F S3200x1024 .bf16) (x2 : Vec F S4x512 .i32)
    (t0 : Vec F S512x1 .f32) : Vec F S512x1 .f32 :=
  k0_pay3 (k0_pay11 i x0 x1 (tokRow i x2)) t0
/-- The output block: the four columns side by side. -/
def outOf (mm ll ss tt : Vec F S512x1 .f32) : Vec F S1x512x4 .f32 := k0_pay5 mm ll ss tt

variable (c : Dev nD) (i : grid0.Coords)
  (a3 : Memref sig .tc .vmem S1x512x1024 .bf16) (h3 : a3.IsWhole) (a4 : Memref sig .tc .vmem S3200x1024 .bf16) (h4 : a4.IsWhole)
  (a5 : Memref sig .tc .vmem S4x512 .i32) (h5 : a5.IsWhole) (a6 : Memref sig .tc .vmem S1x512x4 .f32) (h6 : a6.IsWhole)
  (a7 : Memref sig .tc .vmem S512x1 .f32) (h7 : a7.IsWhole) (a8 : Memref sig .tc .vmem S512x1 .f32) (h8 : a8.IsWhole)
  (a9 : Memref sig .tc .vmem S512x1 .f32) (h9 : a9.IsWhole) (a10 : Memref sig .tc .vmem S512x1 .f32) (h10 : a10.IsWhole)
  (x0 : Vec F S1x512x1024 .bf16) (x1 : Vec F S3200x1024 .bf16) (x2 : Vec F S4x512 .i32)
  (xs0 xs1 xs2 xs3 : Vec F S512x1 .f32)

/-! ## A tile in the middle of a sweep -/

theorem sB0 (hc0 : ¬cond0_0 i) (hc1 : ¬cond0_1 i) : sout0_B_0 c i a3 h3 a4 h4 a5 h5 a6 h6 a7 h7 a8 h8 a9 h9 a10 h10 hc0 hc1 x0 x1 x2 xs0 xs1 xs2 xs3 = newM x0 x1 xs0 := by
  unfold sout0_B_0
  rw [View.read_writes_eq_canon _ _ _ (scover0_B_0 c i a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2]
  rfl
theorem sB1 (hc0 : ¬cond0_0 i) (hc1 : ¬cond0_1 i) : sout0_B_1 c i a3 h3 a4 h4 a5 h5 a6 h6 a7 h7 a8 h8 a9 h9 a10 h10 hc0 hc1 x0 x1 x2 xs0 xs1 xs2 xs3 = newL x0 x1 xs0 xs1 := by
  unfold sout0_B_1
  rw [View.read_writes_eq_canon _ _ _ (scover0_B_1 c i a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2]
  rfl
theorem sB2 (hc0 : ¬cond0_0 i) (hc1 : ¬cond0_1 i) : sout0_B_2 c i a3 h3 a4 h4 a5 h5 a6 h6 a7 h7 a8 h8 a9 h9 a10 h10 hc0 hc1 x0 x1 x2 xs0 xs1 xs2 xs3 = newS x0 x1 xs2 := by
  unfold sout0_B_2
  rw [View.read_writes_eq_canon _ _ _ (scover0_B_2 c i a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2]
  rfl
theorem sB3 (hc0 : ¬cond0_0 i) (hc1 : ¬cond0_1 i) : sout0_B_3 c i a3 h3 a4 h4 a5 h5 a6 h6 a7 h7 a8 h8 a9 h9 a10 h10 hc0 hc1 x0 x1 x2 xs0 xs1 xs2 xs3 = newT i x0 x1 x2 xs3 := by
  unfold sout0_B_3
  rw [View.read_writes_eq_canon _ _ _ (scover0_B_3 c i a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2]
  rfl

/-! ## The first tile of a sweep: the carried columns are reset first -/

theorem sA0 (hc0 : cond0_0 i) (hc1 : ¬cond0_1 i) : sout0_A_0 c i a3 h3 a4 h4 a5 h5 a6 h6 a7 h7 a8 h8 a9 h9 a10 h10 hc0 hc1 x0 x1 x2 = newM x0 x1 k0_pay6 := by
  unfold sout0_A_0
  rw [View.read_writes_eq_canon _ _ _ (scover0_A_0 c i a3 h3 a4 h4 a5 h5 a6 h6 a7 h7 a8 h8 a9 h9 a10 h10 hc0 hc1 x0 x1 x2)]
  unfold kernelRun0_A
  dsimp only
  sl_unfold_words
  rw [View.canon_cons_unit_zero (S := S512x1) hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sA1 (hc0 : cond0_0 i) (hc1 : ¬cond0_1 i) : sout0_A_1 c i a3 h3 a4 h4 a5 h5 a6 h6 a7 h7 a8 h8 a9 h9 a10 h10 hc0 hc1 x0 x1 x2 = newL x0 x1 k0_pay6 k0_pay7 := by
  unfold sout0_A_1
  rw [View.read_writes_eq_canon _ _ _ (scover0_A_1 c i a3 h3 a4 h4 a5 h5 a6 h6 a7 h7 a8 h8 a9 h9 a10 h10 hc0 hc1 x0 x1 x2)]
  unfold kernelRun0_A
  dsimp only
  sl_unfold_words
  rw [View.canon_cons_unit_zero (S := S512x1) hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sA2 (hc0 : cond0_0 i) (hc1 : ¬cond0_1 i) : sout0_A_2 c i a3 h3 a4 h4 a5 h5 a6 h6 a7 h7 a8 h8 a9 h9 a10 h10 hc0 hc1 x0 x1 x2 = newS x0 x1 k0_pay8 := by
  unfold sout0_A_2
  rw [View.read_writes_eq_canon _ _ _ (scover0_A_2 c i a3 h3 a4 h4 a5 h5 a6 h6 a7 h7 a8 h8 a9 h9 a10 h10 hc0 hc1 x0 x1 x2)]
  unfold kernelRun0_A
  dsimp only
  sl_unfold_words
  rw [View.canon_cons_unit_zero (S := S512x1) hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sA3 (hc0 : cond0_0 i) (hc1 : ¬cond0_1 i) : sout0_A_3 c i a3 h3 a4 h4 a5 h5 a6 h6 a7 h7 a8 h8 a9 h9 a10 h10 hc0 hc1 x0 x1 x2 = newT i x0 x1 x2 k0_pay9 := by
  unfold sout0_A_3
  rw [View.read_writes_eq_canon _ _ _ (scover0_A_3 c i a3 h3 a4 h4 a5 h5 a6 h6 a7 h7 a8 h8 a9 h9 a10 h10 hc0 hc1 x0 x1 x2)]
  unfold kernelRun0_A
  dsimp only
  sl_unfold_words
  rw [View.canon_cons_unit_zero (S := S512x1) hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl

/-! ## The last tile of a sweep: the same update, and the output block -/

theorem sC0 (hc0 : ¬cond0_0 i) (hc1 : cond0_1 i) : sout0_C_0 c i a3 h3 a4 h4 a5 h5 a6 h6 a7 h7 a8 h8 a9 h9 a10 h10 hc0 hc1 x0 x1 x2 xs0 xs1 xs2 xs3 = newM x0 x1 xs0 := by
  unfold sout0_C_0
  rw [View.read_writes_eq_canon _ _ _ (scover0_C_0 c i a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sC1 (hc0 : ¬cond0_0 i) (hc1 : cond0_1 i) : sout0_C_1 c i a3 h3 a4 h4 a5 h5 a6 h6 a7 h7 a8 h8 a9 h9 a10 h10 hc0 hc1 x0 x1 x2 xs0 xs1 xs2 xs3 = newL x0 x1 xs0 xs1 := by
  unfold sout0_C_1
  rw [View.read_writes_eq_canon _ _ _ (scover0_C_1 c i a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sC2 (hc0 : ¬cond0_0 i) (hc1 : cond0_1 i) : sout0_C_2 c i a3 h3 a4 h4 a5 h5 a6 h6 a7 h7 a8 h8 a9 h9 a10 h10 hc0 hc1 x0 x1 x2 xs0 xs1 xs2 xs3 = newS x0 x1 xs2 := by
  unfold sout0_C_2
  rw [View.read_writes_eq_canon _ _ _ (scover0_C_2 c i a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem sC3 (hc0 : ¬cond0_0 i) (hc1 : cond0_1 i) : sout0_C_3 c i a3 h3 a4 h4 a5 h5 a6 h6 a7 h7 a8 h8 a9 h9 a10 h10 hc0 hc1 x0 x1 x2 xs0 xs1 xs2 xs3 = newT i x0 x1 x2 xs3 := by
  unfold sout0_C_3
  rw [View.read_writes_eq_canon _ _ _ (scover0_C_3 c i a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz2]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl
theorem oC3 (hc0 : ¬cond0_0 i) (hc1 : cond0_1 i) :
    out0_C_3 c i a3 h3 a4 h4 a5 h5 a6 h6 a7 h7 a8 h8 a9 h9 a10 h10 hc0 hc1 x0 x1 x2 xs0 xs1 xs2 xs3 = outOf (newM x0 x1 xs0) (newL x0 x1 xs0 xs1) (newS x0 x1 xs2) (newT i x0 x1 x2 xs3) := by
  unfold out0_C_3
  rw [View.read_writes_eq_canon _ _ _ (cover0_C_3 c i a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz3]
  simp only [View.readAt_eq_ld, h3.read_unread, h4.read_unread, h5.read_unread, h7.read_unread, h8.read_unread, h9.read_unread,
    h10.read_unread, View.ld_unit_zero (S := S1x512x1024) hz3, View.ld_unit_zero (S := S3200x1024) hz2,
    View.ld_unit_zero (S := S512x1) hz2, View.readCov_unit_zero (S := S512x1) _ hz2]
  rfl

end Cert.KernelIdeal.Pieces

end
-- ==== Proof.Spec.lean ====
/-
  The mathematics of one row of the loss, on the extended reals.

  For one position the kernel sweeps the vocabulary in tiles and carries four numbers: the running maximum of the
  logits, the running sum of exponentials taken relative to that maximum, the running sum of the logits, and the
  running sum of the logits on the columns equal to the target. This file states what those four numbers are after
  every tile (the closed form over the columns seen so far), and that the label-smoothed loss assembled from them
  after the last tile is the one assembled from the log-softmax of the whole row.

  Everything here is about real logits: the rescaling of the running sum when the maximum grows is
  exp (a - b) * exp (b - c) = exp (a - c) and a distribution of a product over a sum, neither of which holds at an
  infinity.
-/
import Idealize.ShloMosaic.PureOps.Ideal
import Idealize.ShloMosaic.PureOps.Ideal.Laws

noncomputable section

namespace Cert.RowLoss

open Idealize.ShloMosaic

/-- The four carried numbers: running maximum, running sum of exponentials relative to it, running sum of the logits,
    running sum of the logits on the target's columns. -/
structure Acc where
  m : EReal
  l : EReal
  s : EReal
  t : EReal

/-- Before the first tile: the maximum of nothing is the bottom, the sums are empty. -/
def Acc.init : Acc := ⟨⊥, 0, 0, 0⟩

/-- One tile's update, as the kernel computes it: the new maximum; the old sum of exponentials rescaled to the new
    maximum plus the tile's; the logit sum; the logits on the columns that hit the target. -/
def Acc.step (a : Acc) {w : ℕ} (X : Fin w → EReal) (hit : Fin w → Prop) [DecidablePred hit] : Acc :=
  let m' : EReal := max a.m ((Finset.univ : Finset (Fin w)).fold max ⊥ X)
  ⟨m', a.l * Ideal.exp (a.m - m') + ∑ k : Fin w, Ideal.exp (X k - m'), a.s + ∑ k : Fin w, X k,
    a.t + ∑ k : Fin w, if hit k then X k else 0⟩

/-- The closed form after the first `n` columns of a row of real logits `x`. -/
def closed (x : ℕ → ℝ) (hit : ℕ → Prop) [DecidablePred hit] (n : ℕ) : Acc :=
  let M : EReal := (Finset.range n).sup fun v => ((x v : ℝ) : EReal)
  ⟨M, ∑ v ∈ Finset.range n, Ideal.exp (((x v : ℝ) : EReal) - M), ∑ v ∈ Finset.range n, ((x v : ℝ) : EReal),
    ∑ v ∈ Finset.range n, if hit v then ((x v : ℝ) : EReal) else 0⟩

/-- A finite sum of real numbers, read in the extended reals, is the sum of the numbers read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Folding `max` from the bottom over a finite family is its supremum. -/
theorem fold_max_eq_sup {ι : Type*} (s : Finset ι) (f : ι → EReal) : s.fold max ⊥ f = s.sup f := rfl

/-- The supremum over the first `n + w` indices is the larger of the supremum over the first `n` and the supremum
    over the `w` that follow. -/
theorem sup_range_add (f : ℕ → EReal) (n w : ℕ) :
    (Finset.range (n + w)).sup f
      = max ((Finset.range n).sup f) ((Finset.univ : Finset (Fin w)).sup fun k => f (n + k.val)) := by
  apply le_antisymm
  · refine Finset.sup_le fun v hv => ?_
    have hv' := Finset.mem_range.1 hv
    by_cases h : v < n
    · exact le_max_of_le_left (Finset.le_sup (Finset.mem_range.2 h))
    · have hk : v - n < w := by omega
      have : f v = (fun k : Fin w => f (n + k.val)) ⟨v - n, hk⟩ := by
        show f v = f (n + (v - n)); congr 1; omega
      rw [this]
      exact le_max_of_le_right (Finset.le_sup (f := fun k : Fin w => f (n + k.val)) (Finset.mem_univ _))
  · refine max_le (Finset.sup_le fun v hv => ?_) (Finset.sup_le fun k _ => ?_)
    · exact Finset.le_sup (Finset.mem_range.2 (by have := Finset.mem_range.1 hv; omega))
    · exact Finset.le_sup (Finset.mem_range.2 (by have := k.isLt; omega))

/-- The supremum over `Fin V` of a family given on the naturals is the supremum over the first `V` naturals. -/
theorem sup_univ_eq_sup_range (f : ℕ → EReal) (V : ℕ) :
    ((Finset.univ : Finset (Fin V)).sup fun k => f k.val) = (Finset.range V).sup f := by
  apply le_antisymm
  · exact Finset.sup_le fun k _ => Finset.le_sup (Finset.mem_range.2 k.isLt)
  · refine Finset.sup_le fun v hv => ?_
    exact Finset.le_sup (f := fun k : Fin V => f k.val) (Finset.mem_univ ⟨v, Finset.mem_range.1 hv⟩)

/-- The supremum of a nonempty finite family of real numbers is one of them, so a real number. -/
theorem sup_coe_eq_coe (x : ℕ → ℝ) (n : ℕ) (hn : 0 < n) :
    ∃ m : ℝ, ((Finset.range n).sup fun v => ((x v : ℝ) : EReal)) = (m : EReal) := by
  obtain ⟨i, _, hi⟩ := Finset.exists_mem_eq_sup (Finset.range n) (Finset.nonempty_range_iff.2 hn.ne')
    (fun v => ((x v : ℝ) : EReal))
  exact ⟨x i, hi⟩

/-- The exponential of a difference of two real numbers. -/
theorem exp_coe_sub (a b : ℝ) : Ideal.exp ((a : EReal) - (b : EReal)) = ((Real.exp (a - b) : ℝ) : EReal) := by
  rw [← EReal.coe_sub, Ideal.exp_coe]

/-- Rescaling a sum of exponentials from one real maximum to another: `exp (a - m) * exp (m - m') = exp (a - m')`
    under the sum. With no terms both sides are `0`, whatever the maxima. -/
theorem rescale (x : ℕ → ℝ) (n : ℕ) (M M' : EReal)
    (h : n = 0 ∨ ∃ m m' : ℝ, M = (m : EReal) ∧ M' = (m' : EReal)) :
    (∑ v ∈ Finset.range n, Ideal.exp (((x v : ℝ) : EReal) - M)) * Ideal.exp (M - M')
      = ∑ v ∈ Finset.range n, Ideal.exp (((x v : ℝ) : EReal) - M') := by
  rcases h with rfl | ⟨m, m', rfl, rfl⟩
  · rw [Finset.range_zero, Finset.sum_empty, Finset.sum_empty, zero_mul]
  · simp only [exp_coe_sub]
    rw [coe_sum, coe_sum, ← EReal.coe_mul, Finset.sum_mul]
    congr 1
    refine Finset.sum_congr rfl fun v _ => ?_
    rw [← Real.exp_add]
    congr 1
    ring

theorem closed_zero (x : ℕ → ℝ) (hit : ℕ → Prop) [DecidablePred hit] : closed x hit 0 = Acc.init := by
  simp only [closed, Acc.init, Finset.range_zero, Finset.sup_empty, Finset.sum_empty]

/-- A tile of `w ≥ 1` further columns takes the closed form at `n` to the closed form at `n + w`. -/
theorem step_closed (x : ℕ → ℝ) (hit : ℕ → Prop) [DecidablePred hit] (n w : ℕ) (hw : 0 < w) :
    (closed x hit n).step (fun k : Fin w => ((x (n + k.val) : ℝ) : EReal)) (fun k : Fin w => hit (n + k.val))
      = closed x hit (n + w) := by
  have hsup := sup_range_add (fun v => ((x v : ℝ) : EReal)) n w
  have hreal : n = 0 ∨ ∃ m m' : ℝ, ((Finset.range n).sup fun v => ((x v : ℝ) : EReal)) = (m : EReal)
      ∧ ((Finset.range (n + w)).sup fun v => ((x v : ℝ) : EReal)) = (m' : EReal) := by
    rcases Nat.eq_zero_or_pos n with h0 | hn
    · exact Or.inl h0
    · obtain ⟨m, hm⟩ := sup_coe_eq_coe x n hn
      obtain ⟨m', hm'⟩ := sup_coe_eq_coe x (n + w) (by omega)
      exact Or.inr ⟨m, m', hm, hm'⟩
  have hl := rescale x n _ _ hreal
  simp only [closed, Acc.step, fold_max_eq_sup, ← hsup]
  rw [Acc.mk.injEq]
  refine ⟨rfl, ?_, ?_, ?_⟩
  · rw [hl, Finset.sum_range_add, Finset.sum_range (fun k => Ideal.exp (((x (n + k) : ℝ) : EReal) - _))]
  · rw [Finset.sum_range_add, Finset.sum_range (fun k => ((x (n + k) : ℝ) : EReal))]
  · rw [Finset.sum_range_add, Finset.sum_range (fun k => if hit (n + k) then ((x (n + k) : ℝ) : EReal) else 0)]

/-- The loss of a row as the kernel's program assembles it from the four numbers `a`: `c₁` times the negative
    log-likelihood plus `c₂` times the smoothing term, the vocabulary size as the program's own literal. -/
def kernelLoss (c₁ c₂ : EReal) (a : Acc) : EReal :=
  c₁ * ((a.m + Ideal.log a.l) - a.t)
    + c₂ * (Ideal.ofBits .f32 0x46FA0000#32 * (a.m + Ideal.log a.l) - a.s)

/-- The loss of a row as the reference assembles it from the log-softmax of the row `X` and the target column. -/
def refLoss (c₁ c₂ : EReal) {V : ℕ} (X : Fin V → EReal) (tok : Fin V) : EReal :=
  let M : EReal := max ⊥ ((Finset.univ : Finset (Fin V)).fold max ⊥ X)
  let lse : EReal := Ideal.log (0 + ∑ v : Fin V, Ideal.exp (X v - M))
  c₁ * (-((X tok - M) - lse)) + c₂ * (-(0 + ∑ v : Fin V, ((X v - M) - lse)))

/-- The bit pattern `0x46FA0000` of a 32-bit float denotes the real number `32000`. -/
theorem ofBits_vocab : Ideal.ofBits .f32 0x46FA0000#32 = ((32000 : ℝ) : EReal) := by
  simp [Ideal.ofBits, Ideal.ieee, -EReal.coe_mul]; norm_num

/-- The logarithm of a positive real number. -/
theorem log_coe_pos {r : ℝ} (h : 0 < r) : Ideal.log (r : EReal) = ((Real.log r : ℝ) : EReal) := by
  rw [Ideal.log_coe, if_neg (not_le.2 h)]

/-- After the whole vocabulary the two assemblies agree: both are
    `c₁ (logsumexp x - x_tok) + c₂ (V logsumexp x - Σ x)`. -/
theorem kernelLoss_closed_eq_refLoss (c₁ c₂ : EReal) (x : ℕ → ℝ) (tok : Fin 32000) :
    kernelLoss c₁ c₂ (closed x (fun v => v = tok.val) 32000)
      = refLoss c₁ c₂ (fun v : Fin 32000 => ((x v.val : ℝ) : EReal)) tok := by
  obtain ⟨m, hm⟩ := sup_coe_eq_coe x 32000 (by norm_num)
  have hL : 0 < ∑ v ∈ Finset.range 32000, Real.exp (x v - m) :=
    Finset.sum_pos (fun v _ => Real.exp_pos _) (Finset.nonempty_range_iff.2 (by norm_num))
  -- the kernel's four numbers
  have hkl : (∑ v ∈ Finset.range 32000, Ideal.exp (((x v : ℝ) : EReal) - (m : EReal)))
      = ((∑ v ∈ Finset.range 32000, Real.exp (x v - m) : ℝ) : EReal) := by
    simp only [exp_coe_sub]; rw [coe_sum]
  have hkt : (∑ v ∈ Finset.range 32000, if v = tok.val then ((x v : ℝ) : EReal) else 0) = ((x tok.val : ℝ) : EReal) := by
    rw [Finset.sum_ite_eq', if_pos (Finset.mem_range.2 tok.isLt)]
  -- the reference's maximum and sum of exponentials
  have hM : max ⊥ ((Finset.univ : Finset (Fin 32000)).fold max ⊥ fun v => ((x v.val : ℝ) : EReal)) = (m : EReal) := by
    rw [max_bot_left, fold_max_eq_sup, sup_univ_eq_sup_range (fun v => ((x v : ℝ) : EReal)) 32000, hm]
  have hrl : (∑ v : Fin 32000, Ideal.exp (((x v.val : ℝ) : EReal) - (m : EReal)))
      = ((∑ v ∈ Finset.range 32000, Real.exp (x v - m) : ℝ) : EReal) := by
    rw [← hkl, Finset.sum_range (fun v => Ideal.exp (((x v : ℝ) : EReal) - (m : EReal)))]
  simp only [kernelLoss, refLoss, closed, hm, hM, hkl, hkt, hrl, coe_sum, zero_add, log_coe_pos hL, ofBits_vocab]
  generalize Real.log (∑ v ∈ Finset.range 32000, Real.exp (x v - m)) = lg
  -- the two factors, as real numbers
  have hA : ((m : EReal) + (lg : EReal) - ((x tok.val : ℝ) : EReal))
      = -(((x tok.val : ℝ) : EReal) - (m : EReal) - (lg : EReal)) := by
    rw [← EReal.coe_add, ← EReal.coe_sub, ← EReal.coe_sub, ← EReal.coe_sub, ← EReal.coe_neg, EReal.coe_eq_coe_iff]
    ring
  have hB : ((32000 : ℝ) : EReal) * ((m : EReal) + (lg : EReal)) - ((∑ i ∈ Finset.range 32000, x i : ℝ) : EReal)
      = -∑ v : Fin 32000, (((x v.val : ℝ) : EReal) - (m : EReal) - (lg : EReal)) := by
    simp only [← EReal.coe_sub]
    rw [coe_sum, ← EReal.coe_neg, ← EReal.coe_add, ← EReal.coe_mul, ← EReal.coe_sub, EReal.coe_eq_coe_iff]
    rw [← Finset.sum_range (fun v => x v - m - lg), Finset.sum_sub_distrib, Finset.sum_sub_distrib,
      Finset.sum_const, Finset.sum_const, Finset.card_range, nsmul_eq_mul, nsmul_eq_mul]
    push_cast
    ring
  rw [hA, hB]

end Cert.RowLoss

end
-- ==== Proof.KStep.lean ====
/-
  One grid point's update, read row by row on the extended reals.

  For row `r` of the 512 positions a point handles, the tile of logits is `∑ d, h (r, d) · e (k, d)` over the 3200
  vocabulary rows `k` of the point's table block. The four updated columns at row `r` are the one-tile step of the
  row's four carried numbers over that tile: the maximum with the tile's maximum, the sum of exponentials rescaled and
  extended, the logit sum extended, and the target sum extended by the logits whose column word equals the row's
  target word. The reset columns are the empty accumulator, and the output block holds the four columns side by side.
-/
import proofs.«428613_j5016521802043_1_alg».proof.Proof.KPieces
import proofs.«428613_j5016521802043_1_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Step

open Cert.KernelIdeal Cert.KernelIdeal.Gen Cert.KernelIdeal.Pieces Cert.RowLoss Idealize.ShloMosaic.ValueIdx

/-- The logit of row `r` of the hidden block against row `k` of the table block. -/
def tileLogit (x0 : FVec Ideal S1x512x1024 .bf16) (x1 : FVec Ideal S3200x1024 .bf16) (r : Fin 512) (k : Fin 3200) : EReal :=
  ∑ d : Fin 1024, x0 (ix3 (0 : Fin 1) r d) * x1 (ix2 k d)

/-- Column `k` of the point's tile hits the target of row `r`: the column's word, the tile coordinate times 3200 plus
    `k` in 32-bit arithmetic, is the target word the body reads for that row (row `i 0` of the block of targets). -/
abbrev tileHit (i : grid0.Coords) (x2 : IVec S4x512 32) (r : Fin 512) (k : Fin 3200) : Prop :=
  BitVec.ofNat 32 (i 2).val * 3200#32 + BitVec.ofNat 32 k.val = x2 (ix2 (⟨(i 0).val, (i 0).isLt⟩ : Fin 4) r)

/-- A vector `[a]` cast to the column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 3200 lanes of a `[512, 3200]` array, at row `r`. -/
theorem rowSum_apply (src : FVec Ideal S512x3200 .f32) (r : Fin 512) :
    multiReduction .add [1] S512 src 0x00000000#32 reduces_S512x3200_S512 (.inl rfl) rfl (ix1 r)
      = ∑ k : Fin 3200, src (ix2 r k) :=
  (Ideal.multiReduction_add_single src 0x00000000#32 reduces_S512x3200_S512 (.inl rfl) rfl (ix1 r)).trans
    (Finset.sum_congr rfl fun k _ => congrArg src (funext fun c => Fin.ext (by
      match c with
      | ⟨0, _⟩ => rfl
      | ⟨1, _⟩ => rfl)))

/-- The maximum along the 3200 lanes of a `[512, 3200]` array, at row `r`, starting from the bottom. -/
theorem rowMax_apply (src : FVec Ideal S512x3200 .f32) (r : Fin 512) :
    multiReduction .maximumf [1] S512 src 0xFF800000#32 reduces_S512x3200_S512 (.inl rfl) rfl (ix1 r)
      = (Finset.univ : Finset (Fin 3200)).fold max ⊥ (fun k => src (ix2 r k)) := by
  refine (Ideal.multiReduction_maximumf_single src 0xFF800000#32 reduces_S512x3200_S512 (.inl rfl) rfl (ix1 r)).trans ?_
  have hb : FloatOps.ofBits (F := Ideal) .f32 0xFF800000#32 = (⊥ : EReal) := by
    show Ideal.ofBits .f32 0xFF800000#32 = ⊥
    simp [Ideal.ofBits, Ideal.ieee]
  have hf : (src ∘ reduces_S512x3200_S512.lift (ix1 r)) = fun k : Fin 3200 => src (ix2 r k) :=
    funext fun k => congrArg src (funext fun c => Fin.ext (by
      match c with
      | ⟨0, _⟩ => rfl
      | ⟨1, _⟩ => rfl))
  rw [hb, hf]
  rfl

theorem lhs_dot_0 (j : S512x3200.Idx) (q : dot_S512x1024_S3200x1024_S512x3200_1_1_0_0_n_n.contr.Idx) :
    (dot_S512x1024_S3200x1024_S512x3200_1_1_0_0_n_n.lhsIdx j q 0).val = (j 0).val := by
  unfold DotDims.lhsIdx
  rw [dif_neg (show ¬(0 : Fin S512x1024.rank) ∈ dot_S512x1024_S3200x1024_S512x3200_1_1_0_0_n_n.lhsBatch by decide), dif_pos (show (0 : Fin S512x1024.rank) ∈ dot_S512x1024_S3200x1024_S512x3200_1_1_0_0_n_n.lhsNonContracting by decide)]
  rfl
theorem lhs_dot_1 (j : S512x3200.Idx) (q : dot_S512x1024_S3200x1024_S512x3200_1_1_0_0_n_n.contr.Idx) :
    (dot_S512x1024_S3200x1024_S512x3200_1_1_0_0_n_n.lhsIdx j q 1).val = (q ⟨0, by decide⟩).val :=
  dot_S512x1024_S3200x1024_S512x3200_1_1_0_0_n_n.lhsIdx_val_of_single rfl j q
theorem rhs_dot_0 (j : S512x3200.Idx) (q : dot_S512x1024_S3200x1024_S512x3200_1_1_0_0_n_n.contr.Idx) :
    (dot_S512x1024_S3200x1024_S512x3200_1_1_0_0_n_n.rhsIdx j q 0).val = (j 1).val := by
  unfold DotDims.rhsIdx
  rw [dif_neg (show ¬(0 : Fin S3200x1024.rank) ∈ dot_S512x1024_S3200x1024_S512x3200_1_1_0_0_n_n.rhsBatch by decide), dif_pos (show (0 : Fin S3200x1024.rank) ∈ dot_S512x1024_S3200x1024_S512x3200_1_1_0_0_n_n.rhsNonContracting by decide)]
  rfl
theorem rhs_dot_1 (j : S512x3200.Idx) (q : dot_S512x1024_S3200x1024_S512x3200_1_1_0_0_n_n.contr.Idx) :
    (dot_S512x1024_S3200x1024_S512x3200_1_1_0_0_n_n.rhsIdx j q 1).val = (q ⟨0, by decide⟩).val :=
  dot_S512x1024_S3200x1024_S512x3200_1_1_0_0_n_n.rhsIdx_val_of_single rfl j q

/-- The product of a `[512, 1024]` block with the transpose of a `[3200, 1024]` block, accumulated into zero, at
    `(r, k)`: the sum over the 1024 shared coordinates of the products. -/
theorem matmul_at (A : FVec Ideal S512x1024 .bf16) (B : FVec Ideal S3200x1024 .bf16) (r : Fin 512) (k : Fin 3200) :
    matmul dot_S512x1024_S3200x1024_S512x3200_1_1_0_0_n_n none A B (constant (F := Ideal) S512x3200 .f32 0x00000000#32) (ix2 r k)
      = ∑ d : Fin 1024, A (ix2 r d) * B (ix2 k d) := by
  simp only [matmul]
  rw [Ideal.matmul_constant_zero_apply, ← Equiv.sum_comp (contrEquiv1 dot_S512x1024_S3200x1024_S512x3200_1_1_0_0_n_n 1024 rfl rfl).symm]
  refine Finset.sum_congr rfl fun d _ => ?_
  have hd := contrEquiv1_symm_val dot_S512x1024_S3200x1024_S512x3200_1_1_0_0_n_n 1024 rfl rfl d
  have el : dot_S512x1024_S3200x1024_S512x3200_1_1_0_0_n_n.lhsIdx (ix2 r k) ((contrEquiv1 dot_S512x1024_S3200x1024_S512x3200_1_1_0_0_n_n 1024 rfl rfl).symm d) = ix2 r d := funext fun a => Fin.ext (by
    match a with
    | ⟨0, _⟩ => exact lhs_dot_0 _ _
    | ⟨1, _⟩ => exact (lhs_dot_1 _ _).trans hd)
  have er : dot_S512x1024_S3200x1024_S512x3200_1_1_0_0_n_n.rhsIdx (ix2 r k) ((contrEquiv1 dot_S512x1024_S3200x1024_S512x3200_1_1_0_0_n_n 1024 rfl rfl).symm d) = ix2 k d := funext fun a => Fin.ext (by
    match a with
    | ⟨0, _⟩ => exact rhs_dot_0 _ _
    | ⟨1, _⟩ => exact (rhs_dot_1 _ _).trans hd)
  rw [el, er]

/-- The tile of logits at `(r, k)`. -/
theorem logits_at (x0 : FVec Ideal S1x512x1024 .bf16) (x1 : FVec Ideal S3200x1024 .bf16) (r : Fin 512) (k : Fin 3200) :
    k0_pay10 (F := Ideal) x0 x1 (ix2 r k) = tileLogit x0 x1 r k := by
  unfold k0_pay10 tileLogit
  refine (matmul_at _ _ r k).trans ?_
  refine Finset.sum_congr rfl fun d _ => ?_
  rw [shapeCast_1ab_ab_apply, shapeCast_self]

/-- A select on the comparison of two words for equality is the `if` on their equality. -/
theorem select_cmpi_eq {α : Type} (a b : BitVec 32) (X Y : α) :
    Scalar.select (IntOp.cmpi .eq a b) X Y = if a = b then X else Y := by
  unfold Scalar.select
  by_cases h : a = b
  · rw [if_pos h]; exact if_pos (IntOp.cmpi_eq.2 h)
  · rw [if_neg h]; exact if_neg (fun hc => h (IntOp.cmpi_eq.1 hc))

/-- The row of target words at `(0, r)` is the block of targets at `(i 0, r)`. -/
theorem tokRow_at (i : grid0.Coords) (x2 : IVec S4x512 32) (r : Fin 512) :
    tokRow (F := Ideal) i x2 (ix2 (0 : Fin 1) r) = x2 (ix2 (⟨(i 0).val, (i 0).isLt⟩ : Fin 4) r) := by
  show x2 _ = x2 _
  refine congrArg x2 (funext fun a => Fin.ext ?_)
  have h := k0_off1_eq i
  match a with
  | ⟨0, _⟩ =>
    show k0_off1 i 0 + 1 * 0 = (i 0).val
    rw [h]; rfl
  | ⟨1, _⟩ =>
    show k0_off1 i 1 + 1 * r.val = r.val
    rw [h]; show 0 + 1 * r.val = r.val; omega

/-- Four columns laid side by side, at `(r, q)`: column `q` at row `r`. -/
theorem concat4_at {α : Type} (mm ll ss tt : S512x1.Idx → α) (r : Fin 512) :
    concatenate S512x4 1 [⟨S512x1, mm⟩, ⟨S512x1, ll⟩, ⟨S512x1, ss⟩, ⟨S512x1, tt⟩]
        concatenates_S512x1_S512x1_S512x1_S512x1_S512x4_d1 (ix2 r (0 : Fin 4)) = mm (ix2 r (0 : Fin 1))
      ∧ concatenate S512x4 1 [⟨S512x1, mm⟩, ⟨S512x1, ll⟩, ⟨S512x1, ss⟩, ⟨S512x1, tt⟩]
        concatenates_S512x1_S512x1_S512x1_S512x1_S512x4_d1 (ix2 r (1 : Fin 4)) = ll (ix2 r (0 : Fin 1))
      ∧ concatenate S512x4 1 [⟨S512x1, mm⟩, ⟨S512x1, ll⟩, ⟨S512x1, ss⟩, ⟨S512x1, tt⟩]
        concatenates_S512x1_S512x1_S512x1_S512x1_S512x4_d1 (ix2 r (2 : Fin 4)) = ss (ix2 r (0 : Fin 1))
      ∧ concatenate S512x4 1 [⟨S512x1, mm⟩, ⟨S512x1, ll⟩, ⟨S512x1, ss⟩, ⟨S512x1, tt⟩]
        concatenates_S512x1_S512x1_S512x1_S512x1_S512x4_d1 (ix2 r (3 : Fin 4)) = tt (ix2 r (0 : Fin 1)) := by
  have hi : ∀ (q : Fin 4) (b : Fin S512x1.rank), b.cast (rfl : S512x1.rank = S512x4.rank) ≠ (1 : Fin S512x4.rank) →
      ((ix2 r (0 : Fin 1) : S512x1.Idx) b).val = ((ix2 r q : S512x4.Idx) (b.cast (rfl : S512x1.rank = S512x4.rank))).val := by
    intro q b hb
    match b with
    | ⟨0, _⟩ => rfl
    | ⟨1, _⟩ => exact absurd rfl hb
  refine ⟨?_, ?_, ?_, ?_⟩
  · exact concatenate_apply_piece 1 [⟨S512x1, mm⟩, ⟨S512x1, ll⟩, ⟨S512x1, ss⟩, ⟨S512x1, tt⟩] concatenates_S512x1_S512x1_S512x1_S512x1_S512x4_d1 (ix2 r (0 : Fin 4)) 0 (by simp) S512x1 mm rfl rfl 0 rfl (ix2 r (0 : Fin 1)) (hi 0) rfl
  · exact concatenate_apply_piece 1 [⟨S512x1, mm⟩, ⟨S512x1, ll⟩, ⟨S512x1, ss⟩, ⟨S512x1, tt⟩] concatenates_S512x1_S512x1_S512x1_S512x1_S512x4_d1 (ix2 r (1 : Fin 4)) 1 (by simp) S512x1 ll rfl rfl 1 rfl (ix2 r (0 : Fin 1)) (hi 1) rfl
  · exact concatenate_apply_piece 1 [⟨S512x1, mm⟩, ⟨S512x1, ll⟩, ⟨S512x1, ss⟩, ⟨S512x1, tt⟩] concatenates_S512x1_S512x1_S512x1_S512x1_S512x4_d1 (ix2 r (2 : Fin 4)) 2 (by simp) S512x1 ss rfl rfl 2 rfl (ix2 r (0 : Fin 1)) (hi 2) rfl
  · exact concatenate_apply_piece 1 [⟨S512x1, mm⟩, ⟨S512x1, ll⟩, ⟨S512x1, ss⟩, ⟨S512x1, tt⟩] concatenates_S512x1_S512x1_S512x1_S512x1_S512x4_d1 (ix2 r (3 : Fin 4)) 3 (by simp) S512x1 tt rfl rfl 3 rfl (ix2 r (0 : Fin 1)) (hi 3) rfl

/-- A vector comparison at an index compares the words there. -/
theorem cmpi_at {s : Shape} {w : ℕ} (p : CmpIPredicate) (a b : IVec s w) (j : s.Idx) :
    cmpi p a b j = IntOp.cmpi p (a j) (b j) := rfl
/-- A vector sum of words at an index adds the words there. -/
theorem addi_at {s : Shape} {w : ℕ} (a b : IVec s w) (j : s.Idx) : addi a b j = a j + b j := rfl

/-- The bit pattern of the 32-bit float `-∞` denotes the bottom. -/
theorem ofBits_negInf : Ideal.ofBits .f32 0xFF800000#32 = ⊥ := by simp [Ideal.ofBits, Ideal.ieee]

/-- The running maximum after the tile, at row `r`. -/
theorem pay12_at (x0 : FVec Ideal S1x512x1024 .bf16) (x1 : FVec Ideal S3200x1024 .bf16) (m0 : FVec Ideal S512x1 .f32)
    (r : Fin 512) :
    k0_pay12 (F := Ideal) x0 x1 m0 (ix2 r (0 : Fin 1))
      = max (m0 (ix2 r (0 : Fin 1))) ((Finset.univ : Finset (Fin 3200)).fold max ⊥ (tileLogit x0 x1 r)) := by
  unfold k0_pay12
  refine (maximumf_apply _ _ _).trans ?_
  refine congrArg (max (m0 (ix2 r (0 : Fin 1)))) ?_
  refine (shapeCast_col_apply _ _ r 0).trans ?_
  refine (rowMax_apply _ r).trans ?_
  exact congrArg (fun f => (Finset.univ : Finset (Fin 3200)).fold max ⊥ f) (funext (logits_at x0 x1 r))

theorem newM_at (x0 : FVec Ideal S1x512x1024 .bf16) (x1 : FVec Ideal S3200x1024 .bf16) (m0 : FVec Ideal S512x1 .f32)
    (r : Fin 512) :
    newM (F := Ideal) x0 x1 m0 (ix2 r (0 : Fin 1))
      = max (m0 (ix2 r (0 : Fin 1))) ((Finset.univ : Finset (Fin 3200)).fold max ⊥ (tileLogit x0 x1 r)) := by
  unfold newM k0_pay4
  exact (congrFun (shapeCast_self _ _) _).trans (pay12_at x0 x1 m0 r)

/-- The old sum of exponentials rescaled to the new maximum, at row `r`. -/
theorem pay13_at (x0 : FVec Ideal S1x512x1024 .bf16) (x1 : FVec Ideal S3200x1024 .bf16) (m0 l0 : FVec Ideal S512x1 .f32)
    (r : Fin 512) :
    k0_pay13 (F := Ideal) x0 x1 m0 m0 l0 (ix2 r (0 : Fin 1))
      = l0 (ix2 r (0 : Fin 1)) * Ideal.exp (m0 (ix2 r (0 : Fin 1))
          - max (m0 (ix2 r (0 : Fin 1))) ((Finset.univ : Finset (Fin 3200)).fold max ⊥ (tileLogit x0 x1 r))) := by
  unfold k0_pay13
  refine (mulf_apply _ _ _).trans ?_
  refine congrArg (l0 (ix2 r (0 : Fin 1)) * ·) ?_
  show Ideal.exp (subf m0 (k0_pay12 (F := Ideal) x0 x1 m0) (ix2 r (0 : Fin 1))) = _
  refine congrArg Ideal.exp ?_
  refine (subf_apply _ _ _).trans ?_
  rw [pay12_at]

/-- The tile's sum of exponentials relative to the new maximum, at row `r`. -/
theorem pay14_at (x0 : FVec Ideal S1x512x1024 .bf16) (x1 : FVec Ideal S3200x1024 .bf16) (m0 : FVec Ideal S512x1 .f32)
    (r : Fin 512) :
    k0_pay14 (F := Ideal) x0 x1 m0 (ix1 r)
      = ∑ k : Fin 3200, Ideal.exp (tileLogit x0 x1 r k
          - max (m0 (ix2 r (0 : Fin 1))) ((Finset.univ : Finset (Fin 3200)).fold max ⊥ (tileLogit x0 x1 r))) := by
  unfold k0_pay14
  refine (rowSum_apply _ r).trans ?_
  refine Finset.sum_congr rfl fun k _ => ?_
  show Ideal.exp (subf (k0_pay10 (F := Ideal) x0 x1)
    (broadcastTo S512x3200 (k0_pay12 (F := Ideal) x0 x1 m0) broadcasts_S512x1_S512x3200) (ix2 r k)) = _
  refine congrArg Ideal.exp ?_
  refine (subf_apply _ _ _).trans ?_
  rw [logits_at, broadcastTo_col_apply, pay12_at]

theorem newL_at (x0 : FVec Ideal S1x512x1024 .bf16) (x1 : FVec Ideal S3200x1024 .bf16) (m0 l0 : FVec Ideal S512x1 .f32)
    (r : Fin 512) :
    newL (F := Ideal) x0 x1 m0 l0 (ix2 r (0 : Fin 1))
      = l0 (ix2 r (0 : Fin 1)) * Ideal.exp (m0 (ix2 r (0 : Fin 1))
          - max (m0 (ix2 r (0 : Fin 1))) ((Finset.univ : Finset (Fin 3200)).fold max ⊥ (tileLogit x0 x1 r)))
        + ∑ k : Fin 3200, Ideal.exp (tileLogit x0 x1 r k
          - max (m0 (ix2 r (0 : Fin 1))) ((Finset.univ : Finset (Fin 3200)).fold max ⊥ (tileLogit x0 x1 r))) := by
  unfold newL k0_pay1
  refine (congrFun (shapeCast_self _ _) _).trans ?_
  refine (addf_apply _ _ _).trans ?_
  rw [pay13_at, shapeCast_col_apply, pay14_at]

theorem newS_at (x0 : FVec Ideal S1x512x1024 .bf16) (x1 : FVec Ideal S3200x1024 .bf16) (s0 : FVec Ideal S512x1 .f32)
    (r : Fin 512) :
    newS (F := Ideal) x0 x1 s0 (ix2 r (0 : Fin 1)) = s0 (ix2 r (0 : Fin 1)) + ∑ k : Fin 3200, tileLogit x0 x1 r k := by
  unfold newS k0_pay2
  refine (congrFun (shapeCast_self _ _) _).trans ?_
  refine (addf_apply _ _ _).trans ?_
  refine congrArg (s0 (ix2 r (0 : Fin 1)) + ·) ?_
  refine (shapeCast_col_apply _ _ r 0).trans ?_
  refine (rowSum_apply _ r).trans ?_
  exact Finset.sum_congr rfl fun k _ => logits_at x0 x1 r k

/-- The tile's sum of the logits on the columns whose word is the row's target word, at row `r`. -/
theorem pay11_at (i : grid0.Coords) (x0 : FVec Ideal S1x512x1024 .bf16) (x1 : FVec Ideal S3200x1024 .bf16)
    (x2 : IVec S4x512 32) (r : Fin 512) :
    k0_pay11 (F := Ideal) i x0 x1 (tokRow (F := Ideal) i x2) (ix2 r (0 : Fin 1))
      = ∑ k : Fin 3200, if tileHit i x2 r k then tileLogit x0 x1 r k else 0 := by
  unfold k0_pay11
  refine (shapeCast_col_apply _ _ r 0).trans ?_
  refine (rowSum_apply _ r).trans ?_
  refine Finset.sum_congr rfl fun k _ => ?_
  refine (select_apply _ _ _ _).trans ?_
  rw [cmpi_at, broadcastTo_1b_ab_apply, broadcastTo_col_apply, shapeCast_col_apply, shapeCast_1a_a_apply, tokRow_at,
    addi_at, iota_single_apply, select_cmpi_eq, logits_at]
  have h0 : broadcast S512x3200 (FloatOps.ofBits (F := Ideal) .f32 0x00000000#32) (ix2 r k) = (0 : EReal) :=
    Ideal.ofBits_zero_f32
  rw [h0]
  rfl

theorem newT_at (i : grid0.Coords) (x0 : FVec Ideal S1x512x1024 .bf16) (x1 : FVec Ideal S3200x1024 .bf16)
    (x2 : IVec S4x512 32) (t0 : FVec Ideal S512x1 .f32) (r : Fin 512) :
    newT (F := Ideal) i x0 x1 x2 t0 (ix2 r (0 : Fin 1))
      = t0 (ix2 r (0 : Fin 1)) + ∑ k : Fin 3200, if tileHit i x2 r k then tileLogit x0 x1 r k else 0 := by
  unfold newT k0_pay3
  refine (congrFun (shapeCast_self _ _) _).trans ?_
  refine (addf_apply _ _ _).trans ?_
  rw [pay11_at]

/-- The four updated columns at row `r` are the one-tile step of the four carried numbers of that row. -/
theorem step_at (i : grid0.Coords) (x0 : FVec Ideal S1x512x1024 .bf16) (x1 : FVec Ideal S3200x1024 .bf16)
    (x2 : IVec S4x512 32) (m0 l0 s0 t0 : FVec Ideal S512x1 .f32) (r : Fin 512) :
    (⟨newM (F := Ideal) x0 x1 m0 (ix2 r (0 : Fin 1)), newL (F := Ideal) x0 x1 m0 l0 (ix2 r (0 : Fin 1)), newS (F := Ideal) x0 x1 s0 (ix2 r (0 : Fin 1)),
        newT (F := Ideal) i x0 x1 x2 t0 (ix2 r (0 : Fin 1))⟩ : Acc)
      = (⟨m0 (ix2 r (0 : Fin 1)), l0 (ix2 r (0 : Fin 1)), s0 (ix2 r (0 : Fin 1)), t0 (ix2 r (0 : Fin 1))⟩ : Acc).step
          (tileLogit x0 x1 r) (tileHit i x2 r) := by
  rw [newM_at, newL_at, newS_at, newT_at]
  rfl

/-- The reset columns at any row are the empty accumulator. -/
theorem reset_at (r : Fin 512) :
    (⟨k0_pay6 (F := Ideal) (ix2 r (0 : Fin 1)), k0_pay7 (F := Ideal) (ix2 r (0 : Fin 1)), k0_pay8 (F := Ideal) (ix2 r (0 : Fin 1)),
        k0_pay9 (F := Ideal) (ix2 r (0 : Fin 1))⟩ : Acc) = Acc.init := by
  have h6 : k0_pay6 (F := Ideal) (ix2 r (0 : Fin 1)) = ⊥ := by
    unfold k0_pay6
    exact (congrFun (shapeCast_self _ _) _).trans ofBits_negInf
  have h7 : k0_pay7 (F := Ideal) (ix2 r (0 : Fin 1)) = 0 := by
    unfold k0_pay7
    exact (congrFun (shapeCast_self _ _) _).trans Ideal.ofBits_zero_f32
  have h8 : k0_pay8 (F := Ideal) (ix2 r (0 : Fin 1)) = 0 := by
    unfold k0_pay8
    exact (congrFun (shapeCast_self _ _) _).trans Ideal.ofBits_zero_f32
  have h9 : k0_pay9 (F := Ideal) (ix2 r (0 : Fin 1)) = 0 := by
    unfold k0_pay9
    exact (congrFun (shapeCast_self _ _) _).trans Ideal.ofBits_zero_f32
  rw [h6, h7, h8, h9]
  rfl

/-- The output block at row `r` holds the four columns side by side. -/
theorem outOf_at (mm ll ss tt : FVec Ideal S512x1 .f32) (r : Fin 512) :
    outOf (F := Ideal) mm ll ss tt (ix3 (0 : Fin 1) r (0 : Fin 4)) = mm (ix2 r (0 : Fin 1))
      ∧ outOf (F := Ideal) mm ll ss tt (ix3 (0 : Fin 1) r (1 : Fin 4)) = ll (ix2 r (0 : Fin 1))
      ∧ outOf (F := Ideal) mm ll ss tt (ix3 (0 : Fin 1) r (2 : Fin 4)) = ss (ix2 r (0 : Fin 1))
      ∧ outOf (F := Ideal) mm ll ss tt (ix3 (0 : Fin 1) r (3 : Fin 4)) = tt (ix2 r (0 : Fin 1)) := by
  unfold outOf k0_pay5
  have hc := concat4_at mm ll ss tt r
  exact ⟨(shapeCast_ab_1ab_apply _ _ 0 r 0).trans hc.1, (shapeCast_ab_1ab_apply _ _ 0 r 1).trans hc.2.1,
    (shapeCast_ab_1ab_apply _ _ 0 r 2).trans hc.2.2.1, (shapeCast_ab_1ab_apply _ _ 0 r 3).trans hc.2.2.2⟩

end Cert.KernelIdeal.Step

end
-- ==== Proof.KBlocks.lean ====
/-
  Which entries of the arrays a grid point's blocks are.

  Point `t` of the 4 × 2 × 10 grid has batch `t / 20`, position tile `(t / 10) % 2` and vocabulary tile `t % 10`. Its
  block of hidden rows is rows `512 · (position tile) + r` of its batch; its block of the table is rows
  `3200 · (vocabulary tile) + k`; its block of targets is columns `512 · (position tile) + r` of all four batches.
-/
import proofs.«428613_j5016521802043_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The three coordinates of a point. -/
abbrev bOf (t : Fin cfg0.N) : Fin 4 := ⟨t.val / 20, by have h : t.val < 80 := lt_of_lt_of_eq t.isLt N_0; omega⟩
abbrev sOf (t : Fin cfg0.N) : Fin 2 := ⟨(t.val / 10) % 2, Nat.mod_lt _ (by decide)⟩
abbrev jOf (t : Fin cfg0.N) : Fin 10 := ⟨t.val % 10, Nat.mod_lt _ (by decide)⟩
/-- Row `r` of position tile `s` is position `512 s + r`. -/
abbrev posOf (s : Fin 2) (r : Fin 512) : Fin 1024 := ⟨512 * s.val + r.val, by have := s.isLt; have := r.isLt; omega⟩
/-- Column `k` of vocabulary tile `j` is column `3200 j + k`. -/
abbrev colOf (j : Fin 10) (k : Fin 3200) : Fin 32000 := ⟨3200 * j.val + k.val, by have := j.isLt; have := k.isLt; omega⟩

/-- The printed index maps, decided once over the grid. -/
theorem idx_facts : ∀ t : Fin cfg0.N,
    win0_0.index t (0 : Fin 3) = t.val / 20 ∧ win0_0.index t (1 : Fin 3) = (t.val / 10) % 2 ∧ win0_0.index t (2 : Fin 3) = 0
    ∧ win0_1.index t (0 : Fin 2) = t.val % 10 ∧ win0_1.index t (1 : Fin 2) = 0
    ∧ win0_2.index t (0 : Fin 2) = 0 ∧ win0_2.index t (1 : Fin 2) = (t.val / 10) % 2
    ∧ win0_3.index t (0 : Fin 3) = t.val / 20 ∧ win0_3.index t (1 : Fin 3) = (t.val / 10) % 2 ∧ win0_3.index t (2 : Fin 3) = 0 :=
  (by decide +kernel : ∀ t : Fin grid0.N,
    win0_0.index t (0 : Fin 3) = t.val / 20 ∧ win0_0.index t (1 : Fin 3) = (t.val / 10) % 2 ∧ win0_0.index t (2 : Fin 3) = 0
    ∧ win0_1.index t (0 : Fin 2) = t.val % 10 ∧ win0_1.index t (1 : Fin 2) = 0
    ∧ win0_2.index t (0 : Fin 2) = 0 ∧ win0_2.index t (1 : Fin 2) = (t.val / 10) % 2
    ∧ win0_3.index t (0 : Fin 3) = t.val / 20 ∧ win0_3.index t (1 : Fin 3) = (t.val / 10) % 2 ∧ win0_3.index t (2 : Fin 3) = 0)

/-- The point's blocks, at their literal types. -/
abbrev hblk (c : Dev nD) (t : Fin cfg0.N) : Vec F S1x512x1024 .bf16 := iblk m c 0 t
abbrev eblk (c : Dev nD) (t : Fin cfg0.N) : Vec F S3200x1024 .bf16 := iblk m c 1 t
abbrev tblk (c : Dev nD) (t : Fin cfg0.N) : Vec F S4x512 .i32 := iblk m c 2 t
/-- The arrays the region finds, at their literal types. -/
abbrev harr (c : Dev nD) : Vec F S4x1024x1024 .bf16 := V m c main_v27
abbrev earr (c : Dev nD) : Vec F S32000x1024 .bf16 := V m c main_v30
abbrev tarr (c : Dev nD) : Vec F S4x1024 .i32 := V m c main_v29

/-- The block of hidden rows at point `t` is rows `512 s + r` of batch `b`. -/
theorem hblk_at (c : Dev nD) (t : Fin cfg0.N) (r : Fin 512) (d : Fin 1024) :
    hblk m c t (ix3 (0 : Fin 1) r d) = harr m c (ix3 (bOf t) (posOf (sOf t) r) d) := by
  obtain ⟨h0, h1, h2, -⟩ := idx_facts t
  unfold hblk harr iblk
  rw [View.read_apply]
  show V m c main_v27 _ = V m c main_v27 _
  congr 1
  funext a
  apply Fin.ext
  match a with
  | ⟨0, _⟩ => show win0_0.index t 0 * 1 + 1 * 0 = t.val / 20; rw [h0]; omega
  | ⟨1, _⟩ => show win0_0.index t 1 * 512 + 1 * r.val = 512 * ((t.val / 10) % 2) + r.val; rw [h1]; omega
  | ⟨2, _⟩ => show win0_0.index t 2 * 1024 + 1 * d.val = d.val; rw [h2]; omega

/-- The block of the table at point `t` is rows `3200 j + k`. -/
theorem eblk_at (c : Dev nD) (t : Fin cfg0.N) (k : Fin 3200) (d : Fin 1024) :
    eblk m c t (ix2 k d) = earr m c (ix2 (colOf (jOf t) k) d) := by
  obtain ⟨-, -, -, h0, h1, -⟩ := idx_facts t
  unfold eblk earr iblk
  rw [View.read_apply]
  show V m c main_v30 _ = V m c main_v30 _
  congr 1
  funext a
  apply Fin.ext
  match a with
  | ⟨0, _⟩ => show win0_1.index t 0 * 3200 + 1 * k.val = 3200 * (t.val % 10) + k.val; rw [h0]; omega
  | ⟨1, _⟩ => show win0_1.index t 1 * 1024 + 1 * d.val = d.val; rw [h1]; omega

/-- The block of targets at point `t` is columns `512 s + r` of every batch. -/
theorem tblk_at (c : Dev nD) (t : Fin cfg0.N) (b : Fin 4) (r : Fin 512) :
    tblk m c t (ix2 b r) = tarr m c (ix2 b (posOf (sOf t) r)) := by
  obtain ⟨-, -, -, -, -, h0, h1, -⟩ := idx_facts t
  unfold tblk tarr iblk
  rw [View.read_apply]
  show V m c main_v29 _ = V m c main_v29 _
  congr 1
  funext a
  apply Fin.ext
  match a with
  | ⟨0, _⟩ => show win0_2.index t 0 * 4 + 1 * b.val = b.val; rw [h0]; omega
  | ⟨1, _⟩ => show win0_2.index t 1 * 512 + 1 * r.val = 512 * ((t.val / 10) % 2) + r.val; rw [h1]; omega

end Cert.KernelIdeal.Blocks

end
-- ==== Proof.KInduct.lean ====
/-
  The sweep over the vocabulary, row by row.

  Fix a batch, a position tile and a row `r` of it whose normalised hidden row is real, and let `x v` be the row's
  logit against vocabulary row `v`. After the point with vocabulary tile `j` the four carried columns hold, at row `r`,
  the closed form over the first `3200 (j + 1)` columns: by induction on the point, the first tile stepping the empty
  accumulator and every later tile stepping what the tile before left. At the last tile the output block holds the
  closed form over the whole vocabulary.
-/
import proofs.«428613_j5016521802043_1_alg».proof.Proof.KStep
import proofs.«428613_j5016521802043_1_alg».proof.Proof.KBlocks

noncomputable section

open Idealize.ShloMosaic Idealize.ShloMosaic.TcCoe Idealize.SL.Sem

namespace Cert.KernelIdeal.Induct

open Cert.KernelIdeal Cert.KernelIdeal.Gen Cert.KernelIdeal.Pieces Cert.KernelIdeal.Step Cert.KernelIdeal.Blocks
open Cert.RowLoss Idealize.ShloMosaic.ValueIdx

variable (m : (ℓ : Loc nD τ sig) → Buf (Elt Ideal) ℓ) (c : Dev nD)

/-- The grid's coordinates, decided once. -/
theorem coords_facts : ∀ t : Fin cfg0.N,
    (grid0.coords t 0).val = t.val / 20 ∧ (grid0.coords t 1).val = (t.val / 10) % 2 ∧ (grid0.coords t 2).val = t.val % 10 :=
  (by decide +kernel : ∀ t : Fin grid0.N,
    (grid0.coords t 0).val = t.val / 20 ∧ (grid0.coords t 1).val = (t.val / 10) % 2 ∧ (grid0.coords t 2).val = t.val % 10)

/-- The logit of position `(b, p)` against vocabulary row `v`, from the arrays the region finds. -/
def X (b : Fin 4) (p : Fin 1024) (v : ℕ) : EReal :=
  if hv : v < 32000 then ∑ d : Fin 1024, harr m c (ix3 b p d) * earr m c (ix2 (⟨v, hv⟩ : Fin 32000) d) else 0
/-- Its real value. -/
def xr (b : Fin 4) (p : Fin 1024) (v : ℕ) : ℝ := (X m c b p v).toReal
/-- Column `v` is the target of position `(b, p)`: its word is the target word the region finds. -/
abbrev hitN (b : Fin 4) (p : Fin 1024) (v : ℕ) : Prop := BitVec.ofNat 32 v = tarr m c (ix2 b p)

/-- The hidden row of position `(b, p)` is real; the table is real. -/
def RowReal (b : Fin 4) (p : Fin 1024) : Prop := ∀ d : Fin 1024, ∃ x : ℝ, harr m c (ix3 b p d) = ((x : ℝ) : EReal)
def TabReal : Prop := ∀ (v : Fin 32000) (d : Fin 1024), ∃ x : ℝ, earr m c (ix2 v d) = ((x : ℝ) : EReal)

/-- A sum of products of reals is real: the logits of a real row against a real table are real. -/
theorem X_real (hE : TabReal m c) (b : Fin 4) (p : Fin 1024) (hR : RowReal m c b p) (v : ℕ) :
    X m c b p v = ((xr m c b p v : ℝ) : EReal) := by
  unfold xr X
  by_cases hv : v < 32000
  · rw [dif_pos hv]
    choose f hf using hR
    choose g hg using hE ⟨v, hv⟩
    have e : (∑ d : Fin 1024, harr m c (ix3 b p d) * earr m c (ix2 (⟨v, hv⟩ : Fin 32000) d))
        = ((∑ d : Fin 1024, f d * g d : ℝ) : EReal) := by
      rw [← coe_sum]
      exact Finset.sum_congr rfl fun d _ => by rw [hf d, hg d, EReal.coe_mul]
    rw [e, EReal.toReal_coe]
  · rw [dif_neg hv]; simp

/-- Two one-tile steps over equal tiles and equivalent hit tests are equal. -/
theorem step_congr (a : Acc) {w : ℕ} (Y Y' : Fin w → EReal) (hit hit' : Fin w → Prop) [DecidablePred hit] [DecidablePred hit']
    (hY : ∀ k, Y k = Y' k) (hh : ∀ k, hit k ↔ hit' k) : a.step Y hit = a.step Y' hit' := by
  obtain rfl : Y = Y' := funext hY
  unfold Acc.step
  have e : ∀ k : Fin w, (if hit k then Y k else 0) = (if hit' k then Y k else 0) := fun k => if_congr (hh k) rfl rfl
  simp only [e]

/-- The tile of logits of row `r` at point `t`: columns `3200 j + k` of the row's logits. -/
theorem tile_logit (hE : TabReal m c) (t : Fin cfg0.N) (r : Fin 512) (hR : RowReal m c (bOf t) (posOf (sOf t) r))
    (k : Fin 3200) :
    tileLogit (hblk m c t) (eblk m c t) r k
      = ((xr m c (bOf t) (posOf (sOf t) r) (3200 * (t.val % 10) + k.val) : ℝ) : EReal) := by
  rw [← X_real m c hE _ _ hR]
  unfold tileLogit X
  have hv : 3200 * (t.val % 10) + k.val < 32000 := by have := k.isLt; have := Nat.mod_lt t.val (show 0 < 10 by decide); omega
  rw [dif_pos hv]
  exact Finset.sum_congr rfl fun d _ => by rw [hblk_at, eblk_at]

/-- The tile's hit test of row `r` at point `t`: column `3200 j + k` is the row's target. -/
theorem tile_hit (t : Fin cfg0.N) (r : Fin 512) (k : Fin 3200) :
    tileHit (grid0.coords t) (tblk m c t) r k ↔ hitN m c (bOf t) (posOf (sOf t) r) (3200 * (t.val % 10) + k.val) := by
  obtain ⟨e0, -, e2⟩ := coords_facts t
  unfold tileHit hitN
  have eb : (⟨(grid0.coords t 0).val, (grid0.coords t 0).isLt⟩ : Fin 4) = bOf t := Fin.ext e0
  rw [eb, tblk_at, e2]
  have ew : BitVec.ofNat 32 (t.val % 10) * 3200#32 + BitVec.ofNat 32 k.val = BitVec.ofNat 32 (3200 * (t.val % 10) + k.val) := by
    rw [BitVec.ofNat_add, BitVec.ofNat_mul, BitVec.mul_comm]
  rw [ew]

/-- The four carried numbers of row `r` after point `n`. -/
def accAt (n : ℕ) (hn : n < cfg0.N) (r : Fin 512) : Acc :=
  ⟨(outsAt0 m c n hn).2.1 (ix2 r (0 : Fin 1)), (outsAt0 m c n hn).2.2.1 (ix2 r (0 : Fin 1)),
    (outsAt0 m c n hn).2.2.2.1 (ix2 r (0 : Fin 1)), (outsAt0 m c n hn).2.2.2.2 (ix2 r (0 : Fin 1))⟩

/-- What the first tile of a sweep leaves in the four carried columns. -/
theorem comp_A (t : Fin cfg0.N) (h0 : t.val % 10 = 0) (h1 : ¬t.val % 10 = 9) :
    (outsAt0 m c t.val t.isLt).2.1 = newM (hblk m c t) (eblk m c t) (k0_pay6 (F := Ideal))
    ∧ (outsAt0 m c t.val t.isLt).2.2.1 = newL (hblk m c t) (eblk m c t) (k0_pay6 (F := Ideal)) (k0_pay7 (F := Ideal))
    ∧ (outsAt0 m c t.val t.isLt).2.2.2.1 = newS (hblk m c t) (eblk m c t) (k0_pay8 (F := Ideal))
    ∧ (outsAt0 m c t.val t.isLt).2.2.2.2
        = newT (grid0.coords t) (hblk m c t) (eblk m c t) (tblk m c t) (k0_pay9 (F := Ideal)) := by
  rw [outsAt0_A m c t h0 h1]
  dsimp only
  exact ⟨sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    sA2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    sA3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h))⟩

/-- What a middle tile leaves, over what the tile before left. -/
theorem comp_B (t : Fin cfg0.N) (h0 : ¬t.val % 10 = 0) (h1 : ¬t.val % 10 = 9) :
    (outsAt0 m c t.val t.isLt).2.1 = newM (hblk m c t) (eblk m c t) (outsAt0 m c (t.val - 1) (Nat.lt_of_le_of_lt (Nat.sub_le _ _) t.isLt)).2.1
    ∧ (outsAt0 m c t.val t.isLt).2.2.1 = newL (hblk m c t) (eblk m c t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1 = newS (hblk m c t) (eblk m c t) (outsAt0 m c (t.val - 1) (Nat.lt_of_le_of_lt (Nat.sub_le _ _) t.isLt)).2.2.2.1
    ∧ (outsAt0 m c t.val t.isLt).2.2.2.2 = newT (grid0.coords t) (hblk m c t) (eblk m c t) (tblk m c t) (outsAt0 m c (t.val - 1) (Nat.lt_of_le_of_lt (Nat.sub_le _ _) t.isLt)).2.2.2.2 := by
  rw [outsAt0_B m c t h0 h1]
  dsimp only
  exact ⟨sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)),
    sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)),
    sB2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)),
    sB3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h))⟩

/-- What the last tile leaves: the same update, and the output block laid out from it. -/
theorem comp_C (t : Fin cfg0.N) (h0 : ¬t.val % 10 = 0) (h1 : t.val % 10 = 9) :
    (outsAt0 m c t.val t.isLt).2.1 = newM (hblk m c t) (eblk m c t) (outsAt0 m c (t.val - 1) (Nat.lt_of_le_of_lt (Nat.sub_le _ _) t.isLt)).2.1
    ∧ (outsAt0 m c t.val t.isLt).2.2.1 = newL (hblk m c t) (eblk m c t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1 = newS (hblk m c t) (eblk m c t) (outsAt0 m c (t.val - 1) (Nat.lt_of_le_of_lt (Nat.sub_le _ _) t.isLt)).2.2.2.1
    ∧ (outsAt0 m c t.val t.isLt).2.2.2.2 = newT (grid0.coords t) (hblk m c t) (eblk m c t) (tblk m c t) (outsAt0 m c (t.val - 1) (Nat.lt_of_le_of_lt (Nat.sub_le _ _) t.isLt)).2.2.2.2
    ∧ (outsAt0 m c t.val t.isLt).1 = outOf (newM (hblk m c t) (eblk m c t) (outsAt0 m c (t.val - 1) (Nat.lt_of_le_of_lt (Nat.sub_le _ _) t.isLt)).2.1)
        (newL (hblk m c t) (eblk m c t) (outsAt0 m c (t.val - 1) (Nat.lt_of_le_of_lt (Nat.sub_le _ _) t.isLt)).2.1 (outsAt0 m c (t.val - 1) (Nat.lt_of_le_of_lt (Nat.sub_le _ _) t.isLt)).2.2.1) (newS (hblk m c t) (eblk m c t) (outsAt0 m c (t.val - 1) (Nat.lt_of_le_of_lt (Nat.sub_le _ _) t.isLt)).2.2.2.1)
        (newT (grid0.coords t) (hblk m c t) (eblk m c t) (tblk m c t) (outsAt0 m c (t.val - 1) (Nat.lt_of_le_of_lt (Nat.sub_le _ _) t.isLt)).2.2.2.2) := by
  rw [outsAt0_C m c t h0 h1]
  dsimp only
  exact ⟨sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    sC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    sC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1)⟩

/-- The first tile steps the empty accumulator. -/
theorem accAt_first (t : Fin cfg0.N) (h0 : t.val % 10 = 0) (r : Fin 512) :
    accAt m c t.val t.isLt r
      = Acc.init.step (tileLogit (hblk m c t) (eblk m c t) r) (tileHit (grid0.coords t) (tblk m c t) r) := by
  obtain ⟨e0, e1, e2, e3⟩ := comp_A m c t h0 (by omega)
  unfold accAt
  rw [e0, e1, e2, e3, step_at, reset_at]

/-- A later tile steps what the tile before left. -/
theorem accAt_next (t : Fin cfg0.N) (h0 : ¬t.val % 10 = 0) (r : Fin 512) :
    accAt m c t.val t.isLt r
      = (accAt m c (t.val - 1) (Nat.lt_of_le_of_lt (Nat.sub_le _ _) t.isLt) r).step
          (tileLogit (hblk m c t) (eblk m c t) r) (tileHit (grid0.coords t) (tblk m c t) r) := by
  by_cases h1 : t.val % 10 = 9
  · obtain ⟨e0, e1, e2, e3, -⟩ := comp_C m c t h0 h1
    unfold accAt
    rw [e0, e1, e2, e3, step_at]
  · obtain ⟨e0, e1, e2, e3⟩ := comp_B m c t h0 h1
    unfold accAt
    rw [e0, e1, e2, e3, step_at]

/-- The first tile of a sweep leaves the closed form over its 3200 columns. -/
theorem acc_first (hE : TabReal m c) (t : Fin cfg0.N) (h0 : t.val % 10 = 0) (r : Fin 512)
    (hR : RowReal m c (bOf t) (posOf (sOf t) r)) :
    accAt m c t.val t.isLt r
      = closed (xr m c (bOf t) (posOf (sOf t) r)) (hitN m c (bOf t) (posOf (sOf t) r)) 3200 := by
  rw [accAt_first m c t h0 r, ← closed_zero (xr m c (bOf t) (posOf (sOf t) r)) (hitN m c (bOf t) (posOf (sOf t) r))]
  rw [step_congr _ _ (fun k : Fin 3200 => ((xr m c (bOf t) (posOf (sOf t) r) (0 + k.val) : ℝ) : EReal)) _
    (fun k : Fin 3200 => hitN m c (bOf t) (posOf (sOf t) r) (0 + k.val))
    (fun k => by rw [tile_logit m c hE t r hR k, h0, Nat.mul_zero])
    (fun k => by rw [tile_hit m c t r k, h0, Nat.mul_zero])]
  exact step_closed _ _ 0 3200 (by decide)

/-- THE SWEEP: after point `n`, row `r`'s four carried numbers are the closed form over the first
    `3200 (n % 10) + 3200` columns of the row's logits. -/
theorem acc_eq (hE : TabReal m c) : ∀ (n : ℕ) (hn : n < cfg0.N) (r : Fin 512),
    RowReal m c (bOf ⟨n, hn⟩) (posOf (sOf ⟨n, hn⟩) r) →
    accAt m c n hn r = closed (xr m c (bOf ⟨n, hn⟩) (posOf (sOf ⟨n, hn⟩) r))
      (hitN m c (bOf ⟨n, hn⟩) (posOf (sOf ⟨n, hn⟩) r)) (3200 * (n % 10) + 3200) := by
  intro n
  induction n with
  | zero =>
    intro hn r hR
    rw [acc_first m c hE ⟨0, hn⟩ rfl r hR]
  | succ n ih =>
    intro hn r hR
    have hN : n + 1 < 80 := lt_of_lt_of_eq hn N_0
    by_cases h0 : (n + 1) % 10 = 0
    · rw [acc_first m c hE ⟨n + 1, hn⟩ h0 r hR]
      congr 1
      omega
    · have hb : bOf (⟨n, Nat.lt_of_succ_lt hn⟩ : Fin cfg0.N) = bOf ⟨n + 1, hn⟩ := Fin.ext (by show n / 20 = (n + 1) / 20; omega)
      have hs : sOf (⟨n, Nat.lt_of_succ_lt hn⟩ : Fin cfg0.N) = sOf ⟨n + 1, hn⟩ := Fin.ext (by show (n / 10) % 2 = ((n + 1) / 10) % 2; omega)
      have ih' := ih (Nat.lt_of_succ_lt hn) r (by rw [hb, hs]; exact hR)
      rw [hb, hs] at ih'
      have hj : (n + 1) % 10 = n % 10 + 1 := by omega
      have ek : ∀ k : Fin 3200, 3200 * ((⟨n + 1, hn⟩ : Fin cfg0.N).val % 10) + k.val = 3200 * (n % 10) + 3200 + k.val := fun k => by
        show 3200 * ((n + 1) % 10) + k.val = _
        omega
      rw [accAt_next m c ⟨n + 1, hn⟩ h0 r]
      show (accAt m c n _ r).step _ _ = _
      rw [ih']
      rw [step_congr _ _ (fun k : Fin 3200 => ((xr m c (bOf ⟨n + 1, hn⟩) (posOf (sOf ⟨n + 1, hn⟩) r) (3200 * (n % 10) + 3200 + k.val) : ℝ) : EReal)) _
        (fun k : Fin 3200 => hitN m c (bOf ⟨n + 1, hn⟩) (posOf (sOf ⟨n + 1, hn⟩) r) (3200 * (n % 10) + 3200 + k.val))
        (fun k => by rw [tile_logit m c hE ⟨n + 1, hn⟩ r hR k, ek k])
        (fun k => by rw [tile_hit m c ⟨n + 1, hn⟩ r k, ek k])]
      rw [step_closed _ _ (3200 * (n % 10) + 3200) 3200 (by decide)]
      congr 1
      omega

/-- At the last tile the output block of row `r` holds the closed form over the whole vocabulary. -/
theorem out_eq (hE : TabReal m c) (t : Fin cfg0.N) (h1 : t.val % 10 = 9) (r : Fin 512)
    (hR : RowReal m c (bOf t) (posOf (sOf t) r)) :
    (⟨(outsAt0 m c t.val t.isLt).1 (ix3 (0 : Fin 1) r (0 : Fin 4)), (outsAt0 m c t.val t.isLt).1 (ix3 (0 : Fin 1) r (1 : Fin 4)),
        (outsAt0 m c t.val t.isLt).1 (ix3 (0 : Fin 1) r (2 : Fin 4)), (outsAt0 m c t.val t.isLt).1 (ix3 (0 : Fin 1) r (3 : Fin 4))⟩ : Acc)
      = closed (xr m c (bOf t) (posOf (sOf t) r)) (hitN m c (bOf t) (posOf (sOf t) r)) 32000 := by
  have hacc : accAt m c t.val t.isLt r
      = closed (xr m c (bOf t) (posOf (sOf t) r)) (hitN m c (bOf t) (posOf (sOf t) r)) (3200 * (t.val % 10) + 3200) :=
    acc_eq m c hE t.val t.isLt r hR
  rw [h1] at hacc
  obtain ⟨e0, e1, e2, e3, eo⟩ := comp_C m c t (by omega) h1
  obtain ⟨o0, o1, o2, o3⟩ := outOf_at (newM (hblk m c t) (eblk m c t) (outsAt0 m c (t.val - 1) (Nat.lt_of_le_of_lt (Nat.sub_le _ _) t.isLt)).2.1)
    (newL (hblk m c t) (eblk m c t) (outsAt0 m c (t.val - 1) (Nat.lt_of_le_of_lt (Nat.sub_le _ _) t.isLt)).2.1 (outsAt0 m c (t.val - 1) (Nat.lt_of_le_of_lt (Nat.sub_le _ _) t.isLt)).2.2.1) (newS (hblk m c t) (eblk m c t) (outsAt0 m c (t.val - 1) (Nat.lt_of_le_of_lt (Nat.sub_le _ _) t.isLt)).2.2.2.1)
    (newT (grid0.coords t) (hblk m c t) (eblk m c t) (tblk m c t) (outsAt0 m c (t.val - 1) (Nat.lt_of_le_of_lt (Nat.sub_le _ _) t.isLt)).2.2.2.2) r
  rw [eo, o0, o1, o2, o3, ← e0, ← e1, ← e2, ← e3]
  exact hacc

end Cert.KernelIdeal.Induct

end
-- ==== Proof.KFinal.lean ====
/-
  The output array after the region.

  The output window is written back only at the last vocabulary tile of each (batch, position tile): point
  `20 b + 10 s + 9` writes rows `512 s … 512 s + 511` of batch `b`. These eight blocks tile the array, so after the run
  entry `(b, p, q)` is what point `20 b + 10 (p / 512) + 9` left at row `p % 512`, column `q` of its block.
-/
import proofs.«428613_j5016521802043_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Final

open Cert.KernelIdeal Cert.KernelIdeal.Gen Idealize.ShloMosaic.ValueIdx
open Idealize.ShloMosaic.Pipeline (Dat)

variable {F : FTy → Type} [FloatOps F]
variable (m : (ℓ : Loc nD τ sig) → Buf (Elt F) ℓ)

/-- The last vocabulary tile of batch `b`, position tile `s`. -/
abbrev lastPt (b : Fin 4) (s : Fin 2) : Fin cfg0.N :=
  ⟨20 * b.val + 10 * s.val + 9, lt_of_lt_of_eq (by have := b.isLt; have := s.isLt; omega) N_0.symm⟩

/-- The output window's index map, decided once over the grid. -/
theorem idx_facts3 : ∀ t : Fin cfg0.N,
    win0_3.index t (0 : Fin 3) = t.val / 20 ∧ win0_3.index t (1 : Fin 3) = (t.val / 10) % 2 ∧ win0_3.index t (2 : Fin 3) = 0 :=
  (by decide +kernel : ∀ t : Fin grid0.N,
    win0_3.index t (0 : Fin 3) = t.val / 20 ∧ win0_3.index t (1 : Fin 3) = (t.val / 10) % 2 ∧ win0_3.index t (2 : Fin 3) = 0)

/-- The array after the run: entry `(b, p, q)` is what the last tile of `(b, p / 512)` left at `(p % 512, q)`. -/
def outArr (c : Dev nD) : Vec F S4x1024x4 .f32 := fun i =>
  (outsAt0 m c (lastPt ⟨(i 0).val, (i 0).isLt⟩ ⟨(i 1).val / 512, by have h : (i 1).val < 1024 := (i 1).isLt; omega⟩).val
      (lastPt ⟨(i 0).val, (i 0).isLt⟩ ⟨(i 1).val / 512, by have h : (i 1).val < 1024 := (i 1).isLt; omega⟩).isLt).1
    (ix3 (0 : Fin 1) (⟨(i 1).val % 512, Nat.mod_lt _ (by decide)⟩ : Fin 512) (⟨(i 2).val, (i 2).isLt⟩ : Fin 4))

/-- The contents after a point depend on the point's number only. -/
theorem outsAt0_congr (c : Dev nD) {n n' : ℕ} (h : n = n') (hn : n < cfg0.N) (hn' : n' < cfg0.N) :
    outsAt0 m c n hn = outsAt0 m c n' hn' := by subst h; rfl

/-- WHAT A WRITING POINT WRITES BACK is its block of `outArr`. -/
theorem flushed_eq (c : Dev nD) (t : Fin cfg0.N) (hf : (cfg0.win 3).flush t = true) :
    (dats m 0 c).flushed 3 t = ((cfg0.win 3).blk t).view.read (Elt F) (outArr m c) := by
  have h9 : t.val % 10 = 9 := (flush0_3 t).mp hf
  have hN : t.val < 80 := lt_of_lt_of_eq t.isLt N_0
  obtain ⟨e0, e1, e2⟩ := idx_facts3 t
  show (cfg0.win 3).cut (grid0.coords t) ((dats m 0 c).after 3 t) = _
  rw [after0_3]
  funext y
  show (outsAt0 m c t.val t.isLt).1 y = outArr m c (((cfg0.win 3).blk t).view.emb y)
  have c0 : (((cfg0.win 3).blk t).view.emb y 0).val = win0_3.index t (0 : Fin 3) * 1 + 1 * (y 0).val := rfl
  have c1 : (((cfg0.win 3).blk t).view.emb y 1).val = win0_3.index t (1 : Fin 3) * 512 + 1 * (y 1).val := rfl
  have c2 : (((cfg0.win 3).blk t).view.emb y 2).val = win0_3.index t (2 : Fin 3) * 4 + 1 * (y 2).val := rfl
  have y0 : (y 0).val < 1 := (y 0).isLt
  have y1 : (y 1).val < 512 := (y 1).isLt
  have y2 : (y 2).val < 4 := (y 2).isLt
  unfold outArr
  have hpt : 20 * (((cfg0.win 3).blk t).view.emb y 0).val + 10 * ((((cfg0.win 3).blk t).view.emb y 1).val / 512) + 9 = t.val := by
    rw [c0, c1, e0, e1]; omega
  have hidx : ix3 (0 : Fin 1) (⟨(((cfg0.win 3).blk t).view.emb y 1).val % 512, Nat.mod_lt _ (by decide)⟩ : Fin 512)
      (⟨(((cfg0.win 3).blk t).view.emb y 2).val, (((cfg0.win 3).blk t).view.emb y 2).isLt⟩ : Fin 4) = y := by
    funext a
    apply Fin.ext
    match a with
    | ⟨0, _⟩ => show 0 = (y 0).val; omega
    | ⟨1, _⟩ => show (((cfg0.win 3).blk t).view.emb y 1).val % 512 = (y 1).val; rw [c1, e1]; omega
    | ⟨2, _⟩ => show (((cfg0.win 3).blk t).view.emb y 2).val = (y 2).val; rw [c2, e2]; omega
  rw [hidx]
  exact (congrFun (congrArg Prod.fst (outsAt0_congr m c hpt _ t.isLt)) y).symm

/-- An index of the array is in point `t`'s block iff each coordinate is in the block's range on its axis. -/
theorem mem_blk (t : Fin cfg0.N) (i : S4x1024x4.Idx) :
    i ∈ ((cfg0.win 3).blk t).view.set ↔ ∀ a : Fin 3, win0_3.index t a * S1x512x4.size a ≤ (i a).val
      ∧ (i a).val < win0_3.index t a * S1x512x4.size a + S1x512x4.size a := by
  show i ∈ ((View.whole main_v31).slice (win0_3.rect t)).set ↔ _
  rw [View.set_slice_whole, Rect.mem_set_unit]
  exact Iff.rfl

/-- THE ARRAY after the run is `outArr`: every index lies in the block of the last tile of its (batch, position tile). -/
theorem final (c : Dev nD) : (dats m 0 c).arrAt 3 cfg0.N = outArr m c :=
  (dats m 0 c).arrAt_eq_of_cover 3 (outArr m c) (fun t hf => flushed_eq m c t hf) fun i => by
    have i0 : (i 0).val < 4 := (i 0).isLt
    have i1 : (i 1).val < 1024 := (i 1).isLt
    have i2 : (i 2).val < 4 := (i 2).isLt
    refine ⟨lastPt ⟨(i 0).val, i0⟩ ⟨(i 1).val / 512, by omega⟩, (flush0_3 _).mpr (by show (20 * (i 0).val + 10 * ((i 1).val / 512) + 9) % 10 = 9; omega), ?_⟩
    rw [mem_blk]
    obtain ⟨e0, e1, e2⟩ := idx_facts3 (lastPt ⟨(i 0).val, i0⟩ ⟨(i 1).val / 512, by omega⟩)
    have v : (lastPt ⟨(i 0).val, i0⟩ ⟨(i 1).val / 512, by omega⟩).val = 20 * (i 0).val + 10 * ((i 1).val / 512) + 9 := rfl
    intro a
    match a with
    | ⟨0, _⟩ =>
      show win0_3.index _ (0 : Fin 3) * 1 ≤ (i 0).val ∧ (i 0).val < win0_3.index _ (0 : Fin 3) * 1 + 1
      rw [e0, v]; omega
    | ⟨1, _⟩ =>
      show win0_3.index _ (1 : Fin 3) * 512 ≤ (i 1).val ∧ (i 1).val < win0_3.index _ (1 : Fin 3) * 512 + 512
      rw [e1, v]; omega
    | ⟨2, _⟩ =>
      show win0_3.index _ (2 : Fin 3) * 4 ≤ (i 2).val ∧ (i 2).val < win0_3.index _ (2 : Fin 3) * 4 + 4
      rw [e2]; omega

end Cert.KernelIdeal.Final

end
-- ==== Proof.Model.lean ====
/-
  What both programs compute, as one function of the six arguments, in plain index types.

  A row of the hidden state is normalised (mean and variance over its 1024 entries, a reciprocal square root of the
  variance plus a small constant, a scale and a shift); its 32000 logits are its inner products with the rows of the
  embedding table; the row's loss is the label-smoothed negative log-likelihood of the next token; the result is the
  mean of the row losses over the positions before each sequence's last token.
-/
import proofs.«428613_j5016521802043_1_alg».proof.Proof.Spec

noncomputable section

namespace Cert.Model

open Idealize.ShloMosaic Cert.RowLoss

/-- The normalisation of one row: `(x - μ) · (σ² + ε)^(-1/2) · γ + β` with `μ` the mean and `σ²` the mean of the
    squared deviations over the 1024 entries; the width and `ε` as the programs' own literals. -/
def lnRow (x γ β : Fin 1024 → EReal) : Fin 1024 → EReal :=
  let n : EReal := Ideal.ofBits .f32 0x44800000#32
  let μ : EReal := Ideal.div (∑ d : Fin 1024, x d) n
  let var : EReal := Ideal.div (∑ d : Fin 1024, (x d - μ) * (x d - μ)) n
  let r : EReal := Ideal.rsqrt (var + Ideal.ofBits .f32 0x3727C5AC#32)
  fun d => (x d - μ) * r * γ d + β d

/-- A logit: the inner product of a normalised row with a row of the embedding table. -/
def logit (h e : Fin 1024 → EReal) : EReal := ∑ d : Fin 1024, h d * e d

/-- The weight of the negative log-likelihood, and of the smoothing term: the programs' own literals. -/
def c₁ : EReal := Ideal.ofBits .f32 0x3F666632#32
def c₂ : EReal := Ideal.ofBits .f32 0x3651B8C5#32

/-- A token word read as a column of the vocabulary (its value, for a word in range). -/
def tokFin (t : BitVec 32) : Fin 32000 := ⟨t.toNat % 32000, Nat.mod_lt _ (by norm_num)⟩

/-- Position `p` of a sequence of length word `len` counts iff `p < len - 1` as signed 32-bit words. -/
def maskAt (len : BitVec 32) (p : ℕ) : EReal := if (BitVec.ofNat 32 p).slt (len - 1#32) then 1 else 0

/-- The masked mean of the row losses `loss b p` over the 4 × 1023 positions. -/
def meanLoss (loss : Fin 4 → Fin 1023 → EReal) (len : Fin 4 → BitVec 32) : EReal :=
  Ideal.div (∑ b : Fin 4, ∑ p : Fin 1023, loss b p * maskAt (len b) p.val)
    (∑ b : Fin 4, ∑ p : Fin 1023, maskAt (len b) p.val)

/-- The logits of position `(b, p)`: the hidden state is indexed (position, batch, feature). -/
def logits (x : Fin 1024 → Fin 4 → Fin 1024 → EReal) (emb : Fin 32000 → Fin 1024 → EReal) (γ β : Fin 1024 → EReal)
    (b : Fin 4) (p : Fin 1024) (v : Fin 32000) : EReal :=
  logit (lnRow (fun d => x p b d) γ β) (emb v)

/-- The result, by the reference's assembly of each row's loss; the target of position `p` is token `p + 1`. -/
def result (x : Fin 1024 → Fin 4 → Fin 1024 → EReal) (tok : Fin 4 → Fin 1024 → BitVec 32) (len : Fin 4 → BitVec 32)
    (emb : Fin 32000 → Fin 1024 → EReal) (γ β : Fin 1024 → EReal) : EReal :=
  meanLoss (fun b p => refLoss c₁ c₂ (fun v => logits x emb γ β b ⟨p.val, by omega⟩ v)
    (tokFin (tok b ⟨p.val + 1, by omega⟩))) len

end Cert.Model

end
-- ==== Proof.KHostPre.lean ====
/-
  The arrays the kernel region finds, read entry by entry.

  Before the region the program transposes the hidden state to (batch, position, feature), drops the last position and
  pads a zero position back, normalises every row, and changes the format (the identity on the extended reals): at a
  position below 1023 the region's hidden array holds the model's normalised row. The table is the embedding argument
  with its format changed. The targets are the tokens shifted by one, a zero padded at the end.
-/
import proofs.«428613_j5016521802043_1_alg».proof.Proof.Gen.KernelIdeal.Frame
import proofs.«428613_j5016521802043_1_alg».proof.Proof.Model
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

noncomputable section

open Idealize.ShloMosaic Idealize.ShloMosaic.TcCoe Idealize.SL.Sem

namespace Cert.KernelIdeal.HostPre

open Cert.KernelIdeal Cert.KernelIdeal.Gen Idealize.ShloMosaic.ValueIdx Idealize.ShloMosaic.StableHlo

/-! ## The operations before the region, as functions of the arguments -/

/-- The hidden state transposed to (batch, position, feature), its last position dropped and a zero position padded back. -/
def hv2 (x0 : FVec Ideal S1024x4x1024 .f32) : FVec Ideal S4x1024x1024 .f32 :=
  pad S4x1024x1024 ![0, 0, 0] ![0, 1, 0] ![0, 0, 0]
    (extractStridedSlice S4x1023x1024 ![0, 0, 0]
      (transpose S4x1024x1024 [1, 0, 2] x0 transposes_S1024x4x1024_S4x1024x1024_1_0_2) slices_S4x1024x1024_S4x1023x1024_0_0_0)
    (sitofp (F := Ideal) .f32 (constantI S_ 32 0#32)) pads_S4x1023x1024_S4x1024x1024_000_010_000 h_S_

/-- The sum of every row divided by the width, kept as a column. -/
def hstat (z : FVec Ideal S4x1024x1024 .f32) : FVec Ideal S4x1024x1 .f32 :=
  Host.divf
    (broadcastInDim S4x1024x1 ![0, 1] bcast_S4x1024_S4x1024x1_0_1
      (Host.reduceAdd z (constant (F := Ideal) S_ .f32 0x00000000#32) reducesTo_S4x1024x1024_S4x1024_d2 h_S_))
    (broadcastInDim S4x1024x1 ![] bcast_S_S4x1024x1 (constant (F := Ideal) S_ .f32 0x44800000#32))

/-- Every entry less its row's mean. -/
def hdev (y : FVec Ideal S4x1024x1024 .f32) : FVec Ideal S4x1024x1024 .f32 :=
  subf y (broadcastInDim S4x1024x1024 ![0, 1, 2] bcast_S4x1024x1_S4x1024x1024_0_1_2 (hstat y))

/-- The reciprocal square root of every row's variance plus the small constant, as a column. -/
def hrs (y : FVec Ideal S4x1024x1024 .f32) : FVec Ideal S4x1024x1 .f32 :=
  Host.rsqrt (addf (hstat (mulf (hdev y) (hdev y)))
    (broadcastInDim S4x1024x1 ![] bcast_S_S4x1024x1 (constant (F := Ideal) S_ .f32 0x3727C5AC#32)))

/-- The normalised array: deviation times reciprocal root times scale plus shift. -/
def hln (y : FVec Ideal S4x1024x1024 .f32) (g bt : FVec Ideal S1024 .f32) : FVec Ideal S4x1024x1024 .f32 :=
  addf
    (mulf (mulf (hdev y) (broadcastInDim S4x1024x1024 ![0, 1, 2] bcast_S4x1024x1_S4x1024x1024_0_1_2 (hrs y)))
      (broadcastInDim S4x1024x1024 ![0, 1, 2] bcast_S1x1x1024_S4x1024x1024_0_1_2
        (broadcastInDim S1x1x1024 ![2] bcast_S1024_S1x1x1024_2 g)))
    (broadcastInDim S4x1024x1024 ![0, 1, 2] bcast_S1x1x1024_S4x1024x1024_0_1_2
      (broadcastInDim S1x1x1024 ![2] bcast_S1024_S1x1x1024_2 bt))

/-! ## The same, read at an entry -/

/-- Below the dropped position the padded array is the transposed hidden state. -/
theorem hv2_apply (x0 : FVec Ideal S1024x4x1024 .f32) (b : Fin 4) (p : Fin 1024) (hp : p.val < 1023) (d : Fin 1024) :
    hv2 x0 (ix3 b p d) = x0 (ix3 p b d) := by
  unfold hv2
  rw [pad_apply_of_inside _ _ _ _ _ pads_S4x1023x1024_S4x1024x1024_000_010_000 h_S_ (ix3 b p d)
    (ix3 b (⟨p.val, hp⟩ : Fin 1023) d) (fun a => match a with
      | ⟨0, _⟩ => by show b.val = 0 + b.val * (0 + 1); omega
      | ⟨1, _⟩ => by show p.val = 0 + p.val * (0 + 1); omega
      | ⟨2, _⟩ => by show d.val = 0 + d.val * (0 + 1); omega)]
  rw [extractStridedSlice_apply ![0, 0, 0] _ slices_S4x1024x1024_S4x1023x1024_0_0_0 (ix3 b (⟨p.val, hp⟩ : Fin 1023) d)
    (ix3 b p d) (fun a => match a with
      | ⟨0, _⟩ => by show b.val = 0 + b.val; omega
      | ⟨1, _⟩ => by show p.val = 0 + p.val; omega
      | ⟨2, _⟩ => by show d.val = 0 + d.val; omega)]
  exact transpose_apply [1, 0, 2] x0 transposes_S1024x4x1024_S4x1024x1024_1_0_2 (ix3 b p d) (ix3 p b d) (fun a => match a with
    | ⟨0, _⟩ => rfl
    | ⟨1, _⟩ => rfl
    | ⟨2, _⟩ => rfl)

/-- A column laid along the features reads the column's entry of that row. -/
theorem bcol_apply {α : Type} (v : S4x1024x1.Idx → α) (b : Fin 4) (p : Fin 1024) (d : Fin 1024) :
    broadcastInDim S4x1024x1024 ![0, 1, 2] bcast_S4x1024x1_S4x1024x1024_0_1_2 v (ix3 b p d) = v (ix3 b p (0 : Fin 1)) :=
  broadcastInDim_apply _ bcast_S4x1024x1_S4x1024x1024_0_1_2 v (ix3 b p d) (ix3 b p (0 : Fin 1)) (fun a => match a with
    | ⟨0, _⟩ => by show b.val = if (4 : Nat) = 1 then 0 else b.val; rw [if_neg (by decide)]
    | ⟨1, _⟩ => by show p.val = if (1024 : Nat) = 1 then 0 else p.val; rw [if_neg (by decide)]
    | ⟨2, _⟩ => by show 0 = if (1 : Nat) = 1 then 0 else d.val; rw [if_pos rfl])

/-- A feature vector laid along batch and position reads the vector's entry of that feature. -/
theorem brow_apply {α : Type} (g : S1024.Idx → α) (b : Fin 4) (p : Fin 1024) (d : Fin 1024) :
    broadcastInDim S4x1024x1024 ![0, 1, 2] bcast_S1x1x1024_S4x1024x1024_0_1_2
      (broadcastInDim S1x1x1024 ![2] bcast_S1024_S1x1x1024_2 g) (ix3 b p d) = g (ix1 d) := by
  rw [broadcastInDim_apply _ bcast_S1x1x1024_S4x1024x1024_0_1_2 _ (ix3 b p d) (ix3 (0 : Fin 1) (0 : Fin 1) d) (fun a => match a with
    | ⟨0, _⟩ => by show 0 = if (1 : Nat) = 1 then 0 else b.val; rw [if_pos rfl]
    | ⟨1, _⟩ => by show 0 = if (1 : Nat) = 1 then 0 else p.val; rw [if_pos rfl]
    | ⟨2, _⟩ => by show d.val = if (1024 : Nat) = 1 then 0 else d.val; rw [if_neg (by decide)])]
  exact broadcastInDim_apply _ bcast_S1024_S1x1x1024_2 g (ix3 (0 : Fin 1) (0 : Fin 1) d) (ix1 d) (fun a => match a with
    | ⟨0, _⟩ => by show d.val = if (1024 : Nat) = 1 then 0 else d.val; rw [if_neg (by decide)])

/-- A scalar laid out as a column reads the scalar. -/
theorem bscal_apply {α : Type} (v : S_.Idx → α) (j : S4x1024x1.Idx) :
    broadcastInDim S4x1024x1 ![] bcast_S_S4x1024x1 v j = v ix0 :=
  broadcastInDim_apply _ bcast_S_S4x1024x1 v j ix0 (fun a => a.elim0)

/-- The host's sum of a row from zero is the sum of the row's 1024 entries. -/
theorem rowsum_apply (z : FVec Ideal S4x1024x1024 .f32) (b : Fin 4) (p : Fin 1024) :
    Host.reduceAdd z (constant (F := Ideal) S_ .f32 0x00000000#32) reducesTo_S4x1024x1024_S4x1024_d2 h_S_ (ix2 b p)
      = ∑ k : Fin 1024, z (ix3 b p k) := by
  simp only [Host.reduceAdd, Ideal.hostReduceAdd_def]
  rw [Ideal.hostReduceAdd_single reducesTo_S4x1024x1024_S4x1024_d2 (by decide)]
  rw [constant_apply, Ideal.ofBits_zero_f32, zero_add]
  refine Finset.sum_congr rfl fun k _ => ?_
  exact congrArg z (funext fun a => Fin.ext (by match a with | ⟨0, _⟩ => rfl | ⟨1, _⟩ => rfl | ⟨2, _⟩ => rfl))

/-- The host's division and reciprocal square root, entry by entry, are the extended reals'. -/
theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- The row statistic at a row: the sum of the row's entries over the width. -/
theorem hstat_apply (z : FVec Ideal S4x1024x1024 .f32) (b : Fin 4) (p : Fin 1024) :
    hstat z (ix3 b p (0 : Fin 1)) = Ideal.div (∑ k : Fin 1024, z (ix3 b p k)) (Ideal.ofBits .f32 0x44800000#32) := by
  unfold hstat
  rw [hostDivf_apply, bscal_apply, constant_apply]
  rw [broadcastInDim_apply _ bcast_S4x1024_S4x1024x1_0_1 _ (ix3 b p (0 : Fin 1)) (ix2 b p) (fun a => match a with
    | ⟨0, _⟩ => by show b.val = if (4 : Nat) = 1 then 0 else b.val; rw [if_neg (by decide)]
    | ⟨1, _⟩ => by show p.val = if (1024 : Nat) = 1 then 0 else p.val; rw [if_neg (by decide)])]
  rw [rowsum_apply]

theorem hdev_apply (y : FVec Ideal S4x1024x1024 .f32) (b : Fin 4) (p : Fin 1024) (d : Fin 1024) :
    hdev y (ix3 b p d) = y (ix3 b p d) - hstat y (ix3 b p (0 : Fin 1)) := by
  unfold hdev
  rw [subf_apply, bcol_apply]

theorem hrs_apply (y : FVec Ideal S4x1024x1024 .f32) (b : Fin 4) (p : Fin 1024) :
    hrs y (ix3 b p (0 : Fin 1))
      = Ideal.rsqrt (hstat (mulf (hdev y) (hdev y)) (ix3 b p (0 : Fin 1)) + Ideal.ofBits .f32 0x3727C5AC#32) := by
  unfold hrs
  rw [hostRsqrt_apply, addf_apply, bscal_apply, constant_apply]

theorem hln_apply (y : FVec Ideal S4x1024x1024 .f32) (g bt : FVec Ideal S1024 .f32) (b : Fin 4) (p : Fin 1024) (d : Fin 1024) :
    hln y g bt (ix3 b p d) = hdev y (ix3 b p d) * hrs y (ix3 b p (0 : Fin 1)) * g (ix1 d) + bt (ix1 d) := by
  unfold hln
  rw [addf_apply, mulf_apply, mulf_apply, bcol_apply, brow_apply, brow_apply]

/-- The normalised array at a position below the dropped one is the model's normalised row of the hidden state. -/
theorem hln_row (x0 : FVec Ideal S1024x4x1024 .f32) (g bt : FVec Ideal S1024 .f32) (b : Fin 4) (p : Fin 1024) (hp : p.val < 1023)
    (d : Fin 1024) :
    hln (hv2 x0) g bt (ix3 b p d)
      = Cert.Model.lnRow (fun d' => x0 (ix3 p b d')) (fun d' => g (ix1 d')) (fun d' => bt (ix1 d')) d := by
  rw [hln_apply, hrs_apply, hstat_apply, hdev_apply, hstat_apply]
  simp only [mulf_apply, hdev_apply, hstat_apply, hv2_apply x0 b p hp]
  rfl

/-! ## What the region's three arrays hold: the operations before it, composed -/

variable (m : (ℓ : Loc nD τ sig) → Buf (Elt Ideal) ℓ)

set_option maxRecDepth 8192 in
/-- The hidden array: the normalised padded array, its format changed. -/
theorem V_v27 (c : Dev nD) :
    (V m c main_v27 : S4x1024x1024.Idx → EReal)
      = (truncf (F := Ideal) .bf16 (hln (hv2 (m ((c : Thread nD τ).loc main_arg0) : S1024x4x1024.Idx → EReal))
          (m ((c : Thread nD τ).loc main_arg4) : S1024.Idx → EReal) (m ((c : Thread nD τ).loc main_arg5) : S1024.Idx → EReal))
          bitsLt_bf16_f32 : S4x1024x1024.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The table: the embedding argument, its format changed. -/
theorem V_v30 (c : Dev nD) :
    (V m c main_v30 : S32000x1024.Idx → EReal)
      = (truncf (F := Ideal) .bf16 (m ((c : Thread nD τ).loc main_arg3) : S32000x1024.Idx → EReal) bitsLt_bf16_f32
          : S32000x1024.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results

/-- The targets: the tokens from position 1 on, a zero word padded at the end. -/
theorem V_v29 (c : Dev nD) :
    (V m c main_v29 : S4x1024.Idx → BitVec 32)
      = pad S4x1024 ![0, 0] ![0, 1] ![0, 0]
          (extractStridedSlice S4x1023 ![0, 1] (m ((c : Thread nD τ).loc main_arg1) : S4x1024.Idx → BitVec 32) slices_S4x1024_S4x1023_0_1)
          (constantI S_ 32 0#32) pads_S4x1023_S4x1024_000_010 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- At a position below 1023 the hidden array the region finds holds the normalised row of the hidden state. -/
theorem harr_at (c : Dev nD) (b : Fin 4) (p : Fin 1024) (hp : p.val < 1023) (d : Fin 1024) :
    (V m c main_v27 : Vec Ideal S4x1024x1024 .bf16) (ix3 b p d)
      = Cert.Model.lnRow (fun d' => (m ((c : Thread nD τ).loc main_arg0) : Vec Ideal S1024x4x1024 .f32) (ix3 p b d'))
          (fun d' => (m ((c : Thread nD τ).loc main_arg4) : Vec Ideal S1024 .f32) (ix1 d'))
          (fun d' => (m ((c : Thread nD τ).loc main_arg5) : Vec Ideal S1024 .f32) (ix1 d')) d := by
  refine (congrFun (V_v27 m c) (ix3 b p d)).trans ?_
  rw [truncf_apply]
  exact hln_row _ _ _ b p hp d

/-- The table the region finds is the embedding argument. -/
theorem earr_at (c : Dev nD) (v : Fin 32000) (d : Fin 1024) :
    (V m c main_v30 : Vec Ideal S32000x1024 .bf16) (ix2 v d)
      = (m ((c : Thread nD τ).loc main_arg3) : Vec Ideal S32000x1024 .f32) (ix2 v d) :=
  congrFun (V_v30 m c) (ix2 v d)

/-- At a position below 1023 the targets the region finds are the tokens one position later. -/
theorem tarr_at (c : Dev nD) (b : Fin 4) (p : Fin 1024) (hp : p.val < 1023) :
    (V m c main_v29 : Vec Ideal S4x1024 .i32) (ix2 b p)
      = (m ((c : Thread nD τ).loc main_arg1) : Vec Ideal S4x1024 .i32) (ix2 b (⟨p.val + 1, by omega⟩ : Fin 1024)) := by
  refine (congrFun (V_v29 m c) (ix2 b p)).trans ?_
  generalize (m ((c : Thread nD τ).loc main_arg1) : S4x1024.Idx → BitVec 32) = x1
  rw [pad_apply_of_inside _ _ _ _ _ pads_S4x1023_S4x1024_000_010 h_S_ (ix2 b p) (ix2 b (⟨p.val, hp⟩ : Fin 1023)) (fun a => match a with
    | ⟨0, _⟩ => by show b.val = 0 + b.val * (0 + 1); omega
    | ⟨1, _⟩ => by show p.val = 0 + p.val * (0 + 1); omega)]
  exact extractStridedSlice_apply ![0, 1] x1 slices_S4x1024_S4x1023_0_1 _ _ (fun a => match a with
    | ⟨0, _⟩ => by show b.val = 0 + b.val; omega
    | ⟨1, _⟩ => by show p.val + 1 = 1 + p.val; omega)

end Cert.KernelIdeal.HostPre

end
-- ==== Proof.KTail.lean ====
/-
  The host operations after the kernel region, read as the model's masked mean.

  From the region's output array (per position: running maximum, sum of exponentials, sum of logits, target logit)
  the program drops the padded last position, takes the four columns apart, forms the log-sum-exp `m + log l`, the
  negative log-likelihood `lse − tgt`, the smoothing term `V · lse − sumlog`, their weighted sum, and the masked mean
  over the positions before each sequence's last token.

  The operations are first composed into one term of the two buffers they read, stage by stage; each stage is then
  read at a position `(b, p)`, and the two total sums become double sums over the coordinates.
-/
import proofs.«428613_j5016521802043_1_alg».proof.Proof.Gen.KernelIdeal.Frame
import proofs.«428613_j5016521802043_1_alg».proof.Proof.Model
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

open Idealize.ShloMosaic Idealize.ShloMosaic.TcCoe Idealize.SL.Sem

namespace Cert.KernelIdeal.Tail

open Cert.KernelIdeal Cert.KernelIdeal.Gen Idealize.ShloMosaic.ValueIdx

/-- The output array without its padded last position. -/
def cut (O : FVec Ideal S4x1024x4 .f32) : FVec Ideal S4x1023x4 .f32 :=
  extractStridedSlice S4x1023x4 ![0, 0, 0] O slices_S4x1024x4_S4x1023x4_0_0_0

/-- Its four columns, each as a 4 × 1023 array. -/
def col0 (O : FVec Ideal S4x1024x4 .f32) : FVec Ideal S4x1023 .f32 :=
  fun i => shapeCast S4x1023 (extractStridedSlice S4x1023x1 ![0, 0, 0] (cut O) slices_S4x1023x4_S4x1023x1_0_0_0) shapeCasts_S4x1023x1_S4x1023 i
def col1 (O : FVec Ideal S4x1024x4 .f32) : FVec Ideal S4x1023 .f32 :=
  fun i => shapeCast S4x1023 (extractStridedSlice S4x1023x1 ![0, 0, 1] (cut O) slices_S4x1023x4_S4x1023x1_0_0_1) shapeCasts_S4x1023x1_S4x1023 i
def col2 (O : FVec Ideal S4x1024x4 .f32) : FVec Ideal S4x1023 .f32 :=
  fun i => shapeCast S4x1023 (extractStridedSlice S4x1023x1 ![0, 0, 2] (cut O) slices_S4x1023x4_S4x1023x1_0_0_2) shapeCasts_S4x1023x1_S4x1023 i
def col3 (O : FVec Ideal S4x1024x4 .f32) : FVec Ideal S4x1023 .f32 :=
  fun i => shapeCast S4x1023 (extractStridedSlice S4x1023x1 ![0, 0, 3] (cut O) slices_S4x1023x4_S4x1023x1_0_0_3) shapeCasts_S4x1023x1_S4x1023 i

/-- The log-sum-exp `m + log l`. -/
def lse (O : FVec Ideal S4x1024x4 .f32) : FVec Ideal S4x1023 .f32 := addf (col0 O) (Host.log (col1 O))
/-- The negative log-likelihood `lse − tgt`. -/
def nll (O : FVec Ideal S4x1024x4 .f32) : FVec Ideal S4x1023 .f32 := subf (lse O) (col3 O)
/-- The smoothing term `V · lse − sumlog`. -/
def smooth (O : FVec Ideal S4x1024x4 .f32) : FVec Ideal S4x1023 .f32 :=
  subf (mulf (broadcastInDim S4x1023 ![] bcast_S_S4x1023 (constant (F := Ideal) S_ .f32 0x46FA0000#32)) (lse O)) (col2 O)
/-- The row losses. -/
def loss (O : FVec Ideal S4x1024x4 .f32) : FVec Ideal S4x1023 .f32 :=
  addf (mulf (broadcastInDim S4x1023 ![] bcast_S_S4x1023 (constant (F := Ideal) S_ .f32 0x3F666632#32)) (nll O))
    (mulf (broadcastInDim S4x1023 ![] bcast_S_S4x1023 (constant (F := Ideal) S_ .f32 0x3651B8C5#32)) (smooth O))
/-- The mask: position `p` of sequence `b` counts iff `p < len b − 1`. -/
def mask (len : IVec S4 32) : FVec Ideal S4x1023 .f32 :=
  uitofp (F := Ideal) .f32 (cmpi .slt
    (broadcastInDim S4x1023 ![0, 1] bcast_S1x1023_S4x1023_0_1 (broadcastInDim S1x1023 ![1] bcast_S1023_S1x1023_1 (iotaInDim S1023 32 0)))
    (broadcastInDim S4x1023 ![0, 1] bcast_S4x1_S4x1023_0_1
      (subi (broadcastInDim S4x1 ![0] bcast_S4_S4x1_0 len) (broadcastInDim S4x1 ![] bcast_S_S4x1 (constantI S_ 32 1#32)))))
/-- The number of counted positions. -/
def denom (len : IVec S4 32) : FVec Ideal S_ .f32 :=
  Host.reduceAdd (mask len) (constant (F := Ideal) S_ .f32 0x00000000#32) reducesTo_S4x1023_S_d0_1 h_S_
/-- The sum of the counted row losses. -/
def numer (O : FVec Ideal S4x1024x4 .f32) (len : IVec S4 32) : FVec Ideal S_ .f32 :=
  Host.reduceAdd (mulf (loss O) (mask len)) (constant (F := Ideal) S_ .f32 0x00000000#32) reducesTo_S4x1023_S_d0_1 h_S_
/-- The program's result. -/
def out (O : FVec Ideal S4x1024x4 .f32) (len : IVec S4 32) : FVec Ideal S_ .f32 := Host.divf (numer O len) (denom len)

set_option maxRecDepth 65536 in
set_option maxHeartbeats 4000000 in
/-- The 39 operations compose to `out` of the two buffers they read. -/
theorem after_eq (W : Valuation τ sig (Elt Ideal)) :
    StableHlo.after (hostOps1 (F := Ideal)) W (Proc.devRef .tc main_v64)
      = out (W (Proc.devRef .tc main_v31)) (W (Proc.devRef .tc main_arg2)) := by
  show _ = _
  simp only [hostOps1]
  after_results_simp
  rfl

/-! ## Reading the stages at a position -/

/-- An `[a, b, 1]` array cast to `[a, b]` reads, at `(i, j)`, the operand at `(i, j, 0)`: the two row-major
    positions are the same number. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- Column 0 at `(b, p)` is the output array at `(b, p, 0)`. -/
theorem col0_apply (O : FVec Ideal S4x1024x4 .f32) (b : Fin 4) (p : Fin 1023) :
    col0 O (ix2 b p) = O (ix3 b (⟨p.val, by omega⟩ : Fin 1024) (0 : Fin 4)) := by
  unfold col0 cut
  rw [shapeCast_ab1_ab_apply,
    extractStridedSlice_apply _ _ slices_S4x1023x4_S4x1023x1_0_0_0 (ix3 b p (0 : Fin 1)) (ix3 b p (0 : Fin 4))
      (fun a => match a with | ⟨0, _⟩ => (Nat.zero_add _).symm | ⟨1, _⟩ => (Nat.zero_add _).symm | ⟨2, _⟩ => rfl),
    extractStridedSlice_apply _ _ slices_S4x1024x4_S4x1023x4_0_0_0 (ix3 b p (0 : Fin 4)) (ix3 b (⟨p.val, by omega⟩ : Fin 1024) (0 : Fin 4))
      (fun a => match a with | ⟨0, _⟩ => (Nat.zero_add _).symm | ⟨1, _⟩ => (Nat.zero_add _).symm | ⟨2, _⟩ => (Nat.zero_add _).symm)]
/-- Column 1 at `(b, p)` is the output array at `(b, p, 1)`. -/
theorem col1_apply (O : FVec Ideal S4x1024x4 .f32) (b : Fin 4) (p : Fin 1023) :
    col1 O (ix2 b p) = O (ix3 b (⟨p.val, by omega⟩ : Fin 1024) (1 : Fin 4)) := by
  unfold col1 cut
  rw [shapeCast_ab1_ab_apply,
    extractStridedSlice_apply _ _ slices_S4x1023x4_S4x1023x1_0_0_1 (ix3 b p (0 : Fin 1)) (ix3 b p (1 : Fin 4))
      (fun a => match a with | ⟨0, _⟩ => (Nat.zero_add _).symm | ⟨1, _⟩ => (Nat.zero_add _).symm | ⟨2, _⟩ => rfl),
    extractStridedSlice_apply _ _ slices_S4x1024x4_S4x1023x4_0_0_0 (ix3 b p (1 : Fin 4)) (ix3 b (⟨p.val, by omega⟩ : Fin 1024) (1 : Fin 4))
      (fun a => match a with | ⟨0, _⟩ => (Nat.zero_add _).symm | ⟨1, _⟩ => (Nat.zero_add _).symm | ⟨2, _⟩ => (Nat.zero_add _).symm)]
/-- Column 2 at `(b, p)` is the output array at `(b, p, 2)`. -/
theorem col2_apply (O : FVec Ideal S4x1024x4 .f32) (b : Fin 4) (p : Fin 1023) :
    col2 O (ix2 b p) = O (ix3 b (⟨p.val, by omega⟩ : Fin 1024) (2 : Fin 4)) := by
  unfold col2 cut
  rw [shapeCast_ab1_ab_apply,
    extractStridedSlice_apply _ _ slices_S4x1023x4_S4x1023x1_0_0_2 (ix3 b p (0 : Fin 1)) (ix3 b p (2 : Fin 4))
      (fun a => match a with | ⟨0, _⟩ => (Nat.zero_add _).symm | ⟨1, _⟩ => (Nat.zero_add _).symm | ⟨2, _⟩ => rfl),
    extractStridedSlice_apply _ _ slices_S4x1024x4_S4x1023x4_0_0_0 (ix3 b p (2 : Fin 4)) (ix3 b (⟨p.val, by omega⟩ : Fin 1024) (2 : Fin 4))
      (fun a => match a with | ⟨0, _⟩ => (Nat.zero_add _).symm | ⟨1, _⟩ => (Nat.zero_add _).symm | ⟨2, _⟩ => (Nat.zero_add _).symm)]
/-- Column 3 at `(b, p)` is the output array at `(b, p, 3)`. -/
theorem col3_apply (O : FVec Ideal S4x1024x4 .f32) (b : Fin 4) (p : Fin 1023) :
    col3 O (ix2 b p) = O (ix3 b (⟨p.val, by omega⟩ : Fin 1024) (3 : Fin 4)) := by
  unfold col3 cut
  rw [shapeCast_ab1_ab_apply,
    extractStridedSlice_apply _ _ slices_S4x1023x4_S4x1023x1_0_0_3 (ix3 b p (0 : Fin 1)) (ix3 b p (3 : Fin 4))
      (fun a => match a with | ⟨0, _⟩ => (Nat.zero_add _).symm | ⟨1, _⟩ => (Nat.zero_add _).symm | ⟨2, _⟩ => rfl),
    extractStridedSlice_apply _ _ slices_S4x1024x4_S4x1023x4_0_0_0 (ix3 b p (3 : Fin 4)) (ix3 b (⟨p.val, by omega⟩ : Fin 1024) (3 : Fin 4))
      (fun a => match a with | ⟨0, _⟩ => (Nat.zero_add _).symm | ⟨1, _⟩ => (Nat.zero_add _).symm | ⟨2, _⟩ => (Nat.zero_add _).symm)]

/-- The row loss at `(b, p)` is the loss assembled from the four numbers the output array holds there. -/
theorem loss_apply (O : FVec Ideal S4x1024x4 .f32) (b : Fin 4) (p : Fin 1023) :
    loss O (ix2 b p) = Cert.RowLoss.kernelLoss Cert.Model.c₁ Cert.Model.c₂
      ⟨O (ix3 b (⟨p.val, by omega⟩ : Fin 1024) (0 : Fin 4)), O (ix3 b (⟨p.val, by omega⟩ : Fin 1024) (1 : Fin 4)),
       O (ix3 b (⟨p.val, by omega⟩ : Fin 1024) (2 : Fin 4)), O (ix3 b (⟨p.val, by omega⟩ : Fin 1024) (3 : Fin 4))⟩ := by
  show broadcastInDim S4x1023 ![] bcast_S_S4x1023 (constant (F := Ideal) S_ .f32 0x3F666632#32) (ix2 b p)
        * ((col0 O (ix2 b p) + Ideal.log (col1 O (ix2 b p))) - col3 O (ix2 b p))
      + broadcastInDim S4x1023 ![] bcast_S_S4x1023 (constant (F := Ideal) S_ .f32 0x3651B8C5#32) (ix2 b p)
        * (broadcastInDim S4x1023 ![] bcast_S_S4x1023 (constant (F := Ideal) S_ .f32 0x46FA0000#32) (ix2 b p)
            * (col0 O (ix2 b p) + Ideal.log (col1 O (ix2 b p))) - col2 O (ix2 b p)) = _
  rw [broadcastInDim_scalar_apply, broadcastInDim_scalar_apply, broadcastInDim_scalar_apply,
    col0_apply, col1_apply, col2_apply, col3_apply]
  rfl

/-- A one-bit word converts to `1` or `0`. -/
theorem uitofp_ofBool (c : Bool) :
    FloatOps.uitofp (F := Ideal) .f32 (BitVec.ofBool c) = if c then (1 : EReal) else 0 := by
  cases c
  · show (((BitVec.ofBool false).toNat : ℝ) : EReal) = _; simp
  · show (((BitVec.ofBool true).toNat : ℝ) : EReal) = _; simp

/-- The mask at `(b, p)`: `1` iff `p < len b − 1` as signed words. -/
theorem mask_apply (len : IVec S4 32) (b : Fin 4) (p : Fin 1023) :
    mask len (ix2 b p) = Cert.Model.maskAt (len (ix1 b)) p.val := by
  have hA : broadcastInDim S4x1023 ![0, 1] bcast_S1x1023_S4x1023_0_1
      (broadcastInDim S1x1023 ![1] bcast_S1023_S1x1023_1 (iotaInDim S1023 32 0)) (ix2 b p) = BitVec.ofNat 32 p.val := by
    rw [broadcastInDim_apply _ bcast_S1x1023_S4x1023_0_1 _ (ix2 b p) (ix2 (0 : Fin 1) p) (fun a => match a with
        | ⟨0, _⟩ => by show 0 = if (1 : Nat) = 1 then 0 else b.val; rw [if_pos rfl]
        | ⟨1, _⟩ => by show p.val = if (1023 : Nat) = 1 then 0 else p.val; rw [if_neg (by decide)]),
      broadcastInDim_apply _ bcast_S1023_S1x1023_1 _ (ix2 (0 : Fin 1) p) (ix1 p) (fun a => match a with
        | ⟨0, _⟩ => by show p.val = if (1023 : Nat) = 1 then 0 else p.val; rw [if_neg (by decide)])]
    rfl
  have hB : broadcastInDim S4x1023 ![0, 1] bcast_S4x1_S4x1023_0_1
      (subi (broadcastInDim S4x1 ![0] bcast_S4_S4x1_0 len) (broadcastInDim S4x1 ![] bcast_S_S4x1 (constantI S_ 32 1#32)))
      (ix2 b p) = len (ix1 b) - 1#32 := by
    rw [broadcastInDim_apply _ bcast_S4x1_S4x1023_0_1 _ (ix2 b p) (ix2 b (0 : Fin 1)) (fun a => match a with
        | ⟨0, _⟩ => by show b.val = if (4 : Nat) = 1 then 0 else b.val; rw [if_neg (by decide)]
        | ⟨1, _⟩ => by show 0 = if (1 : Nat) = 1 then 0 else p.val; rw [if_pos rfl])]
    show IntOp.subi (broadcastInDim S4x1 ![0] bcast_S4_S4x1_0 len (ix2 b (0 : Fin 1)))
      (broadcastInDim S4x1 ![] bcast_S_S4x1 (constantI S_ 32 1#32) (ix2 b (0 : Fin 1))) = _
    rw [broadcastInDim_apply _ bcast_S4_S4x1_0 len (ix2 b (0 : Fin 1)) (ix1 b) (fun a => match a with
        | ⟨0, _⟩ => by show b.val = if (4 : Nat) = 1 then 0 else b.val; rw [if_neg (by decide)]),
      broadcastInDim_scalar_apply]
    rfl
  show FloatOps.uitofp (F := Ideal) .f32 (IntOp.cmpi .slt
    (broadcastInDim S4x1023 ![0, 1] bcast_S1x1023_S4x1023_0_1
      (broadcastInDim S1x1023 ![1] bcast_S1023_S1x1023_1 (iotaInDim S1023 32 0)) (ix2 b p))
    (broadcastInDim S4x1023 ![0, 1] bcast_S4x1_S4x1023_0_1
      (subi (broadcastInDim S4x1 ![0] bcast_S4_S4x1_0 len) (broadcastInDim S4x1 ![] bcast_S_S4x1 (constantI S_ 32 1#32)))
      (ix2 b p))) = _
  rw [hA, hB]
  show FloatOps.uitofp (F := Ideal) .f32 (BitVec.ofBool ((BitVec.ofNat 32 p.val).slt (len (ix1 b) - 1#32))) = _
  rw [uitofp_ofBool]
  rfl

/-- A total sum from the zero word is the double sum over the two coordinates. -/
theorem reduce_total (y : FVec Ideal S4x1023 .f32) (i : S_.Idx) :
    Host.reduceAdd y (constant (F := Ideal) S_ .f32 0x00000000#32) reducesTo_S4x1023_S_d0_1 h_S_ i
      = ∑ b : Fin 4, ∑ p : Fin 1023, y (ix2 b p) := by
  simp only [Host.reduceAdd, Ideal.hostReduceAdd_def]
  rw [Ideal.hostReduceAdd_total reducesTo_S4x1023_S_d0_1 (fun b => b.elim0) y _ i, sum_idx2]
  show Ideal.ofBits .f32 0x00000000#32 + _ = _
  rw [Ideal.ofBits_zero_f32, zero_add]

/-- The result is the quotient of the two sums. -/
theorem out_eq (O : FVec Ideal S4x1024x4 .f32) (len : IVec S4 32) (i : S_.Idx) :
    out O len i = Ideal.div (numer O len i) (denom len i) := hostDivf_apply (numer O len) (denom len) i

/-- The program's result is the masked mean of the row losses. -/
theorem out_apply (O : FVec Ideal S4x1024x4 .f32) (len : IVec S4 32) (i : S_.Idx) :
    out O len i = Cert.Model.meanLoss
      (fun b p => Cert.RowLoss.kernelLoss Cert.Model.c₁ Cert.Model.c₂
        ⟨O (ix3 b (⟨p.val, by omega⟩ : Fin 1024) (0 : Fin 4)), O (ix3 b (⟨p.val, by omega⟩ : Fin 1024) (1 : Fin 4)),
         O (ix3 b (⟨p.val, by omega⟩ : Fin 1024) (2 : Fin 4)), O (ix3 b (⟨p.val, by omega⟩ : Fin 1024) (3 : Fin 4))⟩)
      (fun b => len (ix1 b)) := by
  have hn : numer O len i = ∑ b : Fin 4, ∑ p : Fin 1023, loss O (ix2 b p) * mask len (ix2 b p) :=
    reduce_total (mulf (loss O) (mask len)) i
  have hd : denom len i = ∑ b : Fin 4, ∑ p : Fin 1023, mask len (ix2 b p) := reduce_total (mask len) i
  rw [out_eq, hn, hd]
  refine congrArg₂ Ideal.div ?_ ?_
  · refine Finset.sum_congr rfl fun b _ => Finset.sum_congr rfl fun p _ => ?_
    rw [loss_apply, mask_apply]
  · refine Finset.sum_congr rfl fun b _ => Finset.sum_congr rfl fun p _ => ?_
    exact mask_apply len b p

/-- Whatever the buffers hold when the region ends (`W`), the program's result after its last 39 host operations is
    the masked mean of the row losses assembled from the output array's four columns. -/
theorem tail_of (W : Valuation τ sig (Elt Ideal)) :
    StableHlo.after (hostOps1 (F := Ideal)) W (Proc.devRef .tc main_v64)
      = fun _ => Cert.Model.meanLoss
          (fun b p => Cert.RowLoss.kernelLoss Cert.Model.c₁ Cert.Model.c₂
            ⟨(W (Proc.devRef .tc main_v31) : Vec Ideal S4x1024x4 .f32) (ix3 b (⟨p.val, by omega⟩ : Fin 1024) (0 : Fin 4)),
             (W (Proc.devRef .tc main_v31) : Vec Ideal S4x1024x4 .f32) (ix3 b (⟨p.val, by omega⟩ : Fin 1024) (1 : Fin 4)),
             (W (Proc.devRef .tc main_v31) : Vec Ideal S4x1024x4 .f32) (ix3 b (⟨p.val, by omega⟩ : Fin 1024) (2 : Fin 4)),
             (W (Proc.devRef .tc main_v31) : Vec Ideal S4x1024x4 .f32) (ix3 b (⟨p.val, by omega⟩ : Fin 1024) (3 : Fin 4))⟩)
          (fun b => (W (Proc.devRef .tc main_arg2) : IVec S4 32) (ix1 b)) := by
  rw [after_eq]
  funext i
  exact out_apply _ _ i

end Cert.KernelIdeal.Tail

end
-- ==== Proof.LnReal.lean ====
/-
  The normalisation of a real row is real.

  The mean of 1024 reals is real; the variance, a mean of squares, is a non-negative real; the small constant added to
  it is a positive real, so the sum is positive and its reciprocal square root is a real number; the rest is products
  and sums of reals. The inner product of two real rows is real.
-/
import proofs.«428613_j5016521802043_1_alg».proof.Proof.Model

noncomputable section

namespace Cert.Model

open Idealize.ShloMosaic Cert.RowLoss

/-- The width literal is the real number 1024: sign 0, exponent 137, fraction 0, so 2²³ · 2^(137 - 127 - 23). -/
theorem ofBits_width : Ideal.ofBits .f32 0x44800000#32 = ((1024 : ℝ) : EReal) := by
  simp [Ideal.ofBits, Ideal.ieee, -EReal.coe_mul]; norm_num

/-- The small constant is a positive real: sign 0, exponent 110, fraction 2606508, so
    (2²³ + 2606508) · 2^(110 - 127 - 23) = 10995116 · 2⁻⁴⁰. -/
theorem ofBits_eps : ∃ e : ℝ, 0 < e ∧ Ideal.ofBits .f32 0x3727C5AC#32 = ((e : ℝ) : EReal) := by
  refine ⟨(10995116 : ℝ) * (2 : ℝ) ^ (-40 : ℤ), by positivity, ?_⟩
  simp [Ideal.ofBits, Ideal.ieee, -EReal.coe_mul]

/-- The mean of 1024 real numbers, taken in the extended reals, is their real mean. -/
theorem mean_coe (f : Fin 1024 → ℝ) :
    Ideal.div (∑ d : Fin 1024, ((f d : ℝ) : EReal)) ((1024 : ℝ) : EReal)
      = (((∑ d : Fin 1024, f d) * (1 / 1024) : ℝ) : EReal) := by
  rw [Ideal.div_coe (by norm_num : (1024 : ℝ) ≠ 0), coe_sum, ← EReal.coe_mul]

/-- The reciprocal square root of a positive real is a real number. -/
theorem rsqrt_coe_pos {r : ℝ} (h : 0 < r) : Ideal.rsqrt (r : EReal) = (((Real.sqrt r)⁻¹ : ℝ) : EReal) := by
  rw [Ideal.rsqrt_coe, if_neg (not_lt.2 h.le), if_neg h.ne']

/-- Every entry of the normalised row of real `x`, `γ`, `β` is a real number. -/
theorem lnRow_real (x γ β : Fin 1024 → ℝ) (d : Fin 1024) :
    ∃ r : ℝ, lnRow (fun d' => ((x d' : ℝ) : EReal)) (fun d' => ((γ d' : ℝ) : EReal)) (fun d' => ((β d' : ℝ) : EReal)) d
      = ((r : ℝ) : EReal) := by
  obtain ⟨e, he, hε⟩ := ofBits_eps
  unfold lnRow
  dsimp only
  rw [ofBits_width, hε, mean_coe]
  simp only [← EReal.coe_sub, ← EReal.coe_mul]
  rw [mean_coe, ← EReal.coe_add]
  have hv : 0 ≤ (∑ d' : Fin 1024, (x d' - (∑ i : Fin 1024, x i) * (1 / 1024)) * (x d' - (∑ i : Fin 1024, x i) * (1 / 1024)))
      * (1 / 1024) :=
    mul_nonneg (Finset.sum_nonneg fun i _ => mul_self_nonneg _) (by norm_num)
  rw [rsqrt_coe_pos (add_pos_of_nonneg_of_pos hv he)]
  simp only [← EReal.coe_mul, ← EReal.coe_add]
  exact ⟨_, rfl⟩

/-- The same for rows given as extended reals that are known to be real entry by entry. -/
theorem lnRow_real' (x γ β : Fin 1024 → EReal) (hx : ∀ d, ∃ r : ℝ, x d = ((r : ℝ) : EReal))
    (hγ : ∀ d, ∃ r : ℝ, γ d = ((r : ℝ) : EReal)) (hβ : ∀ d, ∃ r : ℝ, β d = ((r : ℝ) : EReal)) (d : Fin 1024) :
    ∃ r : ℝ, lnRow x γ β d = ((r : ℝ) : EReal) := by
  choose fx hfx using hx
  choose fγ hfγ using hγ
  choose fβ hfβ using hβ
  obtain rfl : x = fun d' => ((fx d' : ℝ) : EReal) := funext hfx
  obtain rfl : γ = fun d' => ((fγ d' : ℝ) : EReal) := funext hfγ
  obtain rfl : β = fun d' => ((fβ d' : ℝ) : EReal) := funext hfβ
  exact lnRow_real fx fγ fβ d

end Cert.Model

end
-- ==== Proof.KValue.lean ====
/-
  The kernel's program computes the model's result.

  For a position below 1023 the hidden row the region finds is the model's normalised row and is real, the table is the
  embedding argument and is real, so the position's logits are real and the sweep leaves in the output array the closed
  form of the four carried numbers over the whole vocabulary; the target word the region finds is the next token's, a
  column of the vocabulary, so the loss the program's last operations assemble from those four numbers is the loss the
  model assembles from the row's log-softmax. The masked mean is then the same.
-/
import proofs.«428613_j5016521802043_1_alg».proof.Proof.KInduct
import proofs.«428613_j5016521802043_1_alg».proof.Proof.KFinal
import proofs.«428613_j5016521802043_1_alg».proof.Proof.KHostPre
import proofs.«428613_j5016521802043_1_alg».proof.Proof.KTail
import proofs.«428613_j5016521802043_1_alg».proof.Proof.LnReal

noncomputable section

open Idealize.ShloMosaic Idealize.ShloMosaic.TcCoe Idealize.SL.Sem

namespace Cert.KernelIdeal.Value

open Cert.KernelIdeal Cert.KernelIdeal.Gen Cert.KernelIdeal.Blocks Cert.KernelIdeal.Induct Cert.KernelIdeal.Final
open Cert.RowLoss Idealize.ShloMosaic.ValueIdx

variable (m : (ℓ : Loc nD τ sig) → Buf (Elt Ideal) ℓ)

/-- The six argument arrays of core `c`, at their literal types. -/
abbrev A0 (c : Dev nD) : Vec Ideal S1024x4x1024 .f32 := m ((c : Thread nD τ).loc main_arg0)
abbrev A1 (c : Dev nD) : Vec Ideal S4x1024 .i32 := m ((c : Thread nD τ).loc main_arg1)
abbrev A2 (c : Dev nD) : Vec Ideal S4 .i32 := m ((c : Thread nD τ).loc main_arg2)
abbrev A3 (c : Dev nD) : Vec Ideal S32000x1024 .f32 := m ((c : Thread nD τ).loc main_arg3)
abbrev A4 (c : Dev nD) : Vec Ideal S1024 .f32 := m ((c : Thread nD τ).loc main_arg4)
abbrev A5 (c : Dev nD) : Vec Ideal S1024 .f32 := m ((c : Thread nD τ).loc main_arg5)

/-- What the precondition says of core `c`'s arguments: the float arrays are real, the tokens are columns. -/
structure Good (c : Dev nD) : Prop where
  h0 : ∀ i, ∃ r : ℝ, A0 m c i = ((r : ℝ) : EReal)
  h3 : ∀ i, ∃ r : ℝ, A3 m c i = ((r : ℝ) : EReal)
  h4 : ∀ i, ∃ r : ℝ, A4 m c i = ((r : ℝ) : EReal)
  h5 : ∀ i, ∃ r : ℝ, A5 m c i = ((r : ℝ) : EReal)
  htok : ∀ (b : Fin 4) (p : Fin 1024), ∃ k : Fin 32000, A1 m c (ix2 b p) = BitVec.ofNat 32 k.val

/-- The model's result of core `c`'s arguments. -/
def modelResult (c : Dev nD) : EReal :=
  Cert.Model.result (fun s b d => A0 m c (ix3 s b d)) (fun b p => A1 m c (ix2 b p)) (fun b => A2 m c (ix1 b))
    (fun v d => A3 m c (ix2 v d)) (fun d => A4 m c (ix1 d)) (fun d => A5 m c (ix1 d))

/-- Two closed forms over the first `n` columns agree when their hit tests agree below `n`. -/
theorem closed_congr (x : ℕ → ℝ) (hit hit' : ℕ → Prop) [DecidablePred hit] [DecidablePred hit'] (n : ℕ)
    (h : ∀ v, v < n → (hit v ↔ hit' v)) : closed x hit n = closed x hit' n := by
  simp only [closed]
  rw [Acc.mk.injEq]
  exact ⟨rfl, rfl, rfl, Finset.sum_congr rfl fun v hv => if_congr (h v (Finset.mem_range.1 hv)) rfl rfl⟩

/-- Two 32-bit words of numbers below the vocabulary size are equal only when the numbers are. -/
theorem ofNat_inj_of_lt {v k : ℕ} (hv : v < 32000) (hk : k < 32000) :
    BitVec.ofNat 32 v = BitVec.ofNat 32 k ↔ v = k := by
  constructor
  · intro h
    have h' := congrArg BitVec.toNat h
    rw [BitVec.toNat_ofNat, BitVec.toNat_ofNat,
      Nat.mod_eq_of_lt (Nat.lt_of_lt_of_le hv (by norm_num)), Nat.mod_eq_of_lt (Nat.lt_of_lt_of_le hk (by norm_num))] at h'
    exact h'
  · rintro rfl
    rfl

/-- The column a word of a column below the vocabulary size names is that column. -/
theorem tokFin_ofNat (k : Fin 32000) : Cert.Model.tokFin (BitVec.ofNat 32 k.val) = k := by
  apply Fin.ext
  show (BitVec.ofNat 32 k.val).toNat % 32000 = k.val
  rw [BitVec.toNat_ofNat, Nat.mod_eq_of_lt (Nat.lt_of_lt_of_le k.isLt (by norm_num)), Nat.mod_eq_of_lt k.isLt]

/-- The table the region finds is real when the embedding argument is. -/
theorem tabReal (c : Dev nD) (hg : Good m c) : TabReal m c := fun v d => by
  obtain ⟨x, hx⟩ := hg.h3 (ix2 v d)
  exact ⟨x, (HostPre.earr_at m c v d).trans hx⟩

/-- At a position below 1023 the hidden row the region finds is real when the arguments are. -/
theorem rowReal (c : Dev nD) (hg : Good m c) (b : Fin 4) (P : Fin 1024) (hp : P.val < 1023) : RowReal m c b P := fun d => by
  obtain ⟨x, hx⟩ := Cert.Model.lnRow_real' (fun d' => A0 m c (ix3 P b d')) (fun d' => A4 m c (ix1 d')) (fun d' => A5 m c (ix1 d'))
    (fun d' => hg.h0 _) (fun d' => hg.h4 _) (fun d' => hg.h5 _) d
  exact ⟨x, (HostPre.harr_at m c b P hp d).trans hx⟩

/-- The four entries of the output array at a position whose hidden row is real are the closed form of the position's
    four numbers over the whole vocabulary. -/
theorem out_closed (c : Dev nD) (hE : TabReal m c) (b : Fin 4) (P : Fin 1024) (hR : RowReal m c b P) :
    (⟨outArr m c (ix3 b P (0 : Fin 4)), outArr m c (ix3 b P (1 : Fin 4)), outArr m c (ix3 b P (2 : Fin 4)),
        outArr m c (ix3 b P (3 : Fin 4))⟩ : Acc)
      = closed (xr m c b P) (hitN m c b P) 32000 := by
  have hP : P.val < 1024 := P.isLt
  have hb4 : b.val < 4 := b.isLt
  have hb : bOf (lastPt b ⟨P.val / 512, by omega⟩) = b :=
    Fin.ext (by show (20 * b.val + 10 * (P.val / 512) + 9) / 20 = b.val; omega)
  have hpos : posOf (sOf (lastPt b ⟨P.val / 512, by omega⟩)) (⟨P.val % 512, Nat.mod_lt _ (by decide)⟩ : Fin 512) = P :=
    Fin.ext (by show 512 * (((20 * b.val + 10 * (P.val / 512) + 9) / 10) % 2) + P.val % 512 = P.val; omega)
  have key := Induct.out_eq m c hE (lastPt b ⟨P.val / 512, by omega⟩)
    (by show (20 * b.val + 10 * (P.val / 512) + 9) % 10 = 9; omega) (⟨P.val % 512, Nat.mod_lt _ (by decide)⟩ : Fin 512)
    (by rw [hpos, hb]; exact hR)
  rw [hpos, hb] at key
  exact key

/-- THE ROW: at a position below 1023 the loss assembled from the output array's four entries is the model's row loss. -/
theorem row_loss_eq (c : Dev nD) (hg : Good m c) (b : Fin 4) (p : Fin 1023) :
    kernelLoss Cert.Model.c₁ Cert.Model.c₂
        ⟨outArr m c (ix3 b (⟨p.val, by omega⟩ : Fin 1024) (0 : Fin 4)), outArr m c (ix3 b (⟨p.val, by omega⟩ : Fin 1024) (1 : Fin 4)),
         outArr m c (ix3 b (⟨p.val, by omega⟩ : Fin 1024) (2 : Fin 4)), outArr m c (ix3 b (⟨p.val, by omega⟩ : Fin 1024) (3 : Fin 4))⟩
      = refLoss Cert.Model.c₁ Cert.Model.c₂
          (fun v => Cert.Model.logits (fun s b d => A0 m c (ix3 s b d)) (fun v d => A3 m c (ix2 v d)) (fun d => A4 m c (ix1 d))
            (fun d => A5 m c (ix1 d)) b (⟨p.val, by omega⟩ : Fin 1024) v)
          (Cert.Model.tokFin (A1 m c (ix2 b (⟨p.val + 1, by omega⟩ : Fin 1024)))) := by
  have hp : (⟨p.val, by omega⟩ : Fin 1024).val < 1023 := p.isLt
  have hE := tabReal m c hg
  have hR := rowReal m c hg b (⟨p.val, by omega⟩ : Fin 1024) hp
  obtain ⟨k, hk⟩ := hg.htok b (⟨p.val + 1, by omega⟩ : Fin 1024)
  -- the target word the region finds is the next token's, a column
  have htar : tarr m c (ix2 b (⟨p.val, by omega⟩ : Fin 1024)) = BitVec.ofNat 32 k.val :=
    (HostPre.tarr_at m c b (⟨p.val, by omega⟩ : Fin 1024) hp).trans hk
  have hhit : ∀ v, v < 32000 → (hitN m c b (⟨p.val, by omega⟩ : Fin 1024) v ↔ v = k.val) := fun v hv => by
    show BitVec.ofNat 32 v = tarr m c (ix2 b (⟨p.val, by omega⟩ : Fin 1024)) ↔ v = k.val
    rw [htar]
    exact ofNat_inj_of_lt hv k.isLt
  -- the row of logits, as the model writes it
  have hrow : (fun v : Fin 32000 => ((xr m c b (⟨p.val, by omega⟩ : Fin 1024) v.val : ℝ) : EReal))
      = fun v => Cert.Model.logits (fun s b d => A0 m c (ix3 s b d)) (fun v d => A3 m c (ix2 v d)) (fun d => A4 m c (ix1 d))
          (fun d => A5 m c (ix1 d)) b (⟨p.val, by omega⟩ : Fin 1024) v := by
    funext v
    rw [← X_real m c hE b _ hR v.val]
    unfold X
    rw [dif_pos v.isLt]
    unfold Cert.Model.logits Cert.Model.logit
    refine Finset.sum_congr rfl fun d _ => ?_
    exact congrArg₂ (· * ·) (HostPre.harr_at m c b (⟨p.val, by omega⟩ : Fin 1024) hp d) (HostPre.earr_at m c v d)
  rw [out_closed m c hE b _ hR, closed_congr _ _ (fun v => v = k.val) 32000 hhit, kernelLoss_closed_eq_refLoss, hrow, hk,
    tokFin_ofNat]

end Cert.KernelIdeal.Value

end
-- ==== Proof.KRun.lean ====
/-
  The kernel's program runs, and its result is the model's.

  After the region the pipeline's output array holds what the last vocabulary tiles left, every other buffer what the
  host operations before the region left; the host operations after the region then assemble the masked mean from the
  output array and the sequence lengths, row by row the model's row loss. The arguments are written by nothing.
-/
import proofs.«428613_j5016521802043_1_alg».proof.Proof.KValue

noncomputable section

open Idealize.ShloMosaic Idealize.ShloMosaic.TcCoe Idealize.SL.Sem

namespace Cert.KernelIdeal.Run

open Cert.KernelIdeal Cert.KernelIdeal.Gen Cert.KernelIdeal.Final Cert.KernelIdeal.Value
open Cert.RowLoss Idealize.ShloMosaic.ValueIdx

variable (m : (ℓ : Loc nD τ sig) → Buf (Elt Ideal) ℓ) (ρ : Dev nD → PrngReg)

/-- The result buffer after the program's last host operations is the model's result of the arguments. -/
theorem result_eq (c : Dev nD) (hg : Good m c) :
    Pipeline.afterTail₀ cfgs (dats m) 0 (V0 m) [hostOps1] c main_v64 = fun _ => modelResult m c := by
  unfold Pipeline.afterTail₀
  simp only [List.flatten_cons, List.flatten_nil, List.append_nil]
  rw [Tail.tail_of]
  have hO : Pipeline.withArrays (cfgs 0).spec c (V0 m c) (fun w => (dats m 0 c).arrAt w (cfgs 0).N) (Proc.devRef .tc main_v31)
      = outArr m c :=
    (Pipeline.withArrays_arr spec0 launch0.win.arr_inj c _ _ 3).trans (final m c)
  have hL : Pipeline.withArrays (cfgs 0).spec c (V0 m c) (fun w => (dats m 0 c).arrAt w (cfgs 0).N) (Proc.devRef .tc main_arg2)
      = A2 m c :=
    (Pipeline.withArrays_of_ne _ c (V0 m c) _ main_arg2 (by exact (by decide : ∀ w, Pipeline.arrRef spec0 w ≠ main_arg2))).trans
      (V_main_arg2 m c)
  rw [hO, hL]
  funext _
  unfold modelResult Cert.Model.result
  congr 1
  funext b p
  exact row_loss_eq m c hg b p

/-- Every weakly fair execution of the kernel's program ends, with the result buffer at the model's result of the
    arguments and the arguments unchanged. -/
theorem run (hg : ∀ c, Good m c) :
    θ_run defs (onTc (τ := τ) (main (F := Ideal))) ⟨m, fun _ => 0, ρ⟩ (fun r => ∀ c : Dev nD,
      r.2.mem ((c.tc : Thread nD τ).loc main_v64) = (fun _ => modelResult m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v64 (Pipeline.mem_restRefs_of main_v64 (by decide) (by decide))).trans (result_eq m c (hg c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Run

end
-- ==== Proof.RefValue.lean ====
/-
  The reference's result is the model's function of the six arguments.

  Read one operation at a time, the reference transposes and slices the hidden state to (batch, position < 1023,
  feature), normalises each row, takes its logits against the embedding table, subtracts the row's log-sum-exp, picks
  the target column's log-probability and sums all of them, combines the two with the smoothing weights, and takes the
  masked mean. For a target word in the vocabulary's range the pick is an honest read: the index is not negative, so
  it is not shifted, and it passes the bounds test, so the gathered value is selected.
-/
import proofs.«428613_j5016521802043_1_alg».proof.Proof.Model
import proofs.«428613_j5016521802043_1_alg».proof.Proof.RefRead
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-! ## Indices -/

/-- Two indices of one rank are equal when their coordinates are, each by computation. -/
local macro "idx_rfl1" : tactic => `(tactic| (funext a; refine Fin.ext ?_; match a with | ⟨0, _⟩ => rfl))
local macro "idx_rfl2" : tactic => `(tactic| (funext a; refine Fin.ext ?_; match a with | ⟨0, _⟩ => rfl | ⟨1, _⟩ => rfl))
local macro "idx_rfl3" : tactic =>
  `(tactic| (funext a; refine Fin.ext ?_; match a with | ⟨0, _⟩ => rfl | ⟨1, _⟩ => rfl | ⟨2, _⟩ => rfl))
local macro "idx_rfl4" : tactic =>
  `(tactic| (funext a; refine Fin.ext ?_; match a with | ⟨0, _⟩ => rfl | ⟨1, _⟩ => rfl | ⟨2, _⟩ => rfl | ⟨3, _⟩ => rfl))

/-- A position before the last, as a position of the whole sequence. -/
abbrev pos (p : Fin 1023) : Fin 1024 := ⟨p.val, Nat.lt_of_lt_of_le p.isLt (by decide)⟩
/-- The position after it. -/
abbrev nxt (p : Fin 1023) : Fin 1024 := ⟨p.val + 1, Nat.succ_lt_succ p.isLt⟩

/-! ## The three operations read by hand: the gather, the row maximum, the bounds test's conjunction -/

/-- The gather along the vocabulary axis reads, at batch b and position p, the operand's row (b, p) at the start index
    read signed and clamped into the row. -/
theorem gather_at {α : Type} (x : S4x1023x32000.Idx → α) (idx : IVec S4x1023x1x1 32) (b : Fin 4) (p : Fin 1023) :
    Host.gather gather_S4x1023x32000_S4x1023x1x1_S4x1023x1_n_2_01_01_2_3_111 x idx (ix3 b p (0 : Fin 1))
      = x (ix3 b p ⟨min (idx (ix4 b p (0 : Fin 1) (0 : Fin 1))).toInt.toNat 31999, by omega⟩) := by
  have h0 : gather_S4x1023x32000_S4x1023x1x1_S4x1023x1_n_2_01_01_2_3_111.start (ix3 b p (0 : Fin 1)) idx (⟨0, by decide⟩ : Fin S4x1023x32000.rank)
      + gather_S4x1023x32000_S4x1023x1x1_S4x1023x1_n_2_01_01_2_3_111.batchCoord (ix3 b p (0 : Fin 1)) (⟨0, by decide⟩ : Fin S4x1023x32000.rank)
      + gather_S4x1023x32000_S4x1023x1x1_S4x1023x1_n_2_01_01_2_3_111.offCoord (ix3 b p (0 : Fin 1)) (⟨0, by decide⟩ : Fin S4x1023x32000.rank) = b.val := by
    rw [gather_S4x1023x32000_S4x1023x1x1_S4x1023x1_n_2_01_01_2_3_111.start_batching _ _ _ (by decide), gather_S4x1023x32000_S4x1023x1x1_S4x1023x1_n_2_01_01_2_3_111.offCoord_eq_zero _ _ (fun h => ((gather_S4x1023x32000_S4x1023x1x1_S4x1023x1_n_2_01_01_2_3_111.mem_sKept _).mp h).2 (by decide))]
    simp only [Nat.zero_add, Nat.add_zero]
    unfold GatherDims.batchCoord
    rw [dif_pos (by decide)]
    rfl
  have h1 : gather_S4x1023x32000_S4x1023x1x1_S4x1023x1_n_2_01_01_2_3_111.start (ix3 b p (0 : Fin 1)) idx (⟨1, by decide⟩ : Fin S4x1023x32000.rank)
      + gather_S4x1023x32000_S4x1023x1x1_S4x1023x1_n_2_01_01_2_3_111.batchCoord (ix3 b p (0 : Fin 1)) (⟨1, by decide⟩ : Fin S4x1023x32000.rank)
      + gather_S4x1023x32000_S4x1023x1x1_S4x1023x1_n_2_01_01_2_3_111.offCoord (ix3 b p (0 : Fin 1)) (⟨1, by decide⟩ : Fin S4x1023x32000.rank) = p.val := by
    rw [gather_S4x1023x32000_S4x1023x1x1_S4x1023x1_n_2_01_01_2_3_111.start_batching _ _ _ (by decide), gather_S4x1023x32000_S4x1023x1x1_S4x1023x1_n_2_01_01_2_3_111.offCoord_eq_zero _ _ (fun h => ((gather_S4x1023x32000_S4x1023x1x1_S4x1023x1_n_2_01_01_2_3_111.mem_sKept _).mp h).2 (by decide))]
    simp only [Nat.zero_add, Nat.add_zero]
    unfold GatherDims.batchCoord
    rw [dif_pos (by decide)]
    rfl
  have h2 : gather_S4x1023x32000_S4x1023x1x1_S4x1023x1_n_2_01_01_2_3_111.start (ix3 b p (0 : Fin 1)) idx (⟨2, by decide⟩ : Fin S4x1023x32000.rank)
      + gather_S4x1023x32000_S4x1023x1x1_S4x1023x1_n_2_01_01_2_3_111.batchCoord (ix3 b p (0 : Fin 1)) (⟨2, by decide⟩ : Fin S4x1023x32000.rank)
      + gather_S4x1023x32000_S4x1023x1x1_S4x1023x1_n_2_01_01_2_3_111.offCoord (ix3 b p (0 : Fin 1)) (⟨2, by decide⟩ : Fin S4x1023x32000.rank)
        = min (idx (ix4 b p (0 : Fin 1) (0 : Fin 1))).toInt.toNat 31999 := by
    rw [gather_S4x1023x32000_S4x1023x1x1_S4x1023x1_n_2_01_01_2_3_111.batchCoord_eq_zero _ _ (by decide), gather_S4x1023x32000_S4x1023x1x1_S4x1023x1_n_2_01_01_2_3_111.offCoord_eq_zero _ _ (fun h => ((gather_S4x1023x32000_S4x1023x1x1_S4x1023x1_n_2_01_01_2_3_111.mem_sKept _).mp h).1 (by decide))]
    simp only [Nat.add_zero]
    unfold GatherDims.start
    rw [dif_pos (by decide)]
    have hsi : gather_S4x1023x32000_S4x1023x1x1_S4x1023x1_n_2_01_01_2_3_111.siIdx (ix3 b p (0 : Fin 1)) ⟨List.idxOf (⟨2, by decide⟩ : Fin S4x1023x32000.rank) gather_S4x1023x32000_S4x1023x1x1_S4x1023x1_n_2_01_01_2_3_111.startIndexMap,
        List.idxOf_lt_length_iff.2 (by decide)⟩ = ix4 b p (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl
  unfold Host.gather
  congr 1
  funext a
  refine Fin.ext ?_
  match a with
  | ⟨0, _⟩ => exact h0
  | ⟨1, _⟩ => exact h1
  | ⟨2, _⟩ => exact h2

/-- The maximum over the vocabulary axis at (b, p): the fold of `max` from the initial value over the row's entries. -/
theorem rowmax_at (y : FVec Ideal S4x1023x32000 .f32) (init : FVec Ideal S_ .f32) (b : Fin 4) (p : Fin 1023) :
    Host.reduce (FloatOps.maximumf (F := Ideal) (φ := .f32)) y init reducesTo_S4x1023x32000_S4x1023_d2 h_S_ (ix2 b p)
      = (Finset.univ : Finset (Fin 32000)).fold max (init ix0) (fun v => y (ix3 b p v)) := by
  have h : S4x1023x32000.Reduces [2] S4x1023 := by decide
  rw [Host.reduce_eq_fold_single _ y init reducesTo_S4x1023x32000_S4x1023_d2 h h_S_ (ix2 b p)]
  have e1 : Shape.Idx.first h_S_ = ix0 := eq_ix0 _
  have e2 : (y ∘ h.lift (ix2 b p)) = fun v : Fin 32000 => y (ix3 b p v) :=
    funext fun k => congrArg y (funext fun a => Fin.ext (by
      match a with
      | ⟨0, _⟩ => rfl
      | ⟨1, _⟩ => rfl
      | ⟨2, _⟩ => rfl))
  rw [e1, e2]
  rfl

/-- The conjunction over the size-one last axis at (b, p, 0): the initial value and the one entry. -/
theorem andred_at (y : IVec S4x1023x1x1 1) (init : IVec S_ 1) (b : Fin 4) (p : Fin 1023)
    (hy : y (ix4 b p (0 : Fin 1) (0 : Fin 1)) = 1#1) (hi : init ix0 = 1#1) :
    Host.reduce IntOp.andi y init reducesTo_S4x1023x1x1_S4x1023x1_d3 h_S_ (ix3 b p (0 : Fin 1)) = 1#1 := by
  have h : S4x1023x1x1.Reduces [3] S4x1023x1 := by decide
  rw [Host.reduce_eq_fold_single _ y init reducesTo_S4x1023x1x1_S4x1023x1_d3 h h_S_ (ix3 b p (0 : Fin 1))]
  have e1 : Shape.Idx.first h_S_ = ix0 := eq_ix0 _
  have e2 : (y ∘ h.lift (ix3 b p (0 : Fin 1))) = fun v : Fin 1 => y (ix4 b p (0 : Fin 1) v) :=
    funext fun k => congrArg y (funext fun a => Fin.ext (by
      match a with
      | ⟨0, _⟩ => rfl
      | ⟨1, _⟩ => rfl
      | ⟨2, _⟩ => rfl
      | ⟨3, _⟩ => rfl))
  rw [e1, e2, hi]
  show (Finset.univ : Finset (Fin 1)).fold IntOp.andi 1#1 (fun v : Fin 1 => y (ix4 b p (0 : Fin 1) v)) = 1#1
  rw [show (Finset.univ : Finset (Fin 1)) = {0} from rfl, Finset.fold_singleton, hy]
  rfl

/-- The pattern of negative infinity is the bottom of the extended reals. -/
theorem ofBits_neg_inf : Ideal.ofBits .f32 0xFF800000#32 = ⊥ := by
  simp [Ideal.ofBits, Ideal.ieee]

/-! ## Words: a vocabulary column's word passes the take's tests, and the mask's bit -/

theorem tok_toNat (k : Fin 32000) : (BitVec.ofNat 32 k.val).toNat = k.val := by
  rw [BitVec.toNat_ofNat]; exact Nat.mod_eq_of_lt (by have := k.isLt; omega)

/-- A vocabulary column's word is not negative as a signed word … -/
theorem tok_not_neg (k : Fin 32000) : IntOp.cmpi .slt (BitVec.ofNat 32 k.val) 0#32 = 0#1 := by
  refine eq_zero_of_ne_one fun h => ?_
  have := (StableHlo.Predicate.slt_iff_toNat (a := BitVec.ofNat 32 k.val) (b := 0#32) (by rw [tok_toNat]; have := k.isLt; omega) (by decide)).1 h
  simp at this

/-- … it is at least zero … -/
theorem tok_ge_zero (k : Fin 32000) : IntOp.cmpi .sge (BitVec.ofNat 32 k.val) 0#32 = 1#1 :=
  (StableHlo.Predicate.sge_iff_toNat (a := BitVec.ofNat 32 k.val) (b := 0#32) (by rw [tok_toNat]; have := k.isLt; omega) (by decide)).2 (by simp)

/-- … and at most the last column. -/
theorem tok_le_last (k : Fin 32000) : IntOp.cmpi .sle (BitVec.ofNat 32 k.val) 31999#32 = 1#1 :=
  (StableHlo.Predicate.sle_iff_toNat (a := BitVec.ofNat 32 k.val) (b := 31999#32) (by rw [tok_toNat]; have := k.isLt; omega) (by decide)).2
    (by rw [tok_toNat]; have := k.isLt; show k.val ≤ 31999; omega)

/-- Read signed and clamped into the row it is the column itself. -/
theorem tok_clamp (k : Fin 32000) : min (BitVec.ofNat 32 k.val).toInt.toNat 31999 = k.val := by
  have hk := k.isLt
  have h : (BitVec.ofNat 32 k.val).toInt = (k.val : Int) := by
    rw [BitVec.toInt_eq_toNat_cond, tok_toNat]
    rw [if_pos (by omega)]
  rw [h]
  simp only [Int.toNat_natCast]
  omega

/-- The comparison's bit converted to a float is the indicator of the comparison. -/
theorem mask_bit (x y : BitVec 32) :
    FloatOps.uitofp (F := Ideal) .f32 (IntOp.cmpi .slt x (IntOp.subi y 1#32))
      = (if x.slt (y - 1#32) then 1 else 0 : EReal) := by
  show (((IntOp.cmpi .slt x (IntOp.subi y 1#32)).toNat : ℝ) : EReal) = _
  unfold IntOp.cmpi IntOp.subi
  cases h : x.slt (y - 1#32) <;> simp

/-! ## The normalised row -/

section Row
variable (x0 : FVec Ideal S1024x4x1024 .f32) (x4 x5 : FVec Ideal S1024 .f32)

/-- The transposed and sliced hidden state at (b, p, d) is the hidden state at (p, b, d). -/
theorem v1_at (b : Fin 4) (p : Fin 1023) (d : Fin 1024) :
    val_main_v1 (F := Ideal) x0 (ix3 b p d) = x0 (ix3 (pos p) b d) := by
  rw [val_main_v1_apply, val_main_v0_apply]
  exact congrArg x0 (by idx_rfl3)

/-- The mean of row (b, p). -/
def mu (b : Fin 4) (p : Fin 1023) : EReal :=
  Ideal.div (∑ d : Fin 1024, x0 (ix3 (pos p) b d)) (Ideal.ofBits .f32 0x44800000#32)

/-- The reciprocal square root of the row's variance plus the small constant. -/
def rs (b : Fin 4) (p : Fin 1023) : EReal :=
  Ideal.rsqrt (Ideal.div (∑ d : Fin 1024, (x0 (ix3 (pos p) b d) - mu x0 b p) * (x0 (ix3 (pos p) b d) - mu x0 b p))
    (Ideal.ofBits .f32 0x44800000#32) + Ideal.ofBits .f32 0x3727C5AC#32)

theorem v6_at (b : Fin 4) (p : Fin 1023) : val_main_v6 (F := Ideal) x0 (ix3 b p (0 : Fin 1)) = mu x0 b p := by
  rw [val_main_v6_apply, val_main_v4_apply, val_main_v5_apply, val_main_cst_0_apply, val_main_v3_apply,
    val_main_cst_apply]
  simp only [Ideal.hostDivf_def, Ideal.ofBits_def, Ideal.ofBits_zero_f32, zero_add]
  unfold mu
  refine congrArg (Ideal.div · _) (Finset.sum_congr rfl fun d _ => ?_)
  rw [show idx_main_v3 (idx_main_v4 (ix3 b p (0 : Fin 1))) d = ix3 b p d by idx_rfl3]
  exact v1_at x0 b p d

theorem v8_at (b : Fin 4) (p : Fin 1023) (d : Fin 1024) :
    val_main_v8 (F := Ideal) x0 (ix3 b p d) = x0 (ix3 (pos p) b d) - mu x0 b p := by
  rw [val_main_v8_apply, val_main_v7_apply, v1_at,
    show idx_main_v7 (ix3 b p d) = ix3 b p (0 : Fin 1) by idx_rfl3, v6_at]
  rfl

theorem v15_at (b : Fin 4) (p : Fin 1023) (d : Fin 1024) :
    val_main_v15 (F := Ideal) x0 (ix3 b p d) = x0 (ix3 (pos p) b d) - mu x0 b p := by
  rw [val_main_v15_apply, val_main_v14_apply, v1_at,
    show idx_main_v14 (ix3 b p d) = ix3 b p (0 : Fin 1) by idx_rfl3, v6_at]
  rfl

theorem v18_at (b : Fin 4) (p : Fin 1023) : val_main_v18 (F := Ideal) x0 (ix3 b p (0 : Fin 1)) = rs x0 b p := by
  rw [val_main_v18_apply, val_main_v17_apply, val_main_v13_apply, val_main_v11_apply, val_main_v12_apply,
    val_main_cst_2_apply, val_main_v16_apply, val_main_cst_3_apply, val_main_v10_apply, val_main_cst_1_apply]
  simp only [Ideal.hostUnary_rsqrt_def, Ideal.addf_def, Ideal.hostDivf_def, Ideal.ofBits_def, Ideal.ofBits_zero_f32,
    zero_add]
  unfold rs
  refine congrArg (fun s => Ideal.rsqrt (Ideal.div s _ + _)) (Finset.sum_congr rfl fun d _ => ?_)
  rw [show idx_main_v10 (idx_main_v11 (ix3 b p (0 : Fin 1))) d = ix3 b p d by idx_rfl3, val_main_v9_apply, v8_at]
  rfl

/-- The normalised hidden state at (b, p, d) is the model's normalisation of row (p, b) at d. -/
theorem v26_at (b : Fin 4) (p : Fin 1023) (d : Fin 1024) :
    val_main_v26 (F := Ideal) x0 x4 x5 (ix3 b p d)
      = Cert.Model.lnRow (fun d => x0 (ix3 (pos p) b d)) (fun d => x4 (ix1 d)) (fun d => x5 (ix1 d)) d := by
  rw [val_main_v26_apply, val_main_v23_apply, val_main_v20_apply, v15_at, val_main_v19_apply,
    show idx_main_v19 (ix3 b p d) = ix3 b p (0 : Fin 1) by idx_rfl3, v18_at,
    val_main_v22_apply, val_main_v21_apply, val_main_v25_apply, val_main_v24_apply,
    show idx_main_v21 (idx_main_v22 (ix3 b p d)) = ix1 d by idx_rfl1,
    show idx_main_v24 (idx_main_v25 (ix3 b p d)) = ix1 d by idx_rfl1]
  simp only [Ideal.addf_def, Ideal.mulf_def]
  unfold Cert.Model.lnRow mu rs
  rfl

end Row

/-! ## The logits and their log-softmax -/

section Logits
variable (x0 : FVec Ideal S1024x4x1024 .f32) (x3 : FVec Ideal S32000x1024 .f32) (x4 x5 : FVec Ideal S1024 .f32)

/-- The model's logits of row (b, p), the argument arrays read through plain indices. -/
def lgt (b : Fin 4) (p : Fin 1023) : Fin 32000 → EReal := fun v =>
  Cert.Model.logits (fun s b d => x0 (ix3 s b d)) (fun v d => x3 (ix2 v d)) (fun d => x4 (ix1 d)) (fun d => x5 (ix1 d))
    b (pos p) v

/-- The contraction of the normalised row with the embedding table's row v is the model's logit. -/
theorem v27_at (b : Fin 4) (p : Fin 1023) (v : Fin 32000) :
    val_main_v27 (F := Ideal) x0 x3 x4 x5 (ix3 b p v) = lgt x0 x3 x4 x5 b p v := by
  rw [val_main_v27_apply]
  unfold lgt Cert.Model.logits Cert.Model.logit
  refine Finset.sum_congr rfl fun k _ => ?_
  rw [show lidx_main_v27 (ix3 b p v) k = ix3 b p k by idx_rfl3,
    show ridx_main_v27 (ix3 b p v) k = ix2 v k by idx_rfl2, v26_at]

/-- The row's maximum as the program takes it: from the bottom, then once more against the bottom. -/
def rowM (b : Fin 4) (p : Fin 1023) : EReal :=
  max ⊥ ((Finset.univ : Finset (Fin 32000)).fold max ⊥ (lgt x0 x3 x4 x5 b p))

/-- The logarithm of the row's sum of exponentials relative to that maximum, the sum from the program's zero. -/
def rowLse (b : Fin 4) (p : Fin 1023) : EReal :=
  Ideal.log (0 + ∑ v : Fin 32000, Ideal.exp (lgt x0 x3 x4 x5 b p v - rowM x0 x3 x4 x5 b p))

theorem call0_v2_at (b : Fin 4) (p : Fin 1023) :
    val_main_call0_v2 (F := Ideal) x0 x3 x4 x5 (ix2 b p) = rowM x0 x3 x4 x5 b p := by
  rw [val_main_call0_v2_apply, val_main_call0_v1_apply, val_main_call0_cst_0_apply]
  unfold val_main_call0_v0
  rw [rowmax_at, val_main_call0_cst_apply,
    show (fun v => val_main_v27 (F := Ideal) x0 x3 x4 x5 (ix3 b p v)) = lgt x0 x3 x4 x5 b p from
      funext fun v => v27_at x0 x3 x4 x5 b p v]
  simp only [Ideal.maximumf_def, Ideal.ofBits_def, ofBits_neg_inf]
  rfl

theorem call0_v5_at (b : Fin 4) (p : Fin 1023) (v : Fin 32000) :
    val_main_call0_v5 (F := Ideal) x0 x3 x4 x5 (ix3 b p v) = lgt x0 x3 x4 x5 b p v - rowM x0 x3 x4 x5 b p := by
  rw [val_main_call0_v5_apply, v27_at, val_main_call0_v4_apply, val_main_call0_v3_apply,
    show idx_main_call0_v3 (idx_main_call0_v4 (ix3 b p v)) = ix2 b p by idx_rfl2, call0_v2_at]
  rfl

theorem call0_v9_at (b : Fin 4) (p : Fin 1023) :
    val_main_call0_v9 (F := Ideal) x0 x3 x4 x5 (ix3 b p (0 : Fin 1)) = rowLse x0 x3 x4 x5 b p := by
  rw [val_main_call0_v9_apply, val_main_call0_v8_apply, val_main_call0_v7_apply, val_main_call0_cst_1_apply]
  simp only [Ideal.hostUnary_log_def, Ideal.ofBits_def, Ideal.ofBits_zero_f32]
  unfold rowLse
  refine congrArg (fun s => Ideal.log (0 + s)) (Finset.sum_congr rfl fun v _ => ?_)
  rw [show idx_main_call0_v7 (idx_main_call0_v8 (ix3 b p (0 : Fin 1))) v = ix3 b p v by idx_rfl3,
    val_main_call0_v6_apply, call0_v5_at]
  rfl

/-- The log-softmax at (b, p, v): the logit less the row's maximum, less the row's log-sum-exp. -/
theorem v28_at (b : Fin 4) (p : Fin 1023) (v : Fin 32000) :
    val_main_v28 (F := Ideal) x0 x3 x4 x5 (ix3 b p v)
      = (lgt x0 x3 x4 x5 b p v - rowM x0 x3 x4 x5 b p) - rowLse x0 x3 x4 x5 b p := by
  rw [val_main_v28_apply, call0_v5_at, val_main_call0_v10_apply,
    show idx_main_call0_v10 (ix3 b p v) = ix3 b p (0 : Fin 1) by idx_rfl3, call0_v9_at]
  rfl

end Logits

/-! ## The pick of the target column, the row's loss, the mask -/

section Pick
variable (x0 : FVec Ideal S1024x4x1024 .f32) (x1 : IVec S4x1024 32) (x2 : IVec S4 32)
  (x3 : FVec Ideal S32000x1024 .f32) (x4 x5 : FVec Ideal S1024 .f32)

/-- The target of position p is the token at position p + 1. -/
theorem v29_at (b : Fin 4) (p : Fin 1023) : val_main_v29 (F := Ideal) x1 (ix3 b p (0 : Fin 1)) = x1 (ix2 b (nxt p)) := by
  rw [val_main_v29_apply, val_main_v2_apply]
  exact congrArg x1 (funext fun a => Fin.ext (by
    match a with
    | ⟨0, _⟩ => rfl
    | ⟨1, _⟩ => exact Nat.add_comm 1 p.val))

/-- A target word that is a vocabulary column is not shifted: the index the gather and the bounds test see is the word. -/
theorem call1_v5_at (b : Fin 4) (p : Fin 1023) (k : Fin 32000) (hk : x1 (ix2 b (nxt p)) = BitVec.ofNat 32 k.val) :
    val_main_call1_v5 (F := Ideal) x1 (ix4 b p (0 : Fin 1) (0 : Fin 1)) = BitVec.ofNat 32 k.val := by
  have e : idx_main_call1_v5 (ix4 b p (0 : Fin 1) (0 : Fin 1)) = ix3 b p (0 : Fin 1) := funext fun a => Fin.ext (by
    have hp := p.isLt
    match a with
    | ⟨0, _⟩ => show (((b.val * 1023 + p.val) * 1 + 0) * 1 + 0) / 1023 = b.val; omega
    | ⟨1, _⟩ => show (((b.val * 1023 + p.val) * 1 + 0) * 1 + 0) / 1 % 1023 = p.val; omega
    | ⟨2, _⟩ => rfl)
  rw [val_main_call1_v5_apply, e, val_main_call1_v4_apply, val_main_call1_v1_apply, v29_at, hk,
    val_main_call1_v0_apply, val_main_call1_c_apply, tok_not_neg, select_zero]

/-- … so it passes the bounds test … -/
theorem call1_v12_at (b : Fin 4) (p : Fin 1023) (k : Fin 32000) (hk : x1 (ix2 b (nxt p)) = BitVec.ofNat 32 k.val) :
    val_main_call1_v12 (F := Ideal) x1 (ix3 b p (0 : Fin 1)) = 1#1 := by
  unfold val_main_call1_v12
  refine andred_at _ _ b p ?_ rfl
  rw [val_main_call1_v11_apply, val_main_call1_v7_apply, val_main_call1_v10_apply, call1_v5_at x1 b p k hk,
    val_main_call1_v6_apply, val_main_call1_c_2_apply, val_main_call1_v9_apply, val_main_call1_v8_apply,
    val_main_call1_c_1_apply, tok_ge_zero, tok_le_last]
  rfl

/-- … and the value taken is the log-softmax at the target column. -/
theorem v30_at (b : Fin 4) (p : Fin 1023) (k : Fin 32000) (hk : x1 (ix2 b (nxt p)) = BitVec.ofNat 32 k.val) :
    val_main_v30 (F := Ideal) x0 x1 x3 x4 x5 (ix3 b p (0 : Fin 1))
      = (lgt x0 x3 x4 x5 b p k - rowM x0 x3 x4 x5 b p) - rowLse x0 x3 x4 x5 b p := by
  rw [val_main_v30_apply, call1_v12_at x1 b p k hk, select_one]
  unfold val_main_call1_v13
  rw [gather_at]
  refine Eq.trans (congrArg _ ?_) (v28_at x0 x3 x4 x5 b p k)
  refine congrArg (ix3 b p) (Fin.ext ?_)
  show min (val_main_call1_v5 (F := Ideal) x1 (ix4 b p (0 : Fin 1) (0 : Fin 1))).toInt.toNat 31999 = k.val
  rw [call1_v5_at x1 b p k hk]
  exact tok_clamp k

/-- The row's loss is the reference's assembly of the model's logits and the target column. -/
theorem v39_at (b : Fin 4) (p : Fin 1023) (k : Fin 32000) (hk : x1 (ix2 b (nxt p)) = BitVec.ofNat 32 k.val) :
    val_main_v39 (F := Ideal) x0 x1 x3 x4 x5 (ix2 b p)
      = Cert.RowLoss.refLoss Cert.Model.c₁ Cert.Model.c₂ (lgt x0 x3 x4 x5 b p) k := by
  have e : idx_main_v31 (ix2 b p) = ix3 b p (0 : Fin 1) := funext fun a => Fin.ext (by
    have hp := p.isLt
    match a with
    | ⟨0, _⟩ => show (b.val * 1023 + p.val) / 1023 = b.val; omega
    | ⟨1, _⟩ => show (b.val * 1023 + p.val) / 1 % 1023 = p.val; omega
    | ⟨2, _⟩ => rfl)
  have hs : ∑ v : Fin 32000, val_main_v28 (F := Ideal) x0 x3 x4 x5 (idx_main_v33 (ix2 b p) v)
      = ∑ v : Fin 32000, ((lgt x0 x3 x4 x5 b p v - rowM x0 x3 x4 x5 b p) - rowLse x0 x3 x4 x5 b p) :=
    Finset.sum_congr rfl fun v _ => by
      rw [show idx_main_v33 (ix2 b p) v = ix3 b p v by idx_rfl3]
      exact v28_at x0 x3 x4 x5 b p v
  rw [val_main_v39_apply, val_main_v36_apply, val_main_v38_apply, val_main_v35_apply, val_main_cst_5_apply,
    val_main_v37_apply, val_main_cst_6_apply, val_main_v32_apply, val_main_v31_apply, e, v30_at x0 x1 x3 x4 x5 b p k hk,
    val_main_v34_apply, val_main_v33_apply, val_main_cst_4_apply, hs]
  simp only [Ideal.addf_def, Ideal.mulf_def, Ideal.hostNegf_def, Ideal.negf_def, Ideal.ofBits_def, Ideal.ofBits_zero_f32]
  unfold Cert.RowLoss.refLoss Cert.Model.c₁ Cert.Model.c₂ rowLse rowM
  rfl

/-- The mask at (b, p) is the model's: position p counts iff it is before the sequence's last token. -/
theorem v48_at (b : Fin 4) (p : Fin 1023) :
    val_main_v48 (F := Ideal) x2 (ix2 b p) = Cert.Model.maskAt (x2 (ix1 b)) p.val := by
  rw [val_main_v48_apply, val_main_v47_apply, val_main_v45_apply, val_main_v41_apply, val_main_v40_apply,
    val_main_v46_apply, val_main_v44_apply, val_main_v42_apply, val_main_v43_apply, val_main_c_apply,
    show idx_main_v42 (idx_main_v46 (ix2 b p)) = ix1 b by idx_rfl1]
  exact mask_bit _ _

end Pick

/-- The reference's last stage, at `Ideal`, is the model's result of the argument arrays read through plain indices,
    when every token word is a column of the vocabulary. -/
theorem result_eq (x0 : FVec Ideal S1024x4x1024 .f32) (x1 : IVec S4x1024 32) (x2 : IVec S4 32)
    (x3 : FVec Ideal S32000x1024 .f32) (x4 x5 : FVec Ideal S1024 .f32)
    (htok : ∀ (b : Fin 4) (p : Fin 1024), ∃ k : Fin 32000, x1 (ix2 b p) = BitVec.ofNat 32 k.val) :
    val_main_v52 (F := Ideal) x0 x1 x2 x3 x4 x5
      = fun _ => Cert.Model.result (fun s b d => x0 (ix3 s b d)) (fun b p => x1 (ix2 b p)) (fun b => x2 (ix1 b))
          (fun v d => x3 (ix2 v d)) (fun d => x4 (ix1 d)) (fun d => x5 (ix1 d)) := by
  funext i
  rw [val_main_v52_apply, val_main_v51_apply, val_main_v49_apply, val_main_cst_8_apply, val_main_cst_7_apply]
  simp only [Ideal.hostDivf_def, Ideal.ofBits_def, Ideal.ofBits_zero_f32, zero_add]
  rw [sum_idx2, sum_idx2]
  unfold Cert.Model.result Cert.Model.meanLoss
  refine congrArg₂ Ideal.div
    (Finset.sum_congr rfl fun b _ => Finset.sum_congr rfl fun p _ => ?_)
    (Finset.sum_congr rfl fun b _ => Finset.sum_congr rfl fun p _ => ?_)
  · obtain ⟨k, hk⟩ := htok b (nxt p)
    have ht : Cert.Model.tokFin (x1 (ix2 b (nxt p))) = k := by
      rw [hk]
      exact Fin.ext (by
        show (BitVec.ofNat 32 k.val).toNat % 32000 = k.val
        rw [tok_toNat]; exact Nat.mod_eq_of_lt k.isLt)
    rw [val_main_v50_apply, v39_at x0 x1 x3 x4 x5 b p k hk, v48_at, ← ht]
    rfl
  · exact v48_at x2 b p

end Cert.ReferenceIdeal.RefValue

end
-- ==== Proof.RefRunHand.lean ====
/-
  The reference program's run: it ends, nothing faults, its result buffer holds the last stage of its operations read
  as a function of the six arguments, and the arguments are unchanged.

  The program is a straight line of 99 host operations. Run from the launch memory, each operation writes one buffer
  from buffers written before it, so the memory after the whole line is the fold of the operations over the launch
  memory; the fold is read a stretch of operations at a time, each stretch's results named by the stage functions.
-/
import proofs.«428613_j5016521802043_1_alg».proof.Proof.RefRun
import proofs.«428613_j5016521802043_1_alg».proof.Proof.RefRead
import Idealize.ShloMosaic.Lib.StableHlo.Run

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The line cut into four stretches -/

/-- The first 33 operations: the hidden state transposed, sliced and normalised, and its logits. -/
def partA : List (HloOp τ sig (Elt F)) :=
  [ unary main_arg0 main_v0 ((transpose S4x1024x1024 [1, 0, 2] · transposes_S1024x4x1024_S4x1024x1024_1_0_2) : (⟨S1024x4x1024, .f32⟩ : BufTy).Contents (Elt F) → (⟨S4x1024x1024, .f32⟩ : BufTy).Contents (Elt F)),
    unary main_v0 main_v1 ((extractStridedSlice S4x1023x1024 ![0, 0, 0] · slices_S4x1024x1024_S4x1023x1024_0_0_0) : (⟨S4x1024x1024, .f32⟩ : BufTy).Contents (Elt F) → (⟨S4x1023x1024, .f32⟩ : BufTy).Contents (Elt F)),
    unary main_arg1 main_v2 ((extractStridedSlice S4x1023 ![0, 1] · slices_S4x1024_S4x1023_0_1) : (⟨S4x1024, .i32⟩ : BufTy).Contents (Elt F) → (⟨S4x1023, .i32⟩ : BufTy).Contents (Elt F)),
    nullary main_cst (constant S_ .f32 0x00000000#32),
    binary main_v1 main_cst main_v3 ((fun x v => Host.reduceAdd x v reducesTo_S4x1023x1024_S4x1023_d2 h_S_) : (⟨S4x1023x1024, .f32⟩ : BufTy).Contents (Elt F) → (⟨S_, .f32⟩ : BufTy).Contents (Elt F) → (⟨S4x1023, .f32⟩ : BufTy).Contents (Elt F)),
    unary main_v3 main_v4 (broadcastInDim S4x1023x1 ![0, 1] bcast_S4x1023_S4x1023x1_0_1 : (⟨S4x1023, .f32⟩ : BufTy).Contents (Elt F) → (⟨S4x1023x1, .f32⟩ : BufTy).Contents (Elt F)),
    nullary main_cst_0 (constant S_ .f32 0x44800000#32),
    unary main_cst_0 main_v5 (broadcastInDim S4x1023x1 ![] bcast_S_S4x1023x1 : (⟨S_, .f32⟩ : BufTy).Contents (Elt F) → (⟨S4x1023x1, .f32⟩ : BufTy).Contents (Elt F)),
    binary main_v4 main_v5 main_v6 (Host.divf : (⟨S4x1023x1, .f32⟩ : BufTy).Contents (Elt F) → (⟨S4x1023x1, .f32⟩ : BufTy).Contents (Elt F) → (⟨S4x1023x1, .f32⟩ : BufTy).Contents (Elt F)),
    unary main_v6 main_v7 (broadcastInDim S4x1023x1024 ![0, 1, 2] bcast_S4x1023x1_S4x1023x1024_0_1_2 : (⟨S4x1023x1, .f32⟩ : BufTy).Contents (Elt F) → (⟨S4x1023x1024, .f32⟩ : BufTy).Contents (Elt F)),
    binary main_v1 main_v7 main_v8 (subf : (⟨S4x1023x1024, .f32⟩ : BufTy).Contents (Elt F) → (⟨S4x1023x1024, .f32⟩ : BufTy).Contents (Elt F) → (⟨S4x1023x1024, .f32⟩ : BufTy).Contents (Elt F)),
    binary main_v8 main_v8 main_v9 (mulf : (⟨S4x1023x1024, .f32⟩ : BufTy).Contents (Elt F) → (⟨S4x1023x1024, .f32⟩ : BufTy).Contents (Elt F) → (⟨S4x1023x1024, .f32⟩ : BufTy).Contents (Elt F)),
    nullary main_cst_1 (constant S_ .f32 0x00000000#32),
    binary main_v9 main_cst_1 main_v10 ((fun x v => Host.reduceAdd x v reducesTo_S4x1023x1024_S4x1023_d2 h_S_) : (⟨S4x1023x1024, .f32⟩ : BufTy).Contents (Elt F) → (⟨S_, .f32⟩ : BufTy).Contents (Elt F) → (⟨S4x1023, .f32⟩ : BufTy).Contents (Elt F)),
    unary main_v10 main_v11 (broadcastInDim S4x1023x1 ![0, 1] bcast_S4x1023_S4x1023x1_0_1 : (⟨S4x1023, .f32⟩ : BufTy).Contents (Elt F) → (⟨S4x1023x1, .f32⟩ : BufTy).Contents (Elt F)),
    nullary main_cst_2 (constant S_ .f32 0x44800000#32),
    unary main_cst_2 main_v12 (broadcastInDim S4x1023x1 ![] bcast_S_S4x1023x1 : (⟨S_, .f32⟩ : BufTy).Contents (Elt F) → (⟨S4x1023x1, .f32⟩ : BufTy).Contents (Elt F)),
    binary main_v11 main_v12 main_v13 (Host.divf : (⟨S4x1023x1, .f32⟩ : BufTy).Contents (Elt F) → (⟨S4x1023x1, .f32⟩ : BufTy).Contents (Elt F) → (⟨S4x1023x1, .f32⟩ : BufTy).Contents (Elt F)),
    unary main_v6 main_v14 (broadcastInDim S4x1023x1024 ![0, 1, 2] bcast_S4x1023x1_S4x1023x1024_0_1_2 : (⟨S4x1023x1, .f32⟩ : BufTy).Contents (Elt F) → (⟨S4x1023x1024, .f32⟩ : BufTy).Contents (Elt F)),
    binary main_v1 main_v14 main_v15 (subf : (⟨S4x1023x1024, .f32⟩ : BufTy).Contents (Elt F) → (⟨S4x1023x1024, .f32⟩ : BufTy).Contents (Elt F) → (⟨S4x1023x1024, .f32⟩ : BufTy).Contents (Elt F)),
    nullary main_cst_3 (constant S_ .f32 0x3727C5AC#32),
    unary main_cst_3 main_v16 (broadcastInDim S4x1023x1 ![] bcast_S_S4x1023x1 : (⟨S_, .f32⟩ : BufTy).Contents (Elt F) → (⟨S4x1023x1, .f32⟩ : BufTy).Contents (Elt F)),
    binary main_v13 main_v16 main_v17 (addf : (⟨S4x1023x1, .f32⟩ : BufTy).Contents (Elt F) → (⟨S4x1023x1, .f32⟩ : BufTy).Contents (Elt F) → (⟨S4x1023x1, .f32⟩ : BufTy).Contents (Elt F)),
    unary main_v17 main_v18 (Host.rsqrt : (⟨S4x1023x1, .f32⟩ : BufTy).Contents (Elt F) → (⟨S4x1023x1, .f32⟩ : BufTy).Contents (Elt F)),
    unary main_v18 main_v19 (broadcastInDim S4x1023x1024 ![0, 1, 2] bcast_S4x1023x1_S4x1023x1024_0_1_2 : (⟨S4x1023x1, .f32⟩ : BufTy).Contents (Elt F) → (⟨S4x1023x1024, .f32⟩ : BufTy).Contents (Elt F)),
    binary main_v15 main_v19 main_v20 (mulf : (⟨S4x1023x1024, .f32⟩ : BufTy).Contents (Elt F) → (⟨S4x1023x1024, .f32⟩ : BufTy).Contents (Elt F) → (⟨S4x1023x1024, .f32⟩ : BufTy).Contents (Elt F)),
    unary main_arg4 main_v21 (broadcastInDim S1x1x1024 ![2] bcast_S1024_S1x1x1024_2 : (⟨S1024, .f32⟩ : BufTy).Contents (Elt F) → (⟨S1x1x1024, .f32⟩ : BufTy).Contents (Elt F)),
    unary main_v21 main_v22 (broadcastInDim S4x1023x1024 ![0, 1, 2] bcast_S1x1x1024_S4x1023x1024_0_1_2 : (⟨S1x1x1024, .f32⟩ : BufTy).Contents (Elt F) → (⟨S4x1023x1024, .f32⟩ : BufTy).Contents (Elt F)),
    binary main_v20 main_v22 main_v23 (mulf : (⟨S4x1023x1024, .f32⟩ : BufTy).Contents (Elt F) → (⟨S4x1023x1024, .f32⟩ : BufTy).Contents (Elt F) → (⟨S4x1023x1024, .f32⟩ : BufTy).Contents (Elt F)),
    unary main_arg5 main_v24 (broadcastInDim S1x1x1024 ![2] bcast_S1024_S1x1x1024_2 : (⟨S1024, .f32⟩ : BufTy).Contents (Elt F) → (⟨S1x1x1024, .f32⟩ : BufTy).Contents (Elt F)),
    unary main_v24 main_v25 (broadcastInDim S4x1023x1024 ![0, 1, 2] bcast_S1x1x1024_S4x1023x1024_0_1_2 : (⟨S1x1x1024, .f32⟩ : BufTy).Contents (Elt F) → (⟨S4x1023x1024, .f32⟩ : BufTy).Contents (Elt F)),
    binary main_v23 main_v25 main_v26 (addf : (⟨S4x1023x1024, .f32⟩ : BufTy).Contents (Elt F) → (⟨S4x1023x1024, .f32⟩ : BufTy).Contents (Elt F) → (⟨S4x1023x1024, .f32⟩ : BufTy).Contents (Elt F)),
    binary main_v26 main_arg3 main_v27 ((fun l r => Host.dotGeneral dot_S4x1023x1024_S32000x1024_S4x1023x32000_2_1_01_0_n_n none l r) : (⟨S4x1023x1024, .f32⟩ : BufTy).Contents (Elt F) → (⟨S32000x1024, .f32⟩ : BufTy).Contents (Elt F) → (⟨S4x1023x32000, .f32⟩ : BufTy).Contents (Elt F)) ]

/-- The 15 operations of the log-softmax of the logits. -/
def partB : List (HloOp τ sig (Elt F)) :=
  [ TRef.nullary (TRef.of (T := ⟨S_, .f32⟩) main_call0_cst) (constant S_ .f32 0xFF800000#32),
    TRef.binary (TRef.of (T := ⟨S4x1023x32000, .f32⟩) main_v27) (TRef.of (T := ⟨S_, .f32⟩) main_call0_cst) (TRef.of (T := ⟨S4x1023, .f32⟩) main_call0_v0) (fun x v => Host.reduce FloatOps.maximumf x v reducesTo_S4x1023x32000_S4x1023_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x1023, .f32⟩) main_call0_v1) (broadcastInDim S4x1023 ![] bcast_S_S4x1023),
    TRef.binary (TRef.of (T := ⟨S4x1023, .f32⟩) main_call0_v1) (TRef.of (T := ⟨S4x1023, .f32⟩) main_call0_v0) (TRef.of (T := ⟨S4x1023, .f32⟩) main_call0_v2) maximumf,
    TRef.unary (TRef.of (T := ⟨S4x1023, .f32⟩) main_call0_v2) (TRef.of (T := ⟨S4x1023x1, .f32⟩) main_call0_v3) (broadcastInDim S4x1023x1 ![0, 1] bcast_S4x1023_S4x1023x1_0_1),
    TRef.unary (TRef.of (T := ⟨S4x1023x1, .f32⟩) main_call0_v3) (TRef.of (T := ⟨S4x1023x32000, .f32⟩) main_call0_v4) (broadcastInDim S4x1023x32000 ![0, 1, 2] bcast_S4x1023x1_S4x1023x32000_0_1_2),
    TRef.binary (TRef.of (T := ⟨S4x1023x32000, .f32⟩) main_v27) (TRef.of (T := ⟨S4x1023x32000, .f32⟩) main_call0_v4) (TRef.of (T := ⟨S4x1023x32000, .f32⟩) main_call0_v5) subf,
    TRef.unary (TRef.of (T := ⟨S4x1023x32000, .f32⟩) main_call0_v5) (TRef.of (T := ⟨S4x1023x32000, .f32⟩) main_call0_v6) Host.exp,
    TRef.nullary (TRef.of (T := ⟨S_, .f32⟩) main_call0_cst_1) (constant S_ .f32 0x00000000#32),
    TRef.binary (TRef.of (T := ⟨S4x1023x32000, .f32⟩) main_call0_v6) (TRef.of (T := ⟨S_, .f32⟩) main_call0_cst_1) (TRef.of (T := ⟨S4x1023, .f32⟩) main_call0_v7) (fun x v => Host.reduceAdd x v reducesTo_S4x1023x32000_S4x1023_d2 h_S_),
    TRef.unary (TRef.of (T := ⟨S4x1023, .f32⟩) main_call0_v7) (TRef.of (T := ⟨S4x1023x1, .f32⟩) main_call0_v8) (broadcastInDim S4x1023x1 ![0, 1] bcast_S4x1023_S4x1023x1_0_1),
    TRef.unary (TRef.of (T := ⟨S4x1023x1, .f32⟩) main_call0_v8) (TRef.of (T := ⟨S4x1023x1, .f32⟩) main_call0_v9) Host.log,
    TRef.unary (TRef.of (T := ⟨S4x1023x1, .f32⟩) main_call0_v9) (TRef.of (T := ⟨S4x1023x32000, .f32⟩) main_call0_v10) (broadcastInDim S4x1023x32000 ![0, 1, 2] bcast_S4x1023x1_S4x1023x32000_0_1_2),
    TRef.binary (TRef.of (T := ⟨S4x1023x32000, .f32⟩) main_call0_v5) (TRef.of (T := ⟨S4x1023x32000, .f32⟩) main_call0_v10) (TRef.of (T := ⟨S4x1023x32000, .f32⟩) main_v28) subf ]

/-- The 23 operations that pick the target column's log-probability. -/
def partC : List (HloOp τ sig (Elt F)) :=
  [ unary main_v2 main_v29 (broadcastInDim S4x1023x1 ![0, 1] bcast_S4x1023_S4x1023x1_0_1 : (⟨S4x1023, .i32⟩ : BufTy).Contents (Elt F) → (⟨S4x1023x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x1023x1, .i32⟩) main_call1_v0) (broadcastInDim S4x1023x1 ![] bcast_S_S4x1023x1),
    TRef.binary (TRef.of (T := ⟨S4x1023x1, .i32⟩) main_v29) (TRef.of (T := ⟨S4x1023x1, .i32⟩) main_call1_v0) (TRef.of (T := ⟨S4x1023x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4x1023x1, .i32⟩) main_call1_v2) (broadcastInDim S4x1023x1 ![] bcast_S_S4x1023x1),
    TRef.binary (TRef.of (T := ⟨S4x1023x1, .i32⟩) main_v29) (TRef.of (T := ⟨S4x1023x1, .i32⟩) main_call1_v2) (TRef.of (T := ⟨S4x1023x1, .i32⟩) main_call1_v3) addi,
    TRef.ternary (TRef.of (T := ⟨S4x1023x1, .i1⟩) main_call1_v1) (TRef.of (T := ⟨S4x1023x1, .i32⟩) main_call1_v3) (TRef.of (T := ⟨S4x1023x1, .i32⟩) main_v29) (TRef.of (T := ⟨S4x1023x1, .i32⟩) main_call1_v4) select,
    TRef.reshape (TRef.of (T := ⟨S4x1023x1, .i32⟩) main_call1_v4) (TRef.of (T := ⟨S4x1023x1x1, .i32⟩) main_call1_v5) rfl shapeCasts_S4x1023x1_S4x1023x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4x1023x1x1, .i32⟩) main_call1_v6) (broadcastInDim S4x1023x1x1 ![] bcast_S_S4x1023x1x1),
    TRef.binary (TRef.of (T := ⟨S4x1023x1x1, .i32⟩) main_call1_v5) (TRef.of (T := ⟨S4x1023x1x1, .i32⟩) main_call1_v6) (TRef.of (T := ⟨S4x1023x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x1023x1x1, .i32⟩) main_call1_v9) (broadcastInDim S4x1023x1x1 ![0, 1, 2, 3] bcast_S1x1x1x1_S4x1023x1x1_0_1_2_3),
    TRef.binary (TRef.of (T := ⟨S4x1023x1x1, .i32⟩) main_call1_v5) (TRef.of (T := ⟨S4x1023x1x1, .i32⟩) main_call1_v9) (TRef.of (T := ⟨S4x1023x1x1, .i1⟩) main_call1_v10) (cmpi .sle),
    TRef.binary (TRef.of (T := ⟨S4x1023x1x1, .i1⟩) main_call1_v7) (TRef.of (T := ⟨S4x1023x1x1, .i1⟩) main_call1_v10) (TRef.of (T := ⟨S4x1023x1x1, .i1⟩) main_call1_v11) andi,
    TRef.nullary (TRef.of (T := ⟨S_, .i1⟩) main_call1_c_3) (constantI S_ 1 1#1),
    TRef.binary (TRef.of (T := ⟨S4x1023x1x1, .i1⟩) main_call1_v11) (TRef.of (T := ⟨S_, .i1⟩) main_call1_c_3) (TRef.of (T := ⟨S4x1023x1, .i1⟩) main_call1_v12) (fun x v => Host.reduce IntOp.andi x v reducesTo_S4x1023x1x1_S4x1023x1_d3 h_S_),
    TRef.binary (TRef.of (T := ⟨S4x1023x32000, .f32⟩) main_v28) (TRef.of (T := ⟨S4x1023x1x1, .i32⟩) main_call1_v5) (TRef.of (T := ⟨S4x1023x1, .f32⟩) main_call1_v13) (fun x i => Host.gather gather_S4x1023x32000_S4x1023x1x1_S4x1023x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S4x1023x1, .f32⟩) main_call1_v14) (broadcastInDim S4x1023x1 ![] bcast_S_S4x1023x1),
    TRef.ternary (TRef.of (T := ⟨S4x1023x1, .i1⟩) main_call1_v12) (TRef.of (T := ⟨S4x1023x1, .f32⟩) main_call1_v13) (TRef.of (T := ⟨S4x1023x1, .f32⟩) main_call1_v14) (TRef.of (T := ⟨S4x1023x1, .f32⟩) main_v30) select ]

/-- The last 28 operations: the row losses, the mask, the two total sums and their quotient. -/
def partD : List (HloOp τ sig (Elt F)) :=
  [ reshape main_v30 main_v31 rfl shapeCasts_S4x1023x1_S4x1023,
    unary main_v31 main_v32 (Host.negf : (⟨S4x1023, .f32⟩ : BufTy).Contents (Elt F) → (⟨S4x1023, .f32⟩ : BufTy).Contents (Elt F)),
    nullary main_cst_4 (constant S_ .f32 0x00000000#32),
    binary main_v28 main_cst_4 main_v33 ((fun x v => Host.reduceAdd x v reducesTo_S4x1023x32000_S4x1023_d2 h_S_) : (⟨S4x1023x32000, .f32⟩ : BufTy).Contents (Elt F) → (⟨S_, .f32⟩ : BufTy).Contents (Elt F) → (⟨S4x1023, .f32⟩ : BufTy).Contents (Elt F)),
    unary main_v33 main_v34 (Host.negf : (⟨S4x1023, .f32⟩ : BufTy).Contents (Elt F) → (⟨S4x1023, .f32⟩ : BufTy).Contents (Elt F)),
    nullary main_cst_5 (constant S_ .f32 0x3F666632#32),
    unary main_cst_5 main_v35 (broadcastInDim S4x1023 ![] bcast_S_S4x1023 : (⟨S_, .f32⟩ : BufTy).Contents (Elt F) → (⟨S4x1023, .f32⟩ : BufTy).Contents (Elt F)),
    binary main_v35 main_v32 main_v36 (mulf : (⟨S4x1023, .f32⟩ : BufTy).Contents (Elt F) → (⟨S4x1023, .f32⟩ : BufTy).Contents (Elt F) → (⟨S4x1023, .f32⟩ : BufTy).Contents (Elt F)),
    nullary main_cst_6 (constant S_ .f32 0x3651B8C5#32),
    unary main_cst_6 main_v37 (broadcastInDim S4x1023 ![] bcast_S_S4x1023 : (⟨S_, .f32⟩ : BufTy).Contents (Elt F) → (⟨S4x1023, .f32⟩ : BufTy).Contents (Elt F)),
    binary main_v37 main_v34 main_v38 (mulf : (⟨S4x1023, .f32⟩ : BufTy).Contents (Elt F) → (⟨S4x1023, .f32⟩ : BufTy).Contents (Elt F) → (⟨S4x1023, .f32⟩ : BufTy).Contents (Elt F)),
    binary main_v36 main_v38 main_v39 (addf : (⟨S4x1023, .f32⟩ : BufTy).Contents (Elt F) → (⟨S4x1023, .f32⟩ : BufTy).Contents (Elt F) → (⟨S4x1023, .f32⟩ : BufTy).Contents (Elt F)),
    nullary main_v40 (iotaInDim S1023 32 0),
    unary main_v40 main_v41 (broadcastInDim S1x1023 ![1] bcast_S1023_S1x1023_1 : (⟨S1023, .i32⟩ : BufTy).Contents (Elt F) → (⟨S1x1023, .i32⟩ : BufTy).Contents (Elt F)),
    unary main_arg2 main_v42 (broadcastInDim S4x1 ![0] bcast_S4_S4x1_0 : (⟨S4, .i32⟩ : BufTy).Contents (Elt F) → (⟨S4x1, .i32⟩ : BufTy).Contents (Elt F)),
    nullary main_c (constantI S_ 32 1#32),
    unary main_c main_v43 (broadcastInDim S4x1 ![] bcast_S_S4x1 : (⟨S_, .i32⟩ : BufTy).Contents (Elt F) → (⟨S4x1, .i32⟩ : BufTy).Contents (Elt F)),
    binary main_v42 main_v43 main_v44 (subi : (⟨S4x1, .i32⟩ : BufTy).Contents (Elt F) → (⟨S4x1, .i32⟩ : BufTy).Contents (Elt F) → (⟨S4x1, .i32⟩ : BufTy).Contents (Elt F)),
    unary main_v41 main_v45 (broadcastInDim S4x1023 ![0, 1] bcast_S1x1023_S4x1023_0_1 : (⟨S1x1023, .i32⟩ : BufTy).Contents (Elt F) → (⟨S4x1023, .i32⟩ : BufTy).Contents (Elt F)),
    unary main_v44 main_v46 (broadcastInDim S4x1023 ![0, 1] bcast_S4x1_S4x1023_0_1 : (⟨S4x1, .i32⟩ : BufTy).Contents (Elt F) → (⟨S4x1023, .i32⟩ : BufTy).Contents (Elt F)),
    binary main_v45 main_v46 main_v47 (cmpi .slt : (⟨S4x1023, .i32⟩ : BufTy).Contents (Elt F) → (⟨S4x1023, .i32⟩ : BufTy).Contents (Elt F) → (⟨S4x1023, .i1⟩ : BufTy).Contents (Elt F)),
    unary main_v47 main_v48 (uitofp .f32 : (⟨S4x1023, .i1⟩ : BufTy).Contents (Elt F) → (⟨S4x1023, .f32⟩ : BufTy).Contents (Elt F)),
    nullary main_cst_7 (constant S_ .f32 0x00000000#32),
    binary main_v48 main_cst_7 main_v49 ((fun x v => Host.reduceAdd x v reducesTo_S4x1023_S_d0_1 h_S_) : (⟨S4x1023, .f32⟩ : BufTy).Contents (Elt F) → (⟨S_, .f32⟩ : BufTy).Contents (Elt F) → (⟨S_, .f32⟩ : BufTy).Contents (Elt F)),
    binary main_v39 main_v48 main_v50 (mulf : (⟨S4x1023, .f32⟩ : BufTy).Contents (Elt F) → (⟨S4x1023, .f32⟩ : BufTy).Contents (Elt F) → (⟨S4x1023, .f32⟩ : BufTy).Contents (Elt F)),
    nullary main_cst_8 (constant S_ .f32 0x00000000#32),
    binary main_v50 main_cst_8 main_v51 ((fun x v => Host.reduceAdd x v reducesTo_S4x1023_S_d0_1 h_S_) : (⟨S4x1023, .f32⟩ : BufTy).Contents (Elt F) → (⟨S_, .f32⟩ : BufTy).Contents (Elt F) → (⟨S_, .f32⟩ : BufTy).Contents (Elt F)),
    binary main_v51 main_v49 main_v52 (Host.divf : (⟨S_, .f32⟩ : BufTy).Contents (Elt F) → (⟨S_, .f32⟩ : BufTy).Contents (Elt F) → (⟨S_, .f32⟩ : BufTy).Contents (Elt F)) ]

/-- The whole line is the four stretches in a row. -/
theorem ops_cut : (ops : List (HloOp τ sig (Elt F))) = partA ++ (partB ++ (partC ++ partD)) := rfl

/-- The memory after two stretches in a row is the second's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A typed reference's two transports cancel. -/
theorem ofBuf_toBuf {T : BufTy} (x : TRef sig T) (v : T.Contents (Elt F)) : x.ofBuf (x.toBuf v) = v := by
  obtain ⟨r, rfl, _, _⟩ := x
  rfl

/-! ## What each stretch leaves alone

A buffer that no operation of a stretch writes holds after it what it held before. -/

theorem A_arg0 (W : Valuation τ sig (Elt F)) :
    after partA W (Proc.devRef .tc main_arg0) = W (Proc.devRef .tc main_arg0) := by
  simp only [partA]
  after_results_simp

theorem A_arg1 (W : Valuation τ sig (Elt F)) :
    after partA W (Proc.devRef .tc main_arg1) = W (Proc.devRef .tc main_arg1) := by
  simp only [partA]
  after_results_simp

theorem A_arg2 (W : Valuation τ sig (Elt F)) :
    after partA W (Proc.devRef .tc main_arg2) = W (Proc.devRef .tc main_arg2) := by
  simp only [partA]
  after_results_simp

theorem A_arg3 (W : Valuation τ sig (Elt F)) :
    after partA W (Proc.devRef .tc main_arg3) = W (Proc.devRef .tc main_arg3) := by
  simp only [partA]
  after_results_simp

theorem A_arg4 (W : Valuation τ sig (Elt F)) :
    after partA W (Proc.devRef .tc main_arg4) = W (Proc.devRef .tc main_arg4) := by
  simp only [partA]
  after_results_simp

theorem A_arg5 (W : Valuation τ sig (Elt F)) :
    after partA W (Proc.devRef .tc main_arg5) = W (Proc.devRef .tc main_arg5) := by
  simp only [partA]
  after_results_simp

theorem B_v2 (W : Valuation τ sig (Elt F)) :
    after partB W (Proc.devRef .tc main_v2) = W (Proc.devRef .tc main_v2) := by
  simp only [partB]
  after_results_simp

theorem B_arg0 (W : Valuation τ sig (Elt F)) :
    after partB W (Proc.devRef .tc main_arg0) = W (Proc.devRef .tc main_arg0) := by
  simp only [partB]
  after_results_simp

theorem B_arg1 (W : Valuation τ sig (Elt F)) :
    after partB W (Proc.devRef .tc main_arg1) = W (Proc.devRef .tc main_arg1) := by
  simp only [partB]
  after_results_simp

theorem B_arg2 (W : Valuation τ sig (Elt F)) :
    after partB W (Proc.devRef .tc main_arg2) = W (Proc.devRef .tc main_arg2) := by
  simp only [partB]
  after_results_simp

theorem B_arg3 (W : Valuation τ sig (Elt F)) :
    after partB W (Proc.devRef .tc main_arg3) = W (Proc.devRef .tc main_arg3) := by
  simp only [partB]
  after_results_simp

theorem B_arg4 (W : Valuation τ sig (Elt F)) :
    after partB W (Proc.devRef .tc main_arg4) = W (Proc.devRef .tc main_arg4) := by
  simp only [partB]
  after_results_simp

theorem B_arg5 (W : Valuation τ sig (Elt F)) :
    after partB W (Proc.devRef .tc main_arg5) = W (Proc.devRef .tc main_arg5) := by
  simp only [partB]
  after_results_simp

theorem C_v28 (W : Valuation τ sig (Elt F)) :
    after partC W (Proc.devRef .tc main_v28) = W (Proc.devRef .tc main_v28) := by
  simp only [partC]
  after_results_simp

theorem C_arg0 (W : Valuation τ sig (Elt F)) :
    after partC W (Proc.devRef .tc main_arg0) = W (Proc.devRef .tc main_arg0) := by
  simp only [partC]
  after_results_simp

theorem C_arg1 (W : Valuation τ sig (Elt F)) :
    after partC W (Proc.devRef .tc main_arg1) = W (Proc.devRef .tc main_arg1) := by
  simp only [partC]
  after_results_simp

theorem C_arg2 (W : Valuation τ sig (Elt F)) :
    after partC W (Proc.devRef .tc main_arg2) = W (Proc.devRef .tc main_arg2) := by
  simp only [partC]
  after_results_simp

theorem C_arg3 (W : Valuation τ sig (Elt F)) :
    after partC W (Proc.devRef .tc main_arg3) = W (Proc.devRef .tc main_arg3) := by
  simp only [partC]
  after_results_simp

theorem C_arg4 (W : Valuation τ sig (Elt F)) :
    after partC W (Proc.devRef .tc main_arg4) = W (Proc.devRef .tc main_arg4) := by
  simp only [partC]
  after_results_simp

theorem C_arg5 (W : Valuation τ sig (Elt F)) :
    after partC W (Proc.devRef .tc main_arg5) = W (Proc.devRef .tc main_arg5) := by
  simp only [partC]
  after_results_simp

theorem D_arg0 (W : Valuation τ sig (Elt F)) :
    after partD W (Proc.devRef .tc main_arg0) = W (Proc.devRef .tc main_arg0) := by
  simp only [partD]
  after_results_simp

theorem D_arg1 (W : Valuation τ sig (Elt F)) :
    after partD W (Proc.devRef .tc main_arg1) = W (Proc.devRef .tc main_arg1) := by
  simp only [partD]
  after_results_simp

theorem D_arg2 (W : Valuation τ sig (Elt F)) :
    after partD W (Proc.devRef .tc main_arg2) = W (Proc.devRef .tc main_arg2) := by
  simp only [partD]
  after_results_simp

theorem D_arg3 (W : Valuation τ sig (Elt F)) :
    after partD W (Proc.devRef .tc main_arg3) = W (Proc.devRef .tc main_arg3) := by
  simp only [partD]
  after_results_simp

theorem D_arg4 (W : Valuation τ sig (Elt F)) :
    after partD W (Proc.devRef .tc main_arg4) = W (Proc.devRef .tc main_arg4) := by
  simp only [partD]
  after_results_simp

theorem D_arg5 (W : Valuation τ sig (Elt F)) :
    after partD W (Proc.devRef .tc main_arg5) = W (Proc.devRef .tc main_arg5) := by
  simp only [partD]
  after_results_simp

/-! ## What each stretch computes

From any memory, a stretch's last buffer holds the stage function of its inputs. The operations' functions are kept
folded while the two sides are compared: the comparison is of the way they are composed, never of what they compute. -/

attribute [local irreducible] Host.reduce Host.reduceAdd Host.gather Host.exp Host.log Host.rsqrt Host.divf Host.negf broadcastInDim transpose extractStridedSlice shapeCast subf mulf addf maximumf constant constantI cmpi addi subi andi select iotaInDim uitofp in
set_option maxRecDepth 4096 in
/-- After the first stretch the logits' buffer holds the logits of the arguments. -/
theorem A_v27 (W : Valuation τ sig (Elt F)) :
    after partA W (Proc.devRef .tc main_v27)
      = val_main_v27 (F := F) (W (Proc.devRef .tc main_arg0)) (W (Proc.devRef .tc main_arg3)) (W (Proc.devRef .tc main_arg4))
          (W (Proc.devRef .tc main_arg5)) := by
  simp only [partA]
  after_results_simp
  rfl

attribute [local irreducible] Host.reduce Host.reduceAdd Host.gather Host.exp Host.log Host.rsqrt Host.divf Host.negf broadcastInDim transpose extractStridedSlice shapeCast subf mulf addf maximumf constant constantI cmpi addi subi andi select iotaInDim uitofp in
/-- … and the sliced tokens' buffer the tokens from the second on. -/
theorem A_v2 (W : Valuation τ sig (Elt F)) :
    after partA W (Proc.devRef .tc main_v2) = val_main_v2 (F := F) (W (Proc.devRef .tc main_arg1)) := by
  simp only [partA]
  after_results_simp
  rfl

attribute [local irreducible] Host.reduce Host.reduceAdd Host.gather Host.exp Host.log Host.rsqrt Host.divf Host.negf broadcastInDim transpose extractStridedSlice shapeCast subf mulf addf maximumf constant constantI cmpi addi subi andi select iotaInDim uitofp in
set_option maxRecDepth 4096 in
/-- The second stretch takes the logits to their log-softmax. -/
theorem B_v28 (W : Valuation τ sig (Elt F)) (a0 : (⟨S1024x4x1024, .f32⟩ : BufTy).Contents (Elt F)) (a3 : (⟨S32000x1024, .f32⟩ : BufTy).Contents (Elt F)) (a4 a5 : (⟨S1024, .f32⟩ : BufTy).Contents (Elt F))
    (h : W (Proc.devRef .tc main_v27) = val_main_v27 (F := F) a0 a3 a4 a5) :
    after partB W (Proc.devRef .tc main_v28) = val_main_v28 (F := F) a0 a3 a4 a5 := by
  simp only [partB]
  after_results_simp
  rw [h]
  simp only [ofBuf_toBuf]
  rfl

attribute [local irreducible] Host.reduce Host.reduceAdd Host.gather Host.exp Host.log Host.rsqrt Host.divf Host.negf broadcastInDim transpose extractStridedSlice shapeCast subf mulf addf maximumf constant constantI cmpi addi subi andi select iotaInDim uitofp in
set_option maxRecDepth 4096 in
/-- The third stretch picks, from the log-softmax and the sliced tokens, the target column's entry. -/
theorem C_v30 (W : Valuation τ sig (Elt F)) (a0 : (⟨S1024x4x1024, .f32⟩ : BufTy).Contents (Elt F)) (a1 : (⟨S4x1024, .i32⟩ : BufTy).Contents (Elt F)) (a3 : (⟨S32000x1024, .f32⟩ : BufTy).Contents (Elt F)) (a4 a5 : (⟨S1024, .f32⟩ : BufTy).Contents (Elt F))
    (h2 : W (Proc.devRef .tc main_v2) = val_main_v2 (F := F) a1)
    (h28 : W (Proc.devRef .tc main_v28) = val_main_v28 (F := F) a0 a3 a4 a5) :
    after partC W (Proc.devRef .tc main_v30) = val_main_v30 (F := F) a0 a1 a3 a4 a5 := by
  simp only [partC]
  after_results_simp
  rw [h2, h28]
  simp only [ofBuf_toBuf]
  rfl

attribute [local irreducible] Host.reduce Host.reduceAdd Host.gather Host.exp Host.log Host.rsqrt Host.divf Host.negf broadcastInDim transpose extractStridedSlice shapeCast subf mulf addf maximumf constant constantI cmpi addi subi andi select iotaInDim uitofp in
set_option maxRecDepth 4096 in
/-- The last stretch takes the picked entries, the log-softmax and the lengths to the result. -/
theorem D_v52 (W : Valuation τ sig (Elt F)) (a0 : (⟨S1024x4x1024, .f32⟩ : BufTy).Contents (Elt F)) (a1 : (⟨S4x1024, .i32⟩ : BufTy).Contents (Elt F)) (a3 : (⟨S32000x1024, .f32⟩ : BufTy).Contents (Elt F)) (a4 a5 : (⟨S1024, .f32⟩ : BufTy).Contents (Elt F))
    (h30 : W (Proc.devRef .tc main_v30) = val_main_v30 (F := F) a0 a1 a3 a4 a5)
    (h28 : W (Proc.devRef .tc main_v28) = val_main_v28 (F := F) a0 a3 a4 a5) :
    after partD W (Proc.devRef .tc main_v52)
      = val_main_v52 (F := F) a0 a1 (W (Proc.devRef .tc main_arg2)) a3 a4 a5 := by
  simp only [partD]
  after_results_simp
  rw [h30, h28]
  rfl

/-! ## The whole line -/

/-- After all 99 operations the result buffer holds the last stage of the six arguments. -/
theorem after_v52 (V : Valuation τ sig (Elt F)) :
    after ops V (Proc.devRef .tc main_v52)
      = val_main_v52 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_cut, after_app, after_app, after_app]
  have hB28 := B_v28 (after partA V) _ _ _ _ (A_v27 V)
  have hB2 := (B_v2 (after partA V)).trans (A_v2 V)
  have hC30 := C_v30 (after partB (after partA V)) _ _ _ _ _ hB2 hB28
  have hC28 := (C_v28 (after partB (after partA V))).trans hB28
  have hD := D_v52 (after partC (after partB (after partA V))) _ _ _ _ _ hC30 hC28
  rw [(C_arg2 _).trans ((B_arg2 _).trans (A_arg2 V))] at hD
  exact hD

theorem after_arg0 (V : Valuation τ sig (Elt F)) :
    after ops V (Proc.devRef .tc main_arg0) = V (Proc.devRef .tc main_arg0) := by
  rw [ops_cut, after_app, after_app, after_app]
  exact (D_arg0 _).trans ((C_arg0 _).trans ((B_arg0 _).trans (A_arg0 V)))

theorem after_arg1 (V : Valuation τ sig (Elt F)) :
    after ops V (Proc.devRef .tc main_arg1) = V (Proc.devRef .tc main_arg1) := by
  rw [ops_cut, after_app, after_app, after_app]
  exact (D_arg1 _).trans ((C_arg1 _).trans ((B_arg1 _).trans (A_arg1 V)))

theorem after_arg2 (V : Valuation τ sig (Elt F)) :
    after ops V (Proc.devRef .tc main_arg2) = V (Proc.devRef .tc main_arg2) := by
  rw [ops_cut, after_app, after_app, after_app]
  exact (D_arg2 _).trans ((C_arg2 _).trans ((B_arg2 _).trans (A_arg2 V)))

theorem after_arg3 (V : Valuation τ sig (Elt F)) :
    after ops V (Proc.devRef .tc main_arg3) = V (Proc.devRef .tc main_arg3) := by
  rw [ops_cut, after_app, after_app, after_app]
  exact (D_arg3 _).trans ((C_arg3 _).trans ((B_arg3 _).trans (A_arg3 V)))

theorem after_arg4 (V : Valuation τ sig (Elt F)) :
    after ops V (Proc.devRef .tc main_arg4) = V (Proc.devRef .tc main_arg4) := by
  rw [ops_cut, after_app, after_app, after_app]
  exact (D_arg4 _).trans ((C_arg4 _).trans ((B_arg4 _).trans (A_arg4 V)))

theorem after_arg5 (V : Valuation τ sig (Elt F)) :
    after ops V (Proc.devRef .tc main_arg5) = V (Proc.devRef .tc main_arg5) := by
  rw [ops_cut, after_app, after_app, after_app]
  exact (D_arg5 _).trans ((C_arg5 _).trans ((B_arg5 _).trans (A_arg5 V)))

/-- On every device, for any float values, from any memory with zero counters: every weakly fair execution of the
    reference ends with its result at the last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = val_main_v52 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v52).trans (after_v52 _), (h c main_arg0).trans (after_arg0 _),
      (h c main_arg1).trans (after_arg1 _), (h c main_arg2).trans (after_arg2 _), (h c main_arg3).trans (after_arg3 _),
      (h c main_arg4).trans (after_arg4 _), (h c main_arg5).trans (after_arg5 _)⟩)
    (run_seq scopedRefs_eq scopedSems_eq defs main (fun _ => ops) main_eq (fun _ => ops_sub) m ρ)

end Cert.ReferenceIdeal.RunHand

end
-- ==== Proof.lean ====
/-
  The kernel's program and the reference compute one function of their arguments over the extended reals.

  Both normalise every hidden row, take its logits against the embedding table, and average the label-smoothed loss of
  the next token over the positions before each sequence's last token. The reference forms each row's log-softmax and
  reads the target column out of it; the kernel sweeps the vocabulary in ten tiles, carrying the running maximum, the
  sum of exponentials relative to it, the sum of the logits and the target's logit, and assembles the same loss from
  those four numbers: `c₁ (logsumexp x − x_tok) + c₂ (V logsumexp x − Σ x)`. The identity needs the logits to be real,
  which the finiteness of the float arguments gives, and the target word to be a column of the vocabulary, which the
  precondition states: outside that range the reference's gather wraps or answers a filler where the kernel's
  column test finds nothing.

  The frames of the two kernel programs are their generated frame certificates; the reference's frame is its run with
  the result dropped; the idealization rewrote nothing.
-/
import proofs.«428613_j5016521802043_1_alg».proof.Defs
import proofs.«428613_j5016521802043_1_alg».proof.Proof.Gen.Kernel
import proofs.«428613_j5016521802043_1_alg».proof.Proof.Gen.Kernel.Frame
import proofs.«428613_j5016521802043_1_alg».proof.Proof.Gen.KernelIdeal
import proofs.«428613_j5016521802043_1_alg».proof.Proof.Gen.KernelIdeal.Frame
import proofs.«428613_j5016521802043_1_alg».proof.Proof.Gen.ReferenceIdeal
import proofs.«428613_j5016521802043_1_alg».proof.Proof.Gen.Pre_finite_inputs
import proofs.«428613_j5016521802043_1_alg».proof.Proof.PreFacts
import proofs.«428613_j5016521802043_1_alg».proof.Proof.KRun
import proofs.«428613_j5016521802043_1_alg».proof.Proof.RefValue
import proofs.«428613_j5016521802043_1_alg».proof.Proof.RefRunHand
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

theorem preserves : Cert.preserves_Kernel_KernelIdeal := trivial

/-- Both programs end at the model's result of arguments that agree. -/
theorem algebraic : Cert.algebraic_KernelIdeal_ReferenceIdeal := by
  intro m ρ m' ρ' hpre hagree
  have hg : ∀ c, Cert.KernelIdeal.Value.Good m c := fun c => by
    obtain ⟨h0, h3, h4, h5, ht⟩ := Cert.Pre_finite_inputs.Decode.decode _ _ _ _ _ _ (hpre c)
    exact ⟨h0, h3, h4, h5, ht⟩
  refine ⟨fun c _ => Cert.KernelIdeal.Value.modelResult m c, Cert.KernelIdeal.Run.run m ρ hg, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _ (hg c).htok

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
